-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x128 : Shape := ⟨3, ![256, 512, 128]⟩
abbrev S256x512x512 : Shape := ⟨3, ![256, 512, 512]⟩
abbrev S128x32 : Shape := ⟨2, ![128, 32]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S256x512x32 : Shape := ⟨3, ![256, 512, 32]⟩
abbrev S256x512 : Shape := ⟨2, ![256, 512]⟩
abbrev S256x512x1 : Shape := ⟨3, ![256, 512, 1]⟩

class Facts : Prop where
  bcast_S_S256x512x128 : S_.BroadcastsInDim S256x512x128 (![] : Fin 0 → Fin S256x512x128.rank)
  reducesTo_S256x512x128_S_d0_1_2 : S256x512x128.ReducesTo [0, 1, 2] S_
  h_S_ : 0 < S_.numel
  bcast_S_S256x512x512 : S_.BroadcastsInDim S256x512x512 (![] : Fin 0 → Fin S256x512x512.rank)
  reducesTo_S256x512x512_S_d0_1_2 : S256x512x512.ReducesTo [0, 1, 2] S_
  bcast_S_S128x32 : S_.BroadcastsInDim S128x32 (![] : Fin 0 → Fin S128x32.rank)
  reducesTo_S128x32_S_d0_1 : S128x32.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  reducesTo_S256x512x512_S256x512_d2 : S256x512x512.ReducesTo [2] S256x512
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  reducesTo_S256x512x1_S_d0_1_2 : S256x512x1.ReducesTo [0, 1, 2] S_
  dot_S256x512x128_S128x32_S256x512x32_2_0_01_1_n_n_wf : DotDims.WF S256x512x128 S128x32 S256x512x32 [2] [0] [0, 1] [1] [] []
  dot_S256x512x32_S256x512x32_S256x512x512_2_2_1_1_0_0_wf : DotDims.WF S256x512x32 S256x512x32 S256x512x512 [2] [2] [1] [1] [0] [0]

variable [Facts]

def dot_S256x512x128_S128x32_S256x512x32_2_0_01_1_n_n : DotDims S256x512x128 S128x32 S256x512x32 where
  lhsContracting := [2]
  rhsContracting := [0]
  lhsNonContracting := [0, 1]
  rhsNonContracting := [1]
  lhsBatch := []
  rhsBatch := []
  wf := dot_S256x512x128_S128x32_S256x512x32_2_0_01_1_n_n_wf
def dot_S256x512x32_S256x512x32_S256x512x512_2_2_1_1_0_0 : DotDims S256x512x32 S256x512x32 S256x512x512 where
  lhsContracting := [2]
  rhsContracting := [2]
  lhsNonContracting := [1]
  rhsNonContracting := [1]
  lhsBatch := [0]
  rhsBatch := [0]
  wf := dot_S256x512x32_S256x512x32_S256x512x512_2_2_1_1_0_0_wf
def fn_part4 {F : FTy → Type} [FloatOps F] (main_arg0 : FVec F S256x512x128 .f32) (main_arg1 : FVec F S256x512x512 .f32) (main_arg2 : FVec F S128x32 .f32) (main_arg3 : FVec F S128x32 .f32) (main_v63 : IVec S_ 1) (main_v67 : IVec S_ 1) : IVec S_ 1 :=
  let main_v68 : IVec S_ 1 := andi main_v63 main_v67
  let main_v69 : FVec F S256x512x32 .f32 := (fun l r => Host.dotGeneral dot_S256x512x128_S128x32_S256x512x32_2_0_01_1_n_n none l r) main_arg0 main_arg2
  let main_v70 : FVec F S256x512x32 .f32 := (fun l r => Host.dotGeneral dot_S256x512x128_S128x32_S256x512x32_2_0_01_1_n_n none l r) main_arg0 main_arg3
  let main_v71 : FVec F S256x512x512 .f32 := (fun l r => Host.dotGeneral dot_S256x512x32_S256x512x32_S256x512x512_2_2_1_1_0_0 none l r) main_v69 main_v70
  let main_v72 : FVec F S256x512x512 .f32 := mulf main_v71 main_v71
  let main_v73 : FVec F S256x512x512 .f32 := mulf main_v72 main_arg1
  let main_cst_26 : FVec F S_ .f32 := constant S_ .f32 0x00000000#32
  let main_v74 : FVec F S256x512 .f32 := (fun x v => Host.reduceAdd x v reducesTo_S256x512x512_S256x512_d2 h_S_) main_v73 main_cst_26
  let main_v75 : FVec F S256x512x1 .f32 := broadcastInDim S256x512x1 ![0, 1] bcast_S256x512_S256x512x1_0_1 main_v74
  let main_cst_27 : FVec F S_ .f32 := constant S_ .f32 0x3A83126F#32
  let main_v76 : FVec F S256x512x1 .f32 := broadcastInDim S256x512x1 ![] bcast_S_S256x512x1 main_cst_27
  let main_v77 : FVec F S256x512x1 .f32 := addf main_v75 main_v76
  let main_cst_28 : FVec F S_ .f32 := constant S_ .f32 0x00000000#32
  let main_v78 : FVec F S256x512x1 .f32 := broadcastInDim S256x512x1 ![] bcast_S_S256x512x1 main_cst_28
  let main_v79 : IVec S256x512x1 1 := cmpf .une main_v77 main_v78
  let main_c_29 : IVec S_ 1 := constantI S_ 1 1#1
  let main_v80 : IVec S_ 1 := (fun x v => Host.reduce IntOp.andi x v reducesTo_S256x512x1_S_d0_1_2 h_S_) main_v79 main_c_29
  let main_v81 : IVec S_ 1 := andi main_v68 main_v80
  main_v81

def fn_part3 {F : FTy → Type} [FloatOps F] (main_arg0 : FVec F S256x512x128 .f32) (main_arg1 : FVec F S256x512x512 .f32) (main_arg2 : FVec F S128x32 .f32) (main_arg3 : FVec F S128x32 .f32) (main_arg11 : FVec F S64 .f32) (main_arg12 : FVec F S64x16 .f32) (main_arg13 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x16 .f32 := Host.absf main_arg12
  let main_cst_22 : FVec F S_ .f32 := constant S_ .f32 0x7F800000#32
  let main_v60 : FVec F S64x16 .f32 := broadcastInDim S64x16 ![] bcast_S_S64x16 main_cst_22
  let main_v61 : IVec S64x16 1 := cmpf .olt main_v59 main_v60
  let main_c_23 : IVec S_ 1 := constantI S_ 1 1#1
  let main_v62 : IVec S_ 1 := (fun x v => Host.reduce IntOp.andi x v reducesTo_S64x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg0 main_arg1 main_arg2 main_arg3 main_v63 main_v67

def fn_part2 {F : FTy → Type} [FloatOps F] (main_arg0 : FVec F S256x512x128 .f32) (main_arg1 : FVec F S256x512x512 .f32) (main_arg2 : FVec F S128x32 .f32) (main_arg3 : FVec F S128x32 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg0 main_arg1 main_arg2 main_arg3 main_arg11 main_arg12 main_arg13 main_v48 main_v49 main_v50

def fn_part1 {F : FTy → Type} [FloatOps F] (main_arg0 : FVec F S256x512x128 .f32) (main_arg1 : FVec F S256x512x512 .f32) (main_arg2 : FVec F S128x32 .f32) (main_arg3 : FVec F S128x32 .f32) (main_arg4 : FVec F S256x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg3 main_arg7 main_arg8 main_arg9 main_arg10 main_arg11 main_arg12 main_arg13 main_v33

def fn {F : FTy → Type} [FloatOps F] (main_arg0 : FVec F S256x512x128 .f32) (main_arg1 : FVec F S256x512x512 .f32) (main_arg2 : FVec F S128x32 .f32) (main_arg3 : FVec F S128x32 .f32) (main_arg4 : FVec F S256x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) : IVec S_ 1 :=
  let main_v0 : FVec F S256x512x128 .f32 := Host.absf main_arg0
  let main_cst : FVec F S_ .f32 := constant S_ .f32 0x7F800000#32
  let main_v1 : FVec F S256x512x128 .f32 := broadcastInDim S256x512x128 ![] bcast_S_S256x512x128 main_cst
  let main_v2 : IVec S256x512x128 1 := cmpf .olt main_v0 main_v1
  let main_c : IVec S_ 1 := constantI S_ 1 1#1
  let main_v3 : IVec S_ 1 := (fun x v => Host.reduce IntOp.andi x v reducesTo_S256x512x128_S_d0_1_2 h_S_) main_v2 main_c
  let main_v4 : FVec F S256x512x512 .f32 := Host.absf main_arg1
  let main_cst_0 : FVec F S_ .f32 := constant S_ .f32 0x7F800000#32
  let main_v5 : FVec F S256x512x512 .f32 := broadcastInDim S256x512x512 ![] bcast_S_S256x512x512 main_cst_0
  let main_v6 : IVec S256x512x512 1 := cmpf .olt main_v4 main_v5
  let main_c_1 : IVec S_ 1 := constantI S_ 1 1#1
  let main_v7 : IVec S_ 1 := (fun x v => Host.reduce IntOp.andi x v reducesTo_S256x512x512_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg0 main_arg1 main_arg2 main_arg3 main_arg4 main_arg5 main_arg6 main_arg7 main_arg8 main_arg9 main_arg10 main_arg11 main_arg12 main_arg13 main_v13 main_v16
-- ==== Kernel.lean ====
abbrev S256x512x128 : Shape := ⟨3, ![256, 512, 128]⟩
abbrev S256x512x512 : Shape := ⟨3, ![256, 512, 512]⟩
abbrev S128x32 : Shape := ⟨2, ![128, 32]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S256x512x64 : Shape := ⟨3, ![256, 512, 64]⟩
abbrev S1x512x128 : Shape := ⟨3, ![1, 512, 128]⟩
abbrev S1x512x512 : Shape := ⟨3, ![1, 512, 512]⟩
abbrev S1x512x64 : Shape := ⟨3, ![1, 512, 64]⟩
abbrev S512x128 : Shape := ⟨2, ![512, 128]⟩
abbrev S512x512 : Shape := ⟨2, ![512, 512]⟩
abbrev S512x32 : Shape := ⟨2, ![512, 32]⟩
abbrev S32x512 : Shape := ⟨2, ![32, 512]⟩
abbrev S512 : Shape := ⟨1, ![512]⟩
abbrev S512x1 : Shape := ⟨2, ![512, 1]⟩
abbrev S512x256 : Shape := ⟨2, ![512, 256]⟩
abbrev S512x64 : Shape := ⟨2, ![512, 64]⟩
abbrev S_ : Shape := ⟨0, ![]⟩
abbrev S131072x64 : Shape := ⟨2, ![131072, 64]⟩
abbrev S8192x64 : Shape := ⟨2, ![8192, 64]⟩
abbrev S1x16 : Shape := ⟨2, ![1, 16]⟩
abbrev S131072x16 : Shape := ⟨2, ![131072, 16]⟩
abbrev S8192x16 : Shape := ⟨2, ![8192, 16]⟩
abbrev S256x512x16 : Shape := ⟨3, ![256, 512, 16]⟩

abbrev nBuf : Space → Nat
  | .hbm => 46
  | .vmem => 34
  | .smem => 0
  | _ => 0

abbrev bufTy : (tb : Table) → Fin (tcTables nBuf tb) → BufTy
  | .hbm, ⟨0, _⟩ => ⟨S256x512x128, .f32⟩
  | .hbm, ⟨1, _⟩ => ⟨S256x512x512, .f32⟩
  | .hbm, ⟨2, _⟩ => ⟨S128x32, .f32⟩
  | .hbm, ⟨3, _⟩ => ⟨S128x32, .f32⟩
  | .hbm, ⟨4, _⟩ => ⟨S256x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S1x64, .f32⟩
  | .hbm, ⟨15, _⟩ => ⟨S256x512x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S_, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S131072x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S131072x64, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x16, .f32⟩
  | .hbm, ⟨44, _⟩ => ⟨S131072x16, .f32⟩
  | .hbm, ⟨45, _⟩ => ⟨S256x512x16, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S128x32, .f32⟩
  | .local _ .vmem, ⟨5, _⟩ => ⟨S128x32, .f32⟩
  | .local _ .vmem, ⟨6, _⟩ => ⟨S256x64, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | .local _ .vmem, ⟨10, _⟩ => ⟨S1x64, .f32⟩
  | .local _ .vmem, ⟨11, _⟩ => ⟨S1x64, .f32⟩
  | .local _ .vmem, ⟨12, _⟩ => ⟨S8192x64, .f32⟩
  | .local _ .vmem, ⟨13, _⟩ => ⟨S8192x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S8192x64, .f32⟩
  | .local _ .vmem, ⟨21, _⟩ => ⟨S8192x64, .f32⟩
  | .local _ .vmem, ⟨22, _⟩ => ⟨S1x64, .f32⟩
  | .local _ .vmem, ⟨23, _⟩ => ⟨S1x64, .f32⟩
  | .local _ .vmem, ⟨24, _⟩ => ⟨S8192x64, .f32⟩
  | .local _ .vmem, ⟨25, _⟩ => ⟨S8192x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S64x16, .f32⟩
  | .local _ .vmem, ⟨31, _⟩ => ⟨S1x16, .f32⟩
  | .local _ .vmem, ⟨32, _⟩ => ⟨S8192x16, .f32⟩
  | .local _ .vmem, ⟨33, _⟩ => ⟨S8192x16, .f32⟩
  | _, _ => ⟨S256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem9_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8192x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  transposes_S512x32_p1_0_S32x512 : S512x32.Transposes [1, 0] S32x512
  reduces_S512x512_S512 : S512x512.Reduces [1] S512
  shapeCasts_S512_S512x1 : S512.ShapeCasts S512x1
  broadcasts_S512x1_S512x512 : S512x1.Broadcasts S512x512
  concatenates_S512x128_S512x128_S512x256_d1 : Shape.Concatenates [S512x128, S512x128] S512x256 1
  inb_S256x64_S256x64_0_0 : ∀ a, (![0, 0] : Fin 2 → Nat) a + S256x64.size a ≤ S256x64.size a
  h_S256x64 : 0 < S256x64.numel
  shapeCasts_S1x64_S1x64 : S1x64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  reduces_S512x64_S64 : S512x64.Reduces [0] S64
  bcast_S_S1x64 : S_.BroadcastsInDim S1x64 (![] : Fin 0 → Fin S1x64.rank)
  shapeCasts_S256x512x64_S131072x64 : S256x512x64.ShapeCasts S131072x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  reduces_S8192x64_S64 : S8192x64.Reduces [0] S64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  shapeCasts_S131072x16_S256x512x16 : S131072x16.ShapeCasts S256x512x16
  dot_S512x128_S128x32_S512x32_1_0_0_1_n_n_wf : DotDims.WF S512x128 S128x32 S512x32 [1] [0] [0] [1] [] []
  dot_S512x32_S32x512_S512x512_1_0_0_1_n_n_wf : DotDims.WF S512x32 S32x512 S512x512 [1] [0] [0] [1] [] []
  dot_S512x512_S512x128_S512x128_1_0_0_1_n_n_wf : DotDims.WF S512x512 S512x128 S512x128 [1] [0] [0] [1] [] []
  dot_S512x256_S256x64_S512x64_1_0_0_1_n_n_wf : DotDims.WF S512x256 S256x64 S512x64 [1] [0] [0] [1] [] []
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S256x512x128.size a
  hwx0_0 : ∀ i : grid0.Coords, EltTy.bits .f32 = 32 ∨ (Rect.block (s := S256x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S256x512x512.size a
  hwx0_1 : ∀ i : grid0.Coords, EltTy.bits .f32 = 32 ∨ (Rect.block (s := S256x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S256x512x64.size a
  hwx0_6 : ∀ i : grid0.Coords, EltTy.bits .f32 = 32 ∨ (Rect.block (s := S256x512x64) S1x512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S131072x64.size a
  hwx1_0 : ∀ i : grid1.Coords, EltTy.bits .f32 = 32 ∨ (Rect.block (s := S131072x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x64.size a ≤ S131072x64.size a
  hwx1_7 : ∀ i : grid1.Coords, EltTy.bits .f32 = 32 ∨ (Rect.block (s := S131072x64) S8192x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S131072x64.size a
  hwx2_0 : ∀ i : grid2.Coords, EltTy.bits .f32 = 32 ∨ (Rect.block (s := S131072x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8192x16.size a ≤ S131072x16.size a
  hwx2_7 : ∀ i : grid2.Coords, EltTy.bits .f32 = 32 ∨ (Rect.block (s := S131072x16) S8192x16.size (cc2_transform_7 i) (hinb2_7 i)).WholeWords (EltTy.packing .f32)

variable [Facts₀]

def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S8192x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v12_0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S8192x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S256x512x128 : Shape := ⟨3, ![256, 512, 128]⟩
abbrev S256x512x512 : Shape := ⟨3, ![256, 512, 512]⟩
abbrev S128x32 : Shape := ⟨2, ![128, 32]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S256x512x32 : Shape := ⟨3, ![256, 512, 32]⟩
abbrev S_ : Shape := ⟨0, ![]⟩
abbrev S256x512 : Shape := ⟨2, ![256, 512]⟩
abbrev S256x512x1 : Shape := ⟨3, ![256, 512, 1]⟩
abbrev S256x512x256 : Shape := ⟨3, ![256, 512, 256]⟩
abbrev S131072x256 : Shape := ⟨2, ![131072, 256]⟩
abbrev S131072x64 : Shape := ⟨2, ![131072, 64]⟩
abbrev S1x64 : Shape := ⟨2, ![1, 64]⟩
abbrev S131072x16 : Shape := ⟨2, ![131072, 16]⟩
abbrev S1x16 : Shape := ⟨2, ![1, 16]⟩
abbrev S256x512x16 : Shape := ⟨3, ![256, 512, 16]⟩

abbrev nBuf : Space → Nat
  | .hbm => 145
  | .vmem => 0
  | .smem => 0
  | _ => 0

abbrev hbmTy0_0 (i : Nat) : BufTy := match i % 128 with
  | 0 => ⟨S256x512x128, .f32⟩
  | 1 => ⟨S256x512x512, .f32⟩
  | 2 => ⟨S128x32, .f32⟩
  | 3 => ⟨S128x32, .f32⟩
  | 4 => ⟨S256x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x16, .f32⟩
  | 13 => ⟨S16, .f32⟩
  | 14 => ⟨S256x512x32, .f32⟩
  | 15 => ⟨S256x512x32, .f32⟩
  | 16 => ⟨S256x512x512, .f32⟩
  | 17 => ⟨S256x512x512, .f32⟩
  | 18 => ⟨S256x512x512, .f32⟩
  | 19 => ⟨S_, .f32⟩
  | 20 => ⟨S256x512, .f32⟩
  | 21 => ⟨S256x512x1, .f32⟩
  | 22 => ⟨S_, .f32⟩
  | 23 => ⟨S256x512x1, .f32⟩
  | 24 => ⟨S256x512x1, .f32⟩
  | 25 => ⟨S256x512x512, .f32⟩
  | 26 => ⟨S256x512x512, .f32⟩
  | 27 => ⟨S256x512x128, .f32⟩
  | 28 => ⟨S256x512x256, .f32⟩
  | 29 => ⟨S131072x256, .f32⟩
  | 30 => ⟨S131072x64, .f32⟩
  | 31 => ⟨S1x64, .f32⟩
  | 32 => ⟨S131072x64, .f32⟩
  | 33 => ⟨S131072x64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S131072x64, .f32⟩
  | 47 => ⟨S131072x64, .f32⟩
  | 48 => ⟨S131072x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S131072x64, .f32⟩
  | 64 => ⟨S131072x64, .f32⟩
  | 65 => ⟨S_, .f32⟩
  | 66 => ⟨S64, .f32⟩
  | 67 => ⟨S64, .f32⟩
  | 68 => ⟨S64, .f32⟩
  | 69 => ⟨S1x64, .f32⟩
  | 70 => ⟨S131072x64, .f32⟩
  | 71 => ⟨S131072x64, .f32⟩
  | 72 => ⟨S1x64, .f32⟩
  | 73 => ⟨S131072x64, .f32⟩
  | 74 => ⟨S131072x64, .f32⟩
  | 75 => ⟨S1x64, .f32⟩
  | 76 => ⟨S131072x64, .f32⟩
  | 77 => ⟨S131072x64, .f32⟩
  | 78 => ⟨S_, .f32⟩
  | 79 => ⟨S131072x64, .f32⟩
  | 80 => ⟨S131072x64, .f32⟩
  | 81 => ⟨S131072x64, .f32⟩
  | 82 => ⟨S1x64, .f32⟩
  | 83 => ⟨S131072x64, .f32⟩
  | 84 => ⟨S131072x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S131072x64, .f32⟩
  | 98 => ⟨S131072x64, .f32⟩
  | 99 => ⟨S131072x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S131072x64, .f32⟩
  | 115 => ⟨S131072x64, .f32⟩
  | 116 => ⟨S_, .f32⟩
  | 117 => ⟨S64, .f32⟩
  | 118 => ⟨S64, .f32⟩
  | 119 => ⟨S64, .f32⟩
  | 120 => ⟨S1x64, .f32⟩
  | 121 => ⟨S131072x64, .f32⟩
  | 122 => ⟨S131072x64, .f32⟩
  | 123 => ⟨S1x64, .f32⟩
  | 124 => ⟨S131072x64, .f32⟩
  | 125 => ⟨S131072x64, .f32⟩
  | 126 => ⟨S1x64, .f32⟩
  | 127 => ⟨S131072x64, .f32⟩
  | _ => ⟨S256x512x128, .f32⟩

abbrev hbmTy0_1 (i : Nat) : BufTy := match i % 128 with
  | 0 => ⟨S131072x64, .f32⟩
  | 1 => ⟨S_, .f32⟩
  | 2 => ⟨S131072x64, .f32⟩
  | 3 => ⟨S131072x64, .f32⟩
  | 4 => ⟨S131072x16, .f32⟩
  | 5 => ⟨S1x16, .f32⟩
  | 6 => ⟨S131072x16, .f32⟩
  | 7 => ⟨S131072x16, .f32⟩
  | 8 => ⟨S131072x16, .f32⟩
  | 9 => ⟨S131072x16, .f32⟩
  | 10 => ⟨S_, .f32⟩
  | 11 => ⟨S131072x16, .f32⟩
  | 12 => ⟨S131072x16, .f32⟩
  | 13 => ⟨S_, .f32⟩
  | 14 => ⟨S131072x16, .f32⟩
  | 15 => ⟨S131072x16, .f32⟩
  | 16 => ⟨S256x512x16, .f32⟩
  | _ => ⟨S256x512x128, .f32⟩

abbrev hbmTy (i : Nat) : BufTy := match i / 128 with
  | 0 => hbmTy0_0 i
  | 1 => hbmTy0_1 i
  | _ => ⟨S256x512x128, .f32⟩

abbrev bufTy : (tb : Table) → Fin (tcTables nBuf tb) → BufTy
  | .hbm, ⟨i, _⟩ => hbmTy i
  | _, _ => ⟨S256x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call1_cst : Ref sig .tc := ⟨.hbm, 78, rfl⟩
abbrev main_call1_v0 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_4 : Ref sig .tc := ⟨.hbm, 85, rfl⟩
abbrev main_v42 : Ref sig .tc := ⟨.hbm, 86, rfl⟩
abbrev main_cst_5 : Ref sig .tc := ⟨.hbm, 87, rfl⟩
abbrev main_v43 : Ref sig .tc := ⟨.hbm, 88, rfl⟩
abbrev main_v44 : Ref sig .tc := ⟨.hbm, 89, rfl⟩
abbrev main_c_6 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_7 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_call3_cst : Ref sig .tc := ⟨.hbm, 129, rfl⟩
abbrev main_call3_v0 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_cst_8 : Ref sig .tc := ⟨.hbm, 138, rfl⟩
abbrev main_v68 : Ref sig .tc := ⟨.hbm, 139, rfl⟩
abbrev main_v69 : Ref sig .tc := ⟨.hbm, 140, rfl⟩
abbrev main_cst_9 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩

abbrev nD : Nat := 1
abbrev τ : Topo := Topo.v7x

variable {F : FTy → Type} [FloatOps F]

class Facts₀ : Prop where
  reducesTo_S256x512x512_S256x512_d2 : S256x512x512.ReducesTo [2] S256x512
  h_S_ : 0 < S_.numel
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  bcast_S256x512x1_S256x512x512_0_1_2 : S256x512x1.BroadcastsInDim S256x512x512 (![0, 1, 2] : Fin 3 → Fin S256x512x512.rank)
  concatenates_S256x512x128_S256x512x128_S256x512x256_d2 : Shape.Concatenates [S256x512x128, S256x512x128] S256x512x256 2
  shapeCasts_S256x512x256_S131072x256 : S256x512x256.ShapeCasts S131072x256
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S64_d0 : S131072x64.ReducesTo [0] S64
  bcast_S_S64 : S_.BroadcastsInDim S64 (![] : Fin 0 → Fin S64.rank)
  bcast_S_S1x64 : S_.BroadcastsInDim S1x64 (![] : Fin 0 → Fin S1x64.rank)
  bcast_S_S131072x64 : S_.BroadcastsInDim S131072x64 (![] : Fin 0 → Fin S131072x64.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  shapeCasts_S131072x16_S256x512x16 : S131072x16.ShapeCasts S256x512x16
  dot_S256x512x128_S128x32_S256x512x32_2_0_01_1_n_n_wf : DotDims.WF S256x512x128 S128x32 S256x512x32 [2] [0] [0, 1] [1] [] []
  dot_S256x512x32_S256x512x32_S256x512x512_2_2_1_1_0_0_wf : DotDims.WF S256x512x32 S256x512x32 S256x512x512 [2] [2] [1] [1] [0] [0]
  dot_S256x512x512_S256x512x128_S256x512x128_2_1_1_2_0_0_wf : DotDims.WF S256x512x512 S256x512x128 S256x512x128 [2] [1] [1] [2] [0] [0]
  dot_S131072x256_S256x64_S131072x64_1_0_0_1_n_n_wf : DotDims.WF S131072x256 S256x64 S131072x64 [1] [0] [0] [1] [] []
  dot_S131072x64_S64x64_S131072x64_1_0_0_1_n_n_wf : DotDims.WF S131072x64 S64x64 S131072x64 [1] [0] [0] [1] [] []
  dot_S131072x64_S64x16_S131072x16_1_0_0_1_n_n_wf : DotDims.WF S131072x64 S64x16 S131072x16 [1] [0] [0] [1] [] []

variable [Facts₀]

def dot_S256x512x128_S128x32_S256x512x32_2_0_01_1_n_n : DotDims S256x512x128 S128x32 S256x512x32 where
  lhsContracting := [2]
  rhsContracting := [0]
  lhsNonContracting := [0, 1]
  rhsNonContracting := [1]
  lhsBatch := []
  rhsBatch := []
  wf := dot_S256x512x128_S128x32_S256x512x32_2_0_01_1_n_n_wf
def dot_S256x512x32_S256x512x32_S256x512x512_2_2_1_1_0_0 : DotDims S256x512x32 S256x512x32 S256x512x512 where
  lhsContracting := [2]
  rhsContracting := [2]
  lhsNonContracting := [1]
  rhsNonContracting := [1]
  lhsBatch := [0]
  rhsBatch := [0]
  wf := dot_S256x512x32_S256x512x32_S256x512x512_2_2_1_1_0_0_wf
def dot_S256x512x512_S256x512x128_S256x512x128_2_1_1_2_0_0 : DotDims S256x512x512 S256x512x128 S256x512x128 where
  lhsContracting := [2]
  rhsContracting := [1]
  lhsNonContracting := [1]
  rhsNonContracting := [2]
  lhsBatch := [0]
  rhsBatch := [0]
  wf := dot_S256x512x512_S256x512x128_S256x512x128_2_1_1_2_0_0_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x16_S131072x16_1_0_0_1_n_n : DotDims S131072x64 S64x16 S131072x16 where
  lhsContracting := [1]
  rhsContracting := [0]
  lhsNonContracting := [0]
  rhsNonContracting := [1]
  lhsBatch := []
  rhsBatch := []
  wf := dot_S131072x64_S64x16_S131072x16_1_0_0_1_n_n_wf

class Facts : Prop extends Facts₀ where

variable [Facts]
-- ==== Proof.Spec.lean ====
/-
  The mathematics both programs compute, written once over the extended reals, index by index.

  Inputs are finite-dimensional families of extended reals: node features `s b n d`, edge weights `g b n p`, the
  two projection matrices, and the weights of a three-layer head with two batch normalisations over all
  `256 * 512 = 131072` rows.

  * attention: `q = s·qw`, `k = s·kw`, `score = (q·kᵀ)² ⊙ g`, `att = score / (Σ_p score + 0.001)`, `agg = att·s`;
  * first layer: `h1 = [s, agg]·w1 + b1`;
  * batch normalisation of a 131072 × 64 matrix `h`, column by column: mean `μ = (Σ_r h r) / N`, and the variance
    in two spellings — `varK`: `(Σ_r h r²)/N − μ²` (sums of squares) and `varR`: `(Σ_r (h r − μ)²)/N`
    (centred) — which agree when every entry is a real number;
  * `bnRelu`: `max ((h − μ)·rsqrt(var + ε)·γ + β) 0`; `lin`: a matrix product plus a bias row; the logistic function.

  `outK` chains these with `varK`, `outR` with `varR`.
-/
import Idealize.ShloMosaic.PureOps.Ideal
import Idealize.ShloMosaic.Lib.ValueIdx

noncomputable section

namespace Cert.Spec

open Idealize.ShloMosaic

/-- The shared literal `0.001` (its binary32 value). -/
def c001 : EReal := Ideal.ofBits .f32 0x3A83126F#32
/-- The shared literal `1e-5` (its binary32 value). -/
def cEps : EReal := Ideal.ofBits .f32 0x3727C5AC#32
/-- The row count `131072` as a binary32 literal. -/
def cN : EReal := Ideal.ofBits .f32 0x48000000#32

/-- Row `b * 512 + n` of the flattened batch. -/
def rowOf (b : Fin 256) (n : Fin 512) : Fin 131072 := ⟨b.val * 512 + n.val, by omega⟩
/-- The batch of a flattened row. -/
def rowB (r : Fin 131072) : Fin 256 := ⟨r.val / 512, by omega⟩
/-- The position inside its batch of a flattened row. -/
def rowN (r : Fin 131072) : Fin 512 := ⟨r.val % 512, by omega⟩

theorem rowB_rowOf (b : Fin 256) (n : Fin 512) : rowB (rowOf b n) = b := by
  apply Fin.ext; simp only [rowB, rowOf]; omega
theorem rowN_rowOf (b : Fin 256) (n : Fin 512) : rowN (rowOf b n) = n := by
  apply Fin.ext; simp only [rowN, rowOf]; omega
theorem rowOf_rowB_rowN (r : Fin 131072) : rowOf (rowB r) (rowN r) = r := by
  apply Fin.ext; simp only [rowB, rowN, rowOf]; omega

/-- The inputs, each as a family over its coordinates. -/
structure Inputs where
  s : Fin 256 → Fin 512 → Fin 128 → EReal
  g : Fin 256 → Fin 512 → Fin 512 → EReal
  qw : Fin 128 → Fin 32 → EReal
  kw : Fin 128 → Fin 32 → EReal
  w1 : Fin 256 → Fin 64 → EReal
  b1 : Fin 64 → EReal
  g1 : Fin 64 → EReal
  be1 : Fin 64 → EReal
  w2 : Fin 64 → Fin 64 → EReal
  b2 : Fin 64 → EReal
  g2 : Fin 64 → EReal
  be2 : Fin 64 → EReal
  wo : Fin 64 → Fin 16 → EReal
  bo : Fin 16 → EReal

/-! ## Attention and the first layer, per batch -/

/-- A projection `s·w` of the node features. -/
def proj (s : Fin 256 → Fin 512 → Fin 128 → EReal) (w : Fin 128 → Fin 32 → EReal) (b : Fin 256) (n : Fin 512) (m : Fin 32) : EReal :=
  ∑ d : Fin 128, s b n d * w d m

/-- `q·kᵀ` inside batch `b`. -/
def qk (s : Fin 256 → Fin 512 → Fin 128 → EReal) (qw kw : Fin 128 → Fin 32 → EReal) (b : Fin 256) (n p : Fin 512) : EReal :=
  ∑ m : Fin 32, proj s qw b n m * proj s kw b p m

/-- The squared, edge-weighted score. -/
def score (s : Fin 256 → Fin 512 → Fin 128 → EReal) (g : Fin 256 → Fin 512 → Fin 512 → EReal) (qw kw : Fin 128 → Fin 32 → EReal)
    (b : Fin 256) (n p : Fin 512) : EReal :=
  qk s qw kw b n p * qk s qw kw b n p * g b n p

/-- The attention denominator of row `(b, n)`. -/
def denom (s : Fin 256 → Fin 512 → Fin 128 → EReal) (g : Fin 256 → Fin 512 → Fin 512 → EReal) (qw kw : Fin 128 → Fin 32 → EReal)
    (b : Fin 256) (n : Fin 512) : EReal :=
  (∑ p : Fin 512, score s g qw kw b n p) + c001

/-- The normalised attention weight. -/
def att (s : Fin 256 → Fin 512 → Fin 128 → EReal) (g : Fin 256 → Fin 512 → Fin 512 → EReal) (qw kw : Fin 128 → Fin 32 → EReal)
    (b : Fin 256) (n p : Fin 512) : EReal :=
  Ideal.div (score s g qw kw b n p) (denom s g qw kw b n)

/-- The aggregated neighbour features. -/
def agg (s : Fin 256 → Fin 512 → Fin 128 → EReal) (g : Fin 256 → Fin 512 → Fin 512 → EReal) (qw kw : Fin 128 → Fin 32 → EReal)
    (b : Fin 256) (n : Fin 512) (d : Fin 128) : EReal :=
  ∑ p : Fin 512, att s g qw kw b n p * s b p d

/-- The concatenated features `[s, agg]`. -/
def feat (s : Fin 256 → Fin 512 → Fin 128 → EReal) (g : Fin 256 → Fin 512 → Fin 512 → EReal) (qw kw : Fin 128 → Fin 32 → EReal)
    (b : Fin 256) (n : Fin 512) (e : Fin 256) : EReal :=
  if h : e.val < 128 then s b n ⟨e.val, h⟩ else agg s g qw kw b n ⟨e.val - 128, by omega⟩

/-- The first layer before normalisation, per batch. -/
def h1 (s : Fin 256 → Fin 512 → Fin 128 → EReal) (g : Fin 256 → Fin 512 → Fin 512 → EReal) (qw kw : Fin 128 → Fin 32 → EReal)
    (w1 : Fin 256 → Fin 64 → EReal) (b1 : Fin 64 → EReal) (b : Fin 256) (n : Fin 512) (j : Fin 64) : EReal :=
  (∑ e : Fin 256, feat s g qw kw b n e * w1 e j) + b1 j

/-! ## Batch normalisation over all rows, a linear layer, the logistic function -/

/-- A column's sum. -/
def colSum (h : Fin 131072 → Fin 64 → EReal) (j : Fin 64) : EReal := ∑ r : Fin 131072, h r j
/-- A column's sum of squares. -/
def colSumSq (h : Fin 131072 → Fin 64 → EReal) (j : Fin 64) : EReal := ∑ r : Fin 131072, h r j * h r j
/-- A column's mean. -/
def mean (h : Fin 131072 → Fin 64 → EReal) (j : Fin 64) : EReal := Ideal.div (colSum h j) cN
/-- The variance as mean of squares minus squared mean. -/
def varK (h : Fin 131072 → Fin 64 → EReal) (j : Fin 64) : EReal := Ideal.div (colSumSq h j) cN - mean h j * mean h j
/-- The variance as mean of squared deviations. -/
def varR (h : Fin 131072 → Fin 64 → EReal) (j : Fin 64) : EReal :=
  Ideal.div (∑ r : Fin 131072, (h r j - mean h j) * (h r j - mean h j)) cN

/-- Normalise with the given statistics, scale, shift, clamp at zero. -/
def bnRelu (mu var gam bet : Fin 64 → EReal) (h : Fin 131072 → Fin 64 → EReal) (r : Fin 131072) (j : Fin 64) : EReal :=
  max ((h r j - mu j) * Ideal.rsqrt (var j + cEps) * gam j + bet j) 0

/-- A matrix product plus a bias row. -/
def lin {K M : Nat} (a : Fin 131072 → Fin K → EReal) (w : Fin K → Fin M → EReal) (bias : Fin M → EReal) (r : Fin 131072) (k : Fin M) : EReal :=
  (∑ i : Fin K, a r i * w i k) + bias k

/-! ## The whole network, in the two spellings of the variance -/

/-- The first layer over flattened rows. -/
def H1 (I : Inputs) (r : Fin 131072) (j : Fin 64) : EReal := h1 I.s I.g I.qw I.kw I.w1 I.b1 (rowB r) (rowN r) j

def A1K (I : Inputs) : Fin 131072 → Fin 64 → EReal := bnRelu (mean (H1 I)) (varK (H1 I)) I.g1 I.be1 (H1 I)
def A1R (I : Inputs) : Fin 131072 → Fin 64 → EReal := bnRelu (mean (H1 I)) (varR (H1 I)) I.g1 I.be1 (H1 I)
def H2K (I : Inputs) : Fin 131072 → Fin 64 → EReal := lin (A1K I) I.w2 I.b2
def H2R (I : Inputs) : Fin 131072 → Fin 64 → EReal := lin (A1R I) I.w2 I.b2
def A2K (I : Inputs) : Fin 131072 → Fin 64 → EReal := bnRelu (mean (H2K I)) (varK (H2K I)) I.g2 I.be2 (H2K I)
def A2R (I : Inputs) : Fin 131072 → Fin 64 → EReal := bnRelu (mean (H2R I)) (varR (H2R I)) I.g2 I.be2 (H2R I)

/-- The result with variances as mean of squares minus squared mean. -/
def outK (I : Inputs) (b : Fin 256) (n : Fin 512) (a : Fin 16) : EReal :=
  Ideal.logistic (lin (A2K I) I.wo I.bo (rowOf b n) a)
/-- The result with variances as mean of squared deviations. -/
def outR (I : Inputs) (b : Fin 256) (n : Fin 512) (a : Fin 16) : EReal :=
  Ideal.logistic (lin (A2R I) I.wo I.bo (rowOf b n) a)

/-- An extended real that is a real number. -/
def Fin' (x : EReal) : Prop := x ≠ ⊥ ∧ x ≠ ⊤

/-- Every input entry is a real number. -/
structure Inputs.Finite (I : Inputs) : Prop where
  s : ∀ b n d, Fin' (I.s b n d)
  g : ∀ b n p, Fin' (I.g b n p)
  qw : ∀ d m, Fin' (I.qw d m)
  kw : ∀ d m, Fin' (I.kw d m)
  w1 : ∀ e j, Fin' (I.w1 e j)
  b1 : ∀ j, Fin' (I.b1 j)
  g1 : ∀ j, Fin' (I.g1 j)
  be1 : ∀ j, Fin' (I.be1 j)
  w2 : ∀ i k, Fin' (I.w2 i k)
  b2 : ∀ j, Fin' (I.b2 j)
  g2 : ∀ j, Fin' (I.g2 j)
  be2 : ∀ j, Fin' (I.be2 j)
  wo : ∀ i a, Fin' (I.wo i a)
  bo : ∀ a, Fin' (I.bo a)

/-- No attention denominator vanishes. -/
def Inputs.DenomNe (I : Inputs) : Prop := ∀ b n, denom I.s I.g I.qw I.kw b n ≠ 0

open Idealize.ShloMosaic.ValueIdx in
/-- The fourteen input arrays, each read at the index its coordinates make. -/
def inputsOf (a0 : (⟨3, ![256, 512, 128]⟩ : Shape).Idx → EReal) (a1 : (⟨3, ![256, 512, 512]⟩ : Shape).Idx → EReal)
    (a2 a3 : (⟨2, ![128, 32]⟩ : Shape).Idx → EReal) (a4 : (⟨2, ![256, 64]⟩ : Shape).Idx → EReal)
    (a5 a6 a7 : (⟨1, ![64]⟩ : Shape).Idx → EReal) (a8 : (⟨2, ![64, 64]⟩ : Shape).Idx → EReal)
    (a9 a10 a11 : (⟨1, ![64]⟩ : Shape).Idx → EReal) (a12 : (⟨2, ![64, 16]⟩ : Shape).Idx → EReal)
    (a13 : (⟨1, ![16]⟩ : Shape).Idx → EReal) : Inputs where
  s b n d := a0 (ix3 b n d)
  g b n p := a1 (ix3 b n p)
  qw d m := a2 (ix2 d m)
  kw d m := a3 (ix2 d m)
  w1 e j := a4 (ix2 e j)
  b1 j := a5 (ix1 j)
  g1 j := a6 (ix1 j)
  be1 j := a7 (ix1 j)
  w2 i k := a8 (ix2 i k)
  b2 j := a9 (ix1 j)
  g2 j := a10 (ix1 j)
  be2 j := a11 (ix1 j)
  wo i a := a12 (ix2 i a)
  bo a := a13 (ix1 a)

end Cert.Spec

end
-- ==== Proof.Algebra.lean ====
/-
  The two spellings of the variance agree on real entries; hence the two spellings of the network agree when
  every input entry is a real number and no attention denominator vanishes.

  Over the extended reals the identity  (Σ h²)/N − μ² = (Σ (h − μ)²)/N  (μ = (Σ h)/N, N the number of rows) can fail
  at an infinity, where ⊤ − ⊤ = ⊥.  So the argument runs in three steps:

  * an extended real that is neither ⊥ nor ⊤ is the image of a real number, and such values are closed under sums,
    differences, products, finite sums, the maximum with zero, and quotients by a nonzero real;
  * for a column of real numbers the two variances are images of the two sides of the identity over ℝ, which is proved
    there by expanding the square; the common value is not negative, so adding the positive ε and taking the inverse
    square root again gives a real number;
  * every layer of the network therefore has real entries, and layer by layer the two spellings coincide.

  Also here: a sum over the 131072 rows as a double sum over 256 batches of 512 rows, or over 16 tiles of 8192 rows.
-/
import proofs.«127264_j6760278524113_1_alg».proof.Proof.Spec
import Mathlib.Data.EReal.Basic
import Mathlib.Data.EReal.Operations
import Mathlib.Data.Fintype.BigOperators
import Mathlib.Logic.Equiv.Fin.Basic
import Mathlib.Algebra.BigOperators.Ring.Finset
import Mathlib.Algebra.Order.BigOperators.Group.Finset
import Mathlib.Tactic.Ring
import Mathlib.Tactic.FieldSimp
import Mathlib.Tactic.NormNum
import Mathlib.Tactic.Positivity

namespace Cert.Spec

open Idealize.ShloMosaic
open scoped BigOperators

/-! ## Sums over the rows, regrouped -/

/-- A sum over `Fin (A * B)` as a double sum, the index `b + B * a` running over the pairs `(a, b)`. -/
theorem sum_fin_mul {M : Type*} [AddCommMonoid M] (A B : ℕ) (f : Fin (A * B) → M) :
    ∑ r : Fin (A * B), f r = ∑ a : Fin A, ∑ b : Fin B, f (finProdFinEquiv (a, b)) := by
  rw [← finProdFinEquiv.sum_comp f, Fintype.sum_prod_type]

theorem sum_rows {M : Type*} [AddCommMonoid M] (f : Fin 131072 → M) :
    ∑ r : Fin 131072, f r = ∑ b : Fin 256, ∑ n : Fin 512, f (rowOf b n) := by
  refine (sum_fin_mul 256 512 f).trans ?_
  refine Finset.sum_congr rfl fun b _ => Finset.sum_congr rfl fun n _ => ?_
  congr 1
  apply Fin.ext
  simp only [finProdFinEquiv_apply_val, rowOf]
  omega

theorem sum_tiles {M : Type*} [AddCommMonoid M] (f : Fin 131072 → M) :
    ∑ r : Fin 131072, f r = ∑ t : Fin 16, ∑ q : Fin 8192, f ⟨t.val * 8192 + q.val, by omega⟩ := by
  refine (sum_fin_mul 16 8192 f).trans ?_
  refine Finset.sum_congr rfl fun t _ => Finset.sum_congr rfl fun q _ => ?_
  congr 1
  apply Fin.ext
  simp only [finProdFinEquiv_apply_val]
  omega

/-! ## Extended reals that are real numbers -/

theorem fin'_iff {x : EReal} : Fin' x ↔ ∃ r : ℝ, x = (r : EReal) := by
  constructor
  · rintro ⟨hb, ht⟩
    exact ⟨x.toReal, (EReal.coe_toReal ht hb).symm⟩
  · rintro ⟨r, rfl⟩
    exact ⟨EReal.coe_ne_bot r, EReal.coe_ne_top r⟩

theorem Fin'.coe (r : ℝ) : Fin' (r : EReal) := ⟨EReal.coe_ne_bot r, EReal.coe_ne_top r⟩

theorem Fin'.zero : Fin' (0 : EReal) := by
  rw [← EReal.coe_zero]; exact Fin'.coe 0

theorem Fin'.add {x y : EReal} (hx : Fin' x) (hy : Fin' y) : Fin' (x + y) := by
  obtain ⟨a, rfl⟩ := fin'_iff.1 hx
  obtain ⟨b, rfl⟩ := fin'_iff.1 hy
  rw [← EReal.coe_add]; exact Fin'.coe _

theorem Fin'.sub {x y : EReal} (hx : Fin' x) (hy : Fin' y) : Fin' (x - y) := by
  obtain ⟨a, rfl⟩ := fin'_iff.1 hx
  obtain ⟨b, rfl⟩ := fin'_iff.1 hy
  rw [← EReal.coe_sub]; exact Fin'.coe _

theorem Fin'.mul {x y : EReal} (hx : Fin' x) (hy : Fin' y) : Fin' (x * y) := by
  obtain ⟨a, rfl⟩ := fin'_iff.1 hx
  obtain ⟨b, rfl⟩ := fin'_iff.1 hy
  rw [← EReal.coe_mul]; exact Fin'.coe _

theorem Fin'.sum {ι : Type*} (s : Finset ι) (f : ι → EReal) (h : ∀ i ∈ s, Fin' (f i)) : Fin' (∑ i ∈ s, f i) :=
  Finset.sum_induction f Fin' (fun _ _ => Fin'.add) Fin'.zero h

theorem Fin'.max_zero {x : EReal} (hx : Fin' x) : Fin' (max x 0) := by
  rcases max_choice x 0 with h | h <;> rw [h]
  · exact hx
  · exact Fin'.zero

/-- A quotient of real numbers by a nonzero divisor is a real number. -/
theorem Fin'.div {x y : EReal} (hx : Fin' x) (hy : Fin' y) (h0 : y ≠ 0) : Fin' (Ideal.div x y) := by
  obtain ⟨a, rfl⟩ := fin'_iff.1 hx
  obtain ⟨b, rfl⟩ := fin'_iff.1 hy
  have hb : b ≠ 0 := fun e => h0 (by rw [e, EReal.coe_zero])
  rw [Ideal.div_coe hb, ← EReal.coe_mul]; exact Fin'.coe _

/-- The image of a finite sum of reals is the sum of the images. -/
theorem coe_sum {ι : Type*} (s : Finset ι) (y : ι → ℝ) : ((∑ i ∈ s, y i : ℝ) : EReal) = ∑ i ∈ s, (y i : EReal) := by
  classical
  induction s using Finset.induction_on with
  | empty => simp
  | insert a s ha ih => rw [Finset.sum_insert ha, Finset.sum_insert ha, EReal.coe_add, ih]

/-! ## The three literals -/

/-- The row count is the real number 131072 = 2¹⁷. -/
theorem cN_eq : cN = ((131072 : ℝ) : EReal) := by
  simp [cN, Ideal.ofBits, Ideal.ieee, -EReal.coe_mul]; norm_num

/-- ε is a positive real number, 10995116 · 2⁻⁴⁰. -/
theorem cEps_pos : ∃ e : ℝ, 0 < e ∧ cEps = (e : EReal) := by
  refine ⟨10995116 * (2 : ℝ) ^ (-40 : ℤ), by positivity, ?_⟩
  simp [cEps, Ideal.ofBits, Ideal.ieee, -EReal.coe_mul]

/-- The literal 0.001 is a real number, 8589935 · 2⁻³³. -/
theorem c001_fin : Fin' c001 := by
  refine fin'_iff.2 ⟨8589935 * (2 : ℝ) ^ (-33 : ℤ), ?_⟩
  simp [c001, Ideal.ofBits, Ideal.ieee, -EReal.coe_mul]

/-- The row count is positive. -/
theorem cN_pos : (0 : EReal) < cN := by
  rw [cN_eq]; exact EReal.coe_pos.2 (by norm_num)

theorem cN_ne_zero : cN ≠ 0 := cN_pos.ne'

/-- The binary32 pattern with every exponent bit set and no fraction bit is +∞. -/
theorem ofBits_inf_f32 : Ideal.ofBits .f32 0x7F800000#32 = (⊤ : EReal) := by
  simp [Ideal.ofBits, Ideal.ieee]

/-! ## The variance identity over the reals -/

/-- Mean of squares minus squared mean is the mean of squared deviations, over an index type of `N` elements. -/
theorem real_var {ι : Type*} [Fintype ι] (y : ι → ℝ) (N : ℝ) (hN : N ≠ 0) (hc : (Fintype.card ι : ℝ) = N) :
    (∑ i, y i * y i) * (1 / N) - (∑ i, y i) * (1 / N) * ((∑ i, y i) * (1 / N))
      = (∑ i, (y i - (∑ i, y i) * (1 / N)) * (y i - (∑ i, y i) * (1 / N))) * (1 / N) := by
  generalize hS : ∑ i, y i = S
  have e : ∀ m : ℝ, ∑ i, (y i - m) * (y i - m) = (∑ i, y i * y i) - 2 * m * S + N * (m * m) := by
    intro m
    have : ∀ i, (y i - m) * (y i - m) = y i * y i - 2 * m * y i + m * m := fun i => by ring
    rw [Finset.sum_congr rfl (fun i _ => this i), Finset.sum_add_distrib, Finset.sum_sub_distrib,
      ← Finset.mul_sum, Finset.sum_const, Finset.card_univ, nsmul_eq_mul, hc, hS]
  rw [e]
  field_simp
  ring

/-! ## Mean and variance of a column of real numbers -/

theorem mean_coe (h : Fin 131072 → Fin 64 → EReal) (j : Fin 64) (y : Fin 131072 → ℝ)
    (hy : ∀ r, h r j = (y r : EReal)) :
    mean h j = (((∑ r, y r) * (1 / 131072) : ℝ) : EReal) := by
  unfold mean colSum
  rw [cN_eq, Ideal.div_coe (y := 131072) (by norm_num), EReal.coe_mul, coe_sum]
  simp only [hy]

theorem mean_fin (h : Fin 131072 → Fin 64 → EReal) (hh : ∀ r j, Fin' (h r j)) (j : Fin 64) : Fin' (mean h j) := by
  choose y hy using fun r => fin'_iff.1 (hh r j)
  rw [mean_coe h j y hy]; exact Fin'.coe _

/-- On real entries the two spellings of the variance agree. -/
theorem varK_eq_varR (h : Fin 131072 → Fin 64 → EReal) (hh : ∀ r j, Fin' (h r j)) (j : Fin 64) :
    varK h j = varR h j := by
  choose y hy using fun r => fin'_iff.1 (hh r j)
  have hm := mean_coe h j y hy
  unfold varK varR colSumSq
  rw [hm, cN_eq, Ideal.div_coe (y := 131072) (by norm_num), Ideal.div_coe (y := 131072) (by norm_num)]
  simp only [hy]
  simp only [← EReal.coe_sub, ← EReal.coe_mul, ← coe_sum]
  rw [EReal.coe_eq_coe_iff]
  exact real_var y 131072 (by norm_num) (by simp)

/-- On real entries the centred variance is a real number that is not negative. -/
theorem varR_coe_nonneg (h : Fin 131072 → Fin 64 → EReal) (hh : ∀ r j, Fin' (h r j)) (j : Fin 64) :
    ∃ v : ℝ, 0 ≤ v ∧ varR h j = (v : EReal) := by
  choose y hy using fun r => fin'_iff.1 (hh r j)
  have hm := mean_coe h j y hy
  refine ⟨(∑ r, (y r - (∑ r, y r) * (1 / 131072)) * (y r - (∑ r, y r) * (1 / 131072))) * (1 / 131072), ?_, ?_⟩
  · exact mul_nonneg (Finset.sum_nonneg fun r _ => mul_self_nonneg _) (by norm_num)
  · unfold varR
    rw [hm, cN_eq, Ideal.div_coe (y := 131072) (by norm_num)]
    simp only [hy]
    simp only [← EReal.coe_sub, ← EReal.coe_mul, ← coe_sum]

/-- The inverse square root of a variance that is not negative, plus ε, is a real number. -/
theorem rsqrt_fin {v : ℝ} (hv : 0 ≤ v) : Fin' (Ideal.rsqrt ((v : EReal) + cEps)) := by
  obtain ⟨e, he, hce⟩ := cEps_pos
  rw [hce, ← EReal.coe_add, Ideal.rsqrt_coe, if_neg (not_lt.2 (add_nonneg hv he.le)),
    if_neg (add_pos_of_nonneg_of_pos hv he).ne']
  exact Fin'.coe _

/-- Normalising a matrix of real numbers with its own statistics gives real numbers. -/
theorem bnRelu_fin (h : Fin 131072 → Fin 64 → EReal) (hh : ∀ r j, Fin' (h r j)) (gam bet : Fin 64 → EReal)
    (hg : ∀ j, Fin' (gam j)) (hb : ∀ j, Fin' (bet j)) (r : Fin 131072) (j : Fin 64) :
    Fin' (bnRelu (mean h) (varR h) gam bet h r j) := by
  obtain ⟨v, hv, hvar⟩ := varR_coe_nonneg h hh j
  unfold bnRelu
  rw [hvar]
  exact (((((hh r j).sub (mean_fin h hh j)).mul (rsqrt_fin hv)).mul (hg j)).add (hb j)).max_zero

theorem lin_fin {K M : ℕ} (a : Fin 131072 → Fin K → EReal) (w : Fin K → Fin M → EReal) (bias : Fin M → EReal)
    (ha : ∀ r i, Fin' (a r i)) (hw : ∀ i k, Fin' (w i k)) (hb : ∀ k, Fin' (bias k)) (r : Fin 131072) (k : Fin M) :
    Fin' (lin a w bias r k) := by
  unfold lin
  exact (Fin'.sum _ _ fun i _ => (ha r i).mul (hw i k)).add (hb k)

/-! ## Attention and the first layer have real entries -/

theorem proj_fin {s : Fin 256 → Fin 512 → Fin 128 → EReal} {w : Fin 128 → Fin 32 → EReal}
    (hs : ∀ b n d, Fin' (s b n d)) (hw : ∀ d m, Fin' (w d m)) (b : Fin 256) (n : Fin 512) (m : Fin 32) :
    Fin' (proj s w b n m) := by
  unfold proj
  exact Fin'.sum _ _ fun d _ => (hs b n d).mul (hw d m)

theorem qk_fin (I : Inputs) (hf : I.Finite) (b : Fin 256) (n p : Fin 512) : Fin' (qk I.s I.qw I.kw b n p) := by
  unfold qk
  exact Fin'.sum _ _ fun m _ => (proj_fin hf.s hf.qw b n m).mul (proj_fin hf.s hf.kw b p m)

theorem score_fin (I : Inputs) (hf : I.Finite) (b : Fin 256) (n p : Fin 512) :
    Fin' (score I.s I.g I.qw I.kw b n p) := by
  unfold score
  exact ((qk_fin I hf b n p).mul (qk_fin I hf b n p)).mul (hf.g b n p)

theorem denom_fin (I : Inputs) (hf : I.Finite) (b : Fin 256) (n : Fin 512) : Fin' (denom I.s I.g I.qw I.kw b n) := by
  unfold denom
  exact (Fin'.sum _ _ fun p _ => score_fin I hf b n p).add c001_fin

theorem att_fin (I : Inputs) (hf : I.Finite) (hd : I.DenomNe) (b : Fin 256) (n p : Fin 512) :
    Fin' (att I.s I.g I.qw I.kw b n p) := by
  unfold att
  exact (score_fin I hf b n p).div (denom_fin I hf b n) (hd b n)

theorem agg_fin (I : Inputs) (hf : I.Finite) (hd : I.DenomNe) (b : Fin 256) (n : Fin 512) (d : Fin 128) :
    Fin' (agg I.s I.g I.qw I.kw b n d) := by
  unfold agg
  exact Fin'.sum _ _ fun p _ => (att_fin I hf hd b n p).mul (hf.s b p d)

theorem feat_fin (I : Inputs) (hf : I.Finite) (hd : I.DenomNe) (b : Fin 256) (n : Fin 512) (e : Fin 256) :
    Fin' (feat I.s I.g I.qw I.kw b n e) := by
  unfold feat
  split
  · exact hf.s _ _ _
  · exact agg_fin I hf hd _ _ _

theorem h1_fin (I : Inputs) (hf : I.Finite) (hd : I.DenomNe) (b : Fin 256) (n : Fin 512) (j : Fin 64) :
    Fin' (h1 I.s I.g I.qw I.kw I.w1 I.b1 b n j) := by
  unfold h1
  exact (Fin'.sum _ _ fun e _ => (feat_fin I hf hd b n e).mul (hf.w1 e j)).add (hf.b1 j)

theorem H1_fin (I : Inputs) (hf : I.Finite) (hd : I.DenomNe) (r : Fin 131072) (j : Fin 64) : Fin' (H1 I r j) :=
  h1_fin I hf hd _ _ j

/-! ## Layer by layer, the two spellings coincide -/

theorem A1K_eq_A1R (I : Inputs) (hf : I.Finite) (hd : I.DenomNe) : A1K I = A1R I := by
  funext r j
  unfold A1K A1R bnRelu
  rw [varK_eq_varR (H1 I) (H1_fin I hf hd) j]

theorem A1R_fin (I : Inputs) (hf : I.Finite) (hd : I.DenomNe) (r : Fin 131072) (j : Fin 64) : Fin' (A1R I r j) :=
  bnRelu_fin (H1 I) (H1_fin I hf hd) I.g1 I.be1 hf.g1 hf.be1 r j

theorem H2K_eq_H2R (I : Inputs) (hf : I.Finite) (hd : I.DenomNe) : H2K I = H2R I := by
  unfold H2K H2R
  rw [A1K_eq_A1R I hf hd]

theorem H2R_fin (I : Inputs) (hf : I.Finite) (hd : I.DenomNe) (r : Fin 131072) (j : Fin 64) : Fin' (H2R I r j) :=
  lin_fin (A1R I) I.w2 I.b2 (A1R_fin I hf hd) hf.w2 hf.b2 r j

theorem A2K_eq_A2R (I : Inputs) (hf : I.Finite) (hd : I.DenomNe) : A2K I = A2R I := by
  funext r j
  unfold A2K A2R bnRelu
  rw [H2K_eq_H2R I hf hd, varK_eq_varR (H2R I) (H2R_fin I hf hd) j]

/-- With real inputs and no vanishing attention denominator, the two spellings of the network agree. -/
theorem outK_eq_outR (I : Inputs) (hf : I.Finite) (hd : I.DenomNe) : outK I = outR I := by
  funext b n a
  unfold outK outR
  rw [A2K_eq_A2R I hf hd]

end Cert.Spec
-- ==== Proof.PreRead.lean ====
/-
  The printed precondition, decoded at the extended reals.

  The precondition is a conjunction of fifteen all-quantified comparisons folded into one bit: for each of the
  fourteen input arrays, "every entry x satisfies |x| < +∞", and last "every attention denominator is not zero", the
  denominator of row (b, n) being  Σ_p (Σ_m (Σ_d s b n d · qw d m) · (Σ_d s b p d · kw d m))² · g b n p + 0.001.

  Over the extended reals |x| = max x (−x), and |x| < ⊤ says exactly that x is neither ⊥ nor ⊤; "not equal to the
  constant zero" is x ≠ 0. A fold of "and" over an array that gives 1 met only 1s. The two contractions, read at an
  index, are sums over their one contracted axis; the row sum is a sum over the last axis; the two broadcasts read
  their operand at the coordinates they keep. Put together, the last conjunct is the statement that no denominator
  of the specification vanishes.
-/
import proofs.«127264_j6760278524113_1_alg».proof.Pre_finite_inputs
import proofs.«127264_j6760278524113_1_alg».proof.Proof.Gen.Pre_finite_inputs
import proofs.«127264_j6760278524113_1_alg».proof.Proof.Spec
import proofs.«127264_j6760278524113_1_alg».proof.Proof.Algebra
import Idealize.ShloMosaic.Lib.ReduceAll
import Idealize.ShloMosaic.Lib.ValueIdx
import Idealize.ShloMosaic.PureOps.Ideal.Laws

noncomputable section

namespace Cert.PreRead

open Idealize.ShloMosaic Idealize.ShloMosaic.ValueIdx
open Cert.Pre_finite_inputs

/-- The scalar shape has one index. -/
instance : Subsingleton S_.Idx := ⟨fun a b => funext fun d => d.elim0⟩

/-! ## One entry: |x| < +∞ -/

/-- The comparison bit of |x| < +∞ (the word 0x7F800000 is +∞) is 1 only at a real number. -/
theorem fin_of_abs_lt (x : EReal)
    (h : Ideal.cmp .olt (max x (-x)) (Ideal.ofBits .f32 0x7F800000#32) = 1#1) : Cert.Spec.Fin' x := by
  rw [Cert.Spec.ofBits_inf_f32] at h
  induction x using EReal.rec with
  | bot => exact absurd h (by simp [Ideal.cmp])
  | top => exact absurd h (by simp [Ideal.cmp])
  | coe r => exact ⟨EReal.coe_ne_bot r, EReal.coe_ne_top r⟩

/-- One conjunct "all(|x| < +∞)" of the precondition, at any shape: every entry is a real number. -/
theorem all_fin {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : Cert.Spec.Fin' (x i) :=
  fin_of_abs_lt (x i) (Host.reduce_andi_all _ _ hr hu _ e i)

/-! ## The two contractions read at an index

The first contraction multiplies a [256, 512, 128] array by a [128, 32] matrix over the axis of extent 128; the second
multiplies two [256, 512, 32] arrays batch by batch (axis 0) over their last axis. Each operand index is computed axis by
axis: a batch or free axis reads the result index, the contracted axis reads the summation index. -/

theorem lhsP_0 (i : S256x512x32.Idx) (q : dot_S256x512x128_S128x32_S256x512x32_2_0_01_1_n_n.contr.Idx) :
    (dot_S256x512x128_S128x32_S256x512x32_2_0_01_1_n_n.lhsIdx i q 0).val = (i 0).val := by
  unfold DotDims.lhsIdx
  rw [dif_neg (show ¬(0 : Fin S256x512x128.rank) ∈ dot_S256x512x128_S128x32_S256x512x32_2_0_01_1_n_n.lhsBatch by decide),
    dif_pos (show (0 : Fin S256x512x128.rank) ∈ dot_S256x512x128_S128x32_S256x512x32_2_0_01_1_n_n.lhsNonContracting by decide)]
  rfl
theorem lhsP_1 (i : S256x512x32.Idx) (q : dot_S256x512x128_S128x32_S256x512x32_2_0_01_1_n_n.contr.Idx) :
    (dot_S256x512x128_S128x32_S256x512x32_2_0_01_1_n_n.lhsIdx i q 1).val = (i 1).val := by
  unfold DotDims.lhsIdx
  rw [dif_neg (show ¬(1 : Fin S256x512x128.rank) ∈ dot_S256x512x128_S128x32_S256x512x32_2_0_01_1_n_n.lhsBatch by decide),
    dif_pos (show (1 : Fin S256x512x128.rank) ∈ dot_S256x512x128_S128x32_S256x512x32_2_0_01_1_n_n.lhsNonContracting by decide)]
  rfl
theorem lhsP_2 (i : S256x512x32.Idx) (q : dot_S256x512x128_S128x32_S256x512x32_2_0_01_1_n_n.contr.Idx) :
    (dot_S256x512x128_S128x32_S256x512x32_2_0_01_1_n_n.lhsIdx i q 2).val = (q ⟨0, by decide⟩).val :=
  dot_S256x512x128_S128x32_S256x512x32_2_0_01_1_n_n.lhsIdx_val_of_single rfl i q
theorem rhsP_0 (i : S256x512x32.Idx) (q : dot_S256x512x128_S128x32_S256x512x32_2_0_01_1_n_n.contr.Idx) :
    (dot_S256x512x128_S128x32_S256x512x32_2_0_01_1_n_n.rhsIdx i q 0).val = (q ⟨0, by decide⟩).val :=
  dot_S256x512x128_S128x32_S256x512x32_2_0_01_1_n_n.rhsIdx_val_of_single rfl i q
theorem rhsP_1 (i : S256x512x32.Idx) (q : dot_S256x512x128_S128x32_S256x512x32_2_0_01_1_n_n.contr.Idx) :
    (dot_S256x512x128_S128x32_S256x512x32_2_0_01_1_n_n.rhsIdx i q 1).val = (i 2).val := by
  unfold DotDims.rhsIdx
  rw [dif_neg (show ¬(1 : Fin S128x32.rank) ∈ dot_S256x512x128_S128x32_S256x512x32_2_0_01_1_n_n.rhsBatch by decide),
    dif_pos (show (1 : Fin S128x32.rank) ∈ dot_S256x512x128_S128x32_S256x512x32_2_0_01_1_n_n.rhsNonContracting by decide)]
  rfl

/-- A projection of the node features at (b, n, m): the sum over d of x[b, n, d] · w[d, m]. -/
theorem proj_apply (x : FVec Ideal S256x512x128 .f32) (w : FVec Ideal S128x32 .f32) (b : Fin 256) (n : Fin 512) (m : Fin 32) :
    Host.dotGeneral dot_S256x512x128_S128x32_S256x512x32_2_0_01_1_n_n none x w (ix3 b n m)
      = ∑ d : Fin 128, x (ix3 b n d) * w (ix2 d m) := by
  simp only [Host.dotGeneral]
  rw [Ideal.dotGeneral_apply,
    ← Equiv.sum_comp (contrEquiv1 dot_S256x512x128_S128x32_S256x512x32_2_0_01_1_n_n 128 rfl rfl).symm]
  refine Finset.sum_congr rfl fun k _ => ?_
  have hk := contrEquiv1_symm_val dot_S256x512x128_S128x32_S256x512x32_2_0_01_1_n_n 128 rfl rfl k
  have el : dot_S256x512x128_S128x32_S256x512x32_2_0_01_1_n_n.lhsIdx (ix3 b n m)
      ((contrEquiv1 dot_S256x512x128_S128x32_S256x512x32_2_0_01_1_n_n 128 rfl rfl).symm k) = ix3 b n k :=
    funext fun a => Fin.ext (by
      match a with
      | ⟨0, _⟩ => exact lhsP_0 _ _
      | ⟨1, _⟩ => exact lhsP_1 _ _
      | ⟨2, _⟩ => exact (lhsP_2 _ _).trans hk)
  have er : dot_S256x512x128_S128x32_S256x512x32_2_0_01_1_n_n.rhsIdx (ix3 b n m)
      ((contrEquiv1 dot_S256x512x128_S128x32_S256x512x32_2_0_01_1_n_n 128 rfl rfl).symm k) = ix2 k m :=
    funext fun a => Fin.ext (by
      match a with
      | ⟨0, _⟩ => exact (rhsP_0 _ _).trans hk
      | ⟨1, _⟩ => exact rhsP_1 _ _)
  rw [el, er]

theorem lhsQ_0 (i : S256x512x512.Idx) (q : dot_S256x512x32_S256x512x32_S256x512x512_2_2_1_1_0_0.contr.Idx) :
    (dot_S256x512x32_S256x512x32_S256x512x512_2_2_1_1_0_0.lhsIdx i q 0).val = (i 0).val := by
  unfold DotDims.lhsIdx
  rw [dif_pos (show (0 : Fin S256x512x32.rank) ∈ dot_S256x512x32_S256x512x32_S256x512x512_2_2_1_1_0_0.lhsBatch by decide)]
  rfl
theorem lhsQ_1 (i : S256x512x512.Idx) (q : dot_S256x512x32_S256x512x32_S256x512x512_2_2_1_1_0_0.contr.Idx) :
    (dot_S256x512x32_S256x512x32_S256x512x512_2_2_1_1_0_0.lhsIdx i q 1).val = (i 1).val := by
  unfold DotDims.lhsIdx
  rw [dif_neg (show ¬(1 : Fin S256x512x32.rank) ∈ dot_S256x512x32_S256x512x32_S256x512x512_2_2_1_1_0_0.lhsBatch by decide),
    dif_pos (show (1 : Fin S256x512x32.rank) ∈ dot_S256x512x32_S256x512x32_S256x512x512_2_2_1_1_0_0.lhsNonContracting by decide)]
  rfl
theorem lhsQ_2 (i : S256x512x512.Idx) (q : dot_S256x512x32_S256x512x32_S256x512x512_2_2_1_1_0_0.contr.Idx) :
    (dot_S256x512x32_S256x512x32_S256x512x512_2_2_1_1_0_0.lhsIdx i q 2).val = (q ⟨0, by decide⟩).val :=
  dot_S256x512x32_S256x512x32_S256x512x512_2_2_1_1_0_0.lhsIdx_val_of_single rfl i q
theorem rhsQ_0 (i : S256x512x512.Idx) (q : dot_S256x512x32_S256x512x32_S256x512x512_2_2_1_1_0_0.contr.Idx) :
    (dot_S256x512x32_S256x512x32_S256x512x512_2_2_1_1_0_0.rhsIdx i q 0).val = (i 0).val := by
  unfold DotDims.rhsIdx
  rw [dif_pos (show (0 : Fin S256x512x32.rank) ∈ dot_S256x512x32_S256x512x32_S256x512x512_2_2_1_1_0_0.rhsBatch by decide)]
  rfl
theorem rhsQ_1 (i : S256x512x512.Idx) (q : dot_S256x512x32_S256x512x32_S256x512x512_2_2_1_1_0_0.contr.Idx) :
    (dot_S256x512x32_S256x512x32_S256x512x512_2_2_1_1_0_0.rhsIdx i q 1).val = (i 2).val := by
  unfold DotDims.rhsIdx
  rw [dif_neg (show ¬(1 : Fin S256x512x32.rank) ∈ dot_S256x512x32_S256x512x32_S256x512x512_2_2_1_1_0_0.rhsBatch by decide),
    dif_pos (show (1 : Fin S256x512x32.rank) ∈ dot_S256x512x32_S256x512x32_S256x512x512_2_2_1_1_0_0.rhsNonContracting by decide)]
  rfl
theorem rhsQ_2 (i : S256x512x512.Idx) (q : dot_S256x512x32_S256x512x32_S256x512x512_2_2_1_1_0_0.contr.Idx) :
    (dot_S256x512x32_S256x512x32_S256x512x512_2_2_1_1_0_0.rhsIdx i q 2).val = (q ⟨0, by decide⟩).val :=
  dot_S256x512x32_S256x512x32_S256x512x512_2_2_1_1_0_0.rhsIdx_val_of_single rfl i q

/-- The product of two projections inside a batch at (b, n, p): the sum over m of x[b, n, m] · y[b, p, m]. -/
theorem qk_apply (x y : FVec Ideal S256x512x32 .f32) (b : Fin 256) (n p : Fin 512) :
    Host.dotGeneral dot_S256x512x32_S256x512x32_S256x512x512_2_2_1_1_0_0 none x y (ix3 b n p)
      = ∑ m : Fin 32, x (ix3 b n m) * y (ix3 b p m) := by
  simp only [Host.dotGeneral]
  rw [Ideal.dotGeneral_apply,
    ← Equiv.sum_comp (contrEquiv1 dot_S256x512x32_S256x512x32_S256x512x512_2_2_1_1_0_0 32 rfl rfl).symm]
  refine Finset.sum_congr rfl fun k _ => ?_
  have hk := contrEquiv1_symm_val dot_S256x512x32_S256x512x32_S256x512x512_2_2_1_1_0_0 32 rfl rfl k
  have el : dot_S256x512x32_S256x512x32_S256x512x512_2_2_1_1_0_0.lhsIdx (ix3 b n p)
      ((contrEquiv1 dot_S256x512x32_S256x512x32_S256x512x512_2_2_1_1_0_0 32 rfl rfl).symm k) = ix3 b n k :=
    funext fun a => Fin.ext (by
      match a with
      | ⟨0, _⟩ => exact lhsQ_0 _ _
      | ⟨1, _⟩ => exact lhsQ_1 _ _
      | ⟨2, _⟩ => exact (lhsQ_2 _ _).trans hk)
  have er : dot_S256x512x32_S256x512x32_S256x512x512_2_2_1_1_0_0.rhsIdx (ix3 b n p)
      ((contrEquiv1 dot_S256x512x32_S256x512x32_S256x512x512_2_2_1_1_0_0 32 rfl rfl).symm k) = ix3 b p k :=
    funext fun a => Fin.ext (by
      match a with
      | ⟨0, _⟩ => exact rhsQ_0 _ _
      | ⟨1, _⟩ => exact rhsQ_1 _ _
      | ⟨2, _⟩ => exact (rhsQ_2 _ _).trans hk)
  rw [el, er]

/-! ## The row sum and the two broadcasts read at an index -/

/-- The sum over the last axis, started at the constant zero, at (b, n): the sum over p of x[b, n, p]. -/
theorem rowsum_apply (x : FVec Ideal S256x512x512 .f32) (hr : S256x512x512.ReducesTo [2] S256x512) (hu : 0 < S_.numel)
    (b : Fin 256) (n : Fin 512) :
    Host.reduceAdd x (constant (F := Ideal) S_ .f32 0x00000000#32) hr hu (ix2 b n) = ∑ p : Fin 512, x (ix3 b n p) := by
  simp only [Host.reduceAdd, Ideal.hostReduceAdd_def]
  rw [Ideal.hostReduceAdd_single hr (by decide), constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- The sum kept as a column of extent one: at (b, n, z) it is the operand at (b, n). -/
theorem keep_apply (x : FVec Ideal S256x512 .f32)
    (hb : S256x512.BroadcastsInDim S256x512x1 (![0, 1] : Fin 2 → Fin S256x512x1.rank)) (b : Fin 256) (n : Fin 512) (z : Fin 1) :
    broadcastInDim S256x512x1 ![0, 1] hb x (ix3 b n z) = x (ix2 b n) := by
  unfold broadcastInDim
  refine congrArg x (funext fun a => Fin.ext ?_)
  match a with
  | ⟨0, _⟩ =>
    split
    · next h1 => exact absurd (show (256 : Nat) = 1 from h1) (by decide)
    · rfl
  | ⟨1, _⟩ =>
    split
    · next h1 => exact absurd (show (512 : Nat) = 1 from h1) (by decide)
    · rfl

/-- A scalar constant broadcast to any shape reads the constant everywhere. -/
theorem splat_apply {t : Shape} (hb : S_.BroadcastsInDim t (![] : Fin 0 → Fin t.rank)) (w : BitVec 32) (j : t.Idx) :
    broadcastInDim t ![] hb (constant (F := Ideal) S_ .f32 w) j = Ideal.ofBits .f32 w := rfl

/-- The comparison bit of x ≠ 0 against the zero word is 1 only off zero. -/
theorem ne_zero_of_une (x : EReal) (h : Ideal.cmp .une x (Ideal.ofBits .f32 0x00000000#32) = 1#1) : x ≠ 0 := by
  rw [Ideal.ofBits_zero_f32] at h
  intro hx
  rw [hx] at h
  exact absurd h (by simp [Ideal.cmp])

/-! ## The precondition as a whole -/

/-- An "and" of two scalar bits that is 1 had both 1. -/
theorem and_split (X Y : IVec S_ 1) (h : andi X Y ix0 = 1#1) : X ix0 = 1#1 ∧ Y ix0 = 1#1 := IntOp.andi_eq_one.1 h

variable (a0 : FVec Ideal Cert.Pre_finite_inputs.S256x512x128 .f32) (a1 : FVec Ideal Cert.Pre_finite_inputs.S256x512x512 .f32)
  (a2 a3 : FVec Ideal Cert.Pre_finite_inputs.S128x32 .f32) (a4 : FVec Ideal Cert.Pre_finite_inputs.S256x64 .f32)
  (a5 a6 a7 : FVec Ideal Cert.Pre_finite_inputs.S64 .f32) (a8 : FVec Ideal Cert.Pre_finite_inputs.S64x64 .f32)
  (a9 a10 a11 : FVec Ideal Cert.Pre_finite_inputs.S64 .f32) (a12 : FVec Ideal Cert.Pre_finite_inputs.S64x16 .f32)
  (a13 : FVec Ideal Cert.Pre_finite_inputs.S16 .f32)

/-- Every input entry is a real number. -/
theorem finite_of_pre (h : Cert.Pre_finite_inputs.fn (F := Ideal) a0 a1 a2 a3 a4 a5 a6 a7 a8 a9 a10 a11 a12 a13 = fun _ => 1#1) :
    (Cert.Spec.inputsOf a0 a1 a2 a3 a4 a5 a6 a7 a8 a9 a10 a11 a12 a13).Finite := by
  have t := congrFun h ix0
  dsimp only [Cert.Pre_finite_inputs.fn, fn_part1, fn_part2, fn_part3, fn_part4] at t
  obtain ⟨t, -⟩ := and_split _ _ t
  obtain ⟨t, h13⟩ := and_split _ _ t
  obtain ⟨t, h12⟩ := and_split _ _ t
  obtain ⟨t, h11⟩ := and_split _ _ t
  obtain ⟨t, h10⟩ := and_split _ _ t
  obtain ⟨t, h9⟩ := and_split _ _ t
  obtain ⟨t, h8⟩ := and_split _ _ t
  obtain ⟨t, h7⟩ := and_split _ _ t
  obtain ⟨t, h6⟩ := and_split _ _ t
  obtain ⟨t, h5⟩ := and_split _ _ t
  obtain ⟨t, h4⟩ := and_split _ _ t
  obtain ⟨t, h3⟩ := and_split _ _ t
  obtain ⟨t, h2⟩ := and_split _ _ t
  obtain ⟨h0, h1⟩ := and_split _ _ t
  exact
    { s := fun b n d => all_fin a0 _ _ _ h0 (ix3 b n d)
      g := fun b n p => all_fin a1 _ _ _ h1 (ix3 b n p)
      qw := fun d m => all_fin a2 _ _ _ h2 (ix2 d m)
      kw := fun d m => all_fin a3 _ _ _ h3 (ix2 d m)
      w1 := fun e j => all_fin a4 _ _ _ h4 (ix2 e j)
      b1 := fun j => all_fin a5 _ _ _ h5 (ix1 j)
      g1 := fun j => all_fin a6 _ _ _ h6 (ix1 j)
      be1 := fun j => all_fin a7 _ _ _ h7 (ix1 j)
      w2 := fun i k => all_fin a8 _ _ _ h8 (ix2 i k)
      b2 := fun j => all_fin a9 _ _ _ h9 (ix1 j)
      g2 := fun j => all_fin a10 _ _ _ h10 (ix1 j)
      be2 := fun j => all_fin a11 _ _ _ h11 (ix1 j)
      wo := fun i a => all_fin a12 _ _ _ h12 (ix2 i a)
      bo := fun a => all_fin a13 _ _ _ h13 (ix1 a) }

/-- No attention denominator of the specification vanishes. -/
theorem denomNe_of_pre (h : Cert.Pre_finite_inputs.fn (F := Ideal) a0 a1 a2 a3 a4 a5 a6 a7 a8 a9 a10 a11 a12 a13 = fun _ => 1#1) :
    (Cert.Spec.inputsOf a0 a1 a2 a3 a4 a5 a6 a7 a8 a9 a10 a11 a12 a13).DenomNe := by
  have t := congrFun h ix0
  dsimp only [Cert.Pre_finite_inputs.fn, fn_part1, fn_part2, fn_part3, fn_part4] at t
  obtain ⟨-, hden⟩ := and_split _ _ t
  intro b n
  have e := Host.reduce_andi_all _ _ _ _ _ hden (ix3 b n (0 : Fin 1))
  rw [cmpf_apply, addf_apply, keep_apply, rowsum_apply, splat_apply, splat_apply] at e
  simp only [mulf_apply, qk_apply, proj_apply] at e
  exact ne_zero_of_une _ e

end Cert.PreRead

end
-- ==== Proof.KRegion0.lean ====
/-
  REGION 0 (attention and first layer, one batch per grid point, column sums carried across the grid): what its
  three output arrays hold when the region ends, as functions of the arrays the region was entered with.
-/
import proofs.«127264_j6760278524113_1_alg».proof.Proof.Gen.KernelIdeal.Frame
import proofs.«127264_j6760278524113_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The first layer of batch `b`, row `n`, column `j`, computed from the arrays as the region finds them. -/
def h1V (c : Dev nD) (b : Fin 256) (n : Fin 512) (j : Fin 64) : EReal :=
  Cert.Spec.h1 (fun b n d => V c main_arg0 (ix3 b n d)) (fun b n p => V c main_arg1 (ix3 b n p))
    (fun d m => V c main_arg2 (ix2 d m)) (fun d m => V c main_arg3 (ix2 d m)) (fun e j => V c main_arg4 (ix2 e j))
    (fun j => V c main_v0 (ix2 (0 : Fin 1) j)) b n j

/-! ## The body's arithmetic, stage by stage -/

section Stages
variable {F : FTy → Type} [FloatOps F]

/-- The batch's node features as a matrix. -/
def sM (x0 : Vec F S1x512x128 .f32) : FVec F S512x128 .f32 := shapeCast S512x128 x0 shapeCasts_S1x512x128_S512x128
/-- The batch's edge weights as a matrix. -/
def gM (x1 : Vec F S1x512x512 .f32) : FVec F S512x512 .f32 := shapeCast S512x512 x1 shapeCasts_S1x512x512_S512x512
/-- The node features in the narrow format. -/
def sN (x0 : Vec F S1x512x128 .f32) : FVec F S512x128 .bf16 := truncf .bf16 (sM x0) bitsLt_bf16_f32
/-- A projection of the node features. -/
def projM (x0 : Vec F S1x512x128 .f32) (w : Vec F S128x32 .f32) : FVec F S512x32 .f32 :=
  matmul dot_S512x128_S128x32_S512x32_1_0_0_1_n_n none (sN x0) (truncf .bf16 w bitsLt_bf16_f32) (constant S512x32 .f32 0x00000000#32)
/-- The products of the two projections, row against row. -/
def qkM (x0 : Vec F S1x512x128 .f32) (x2 x3 : Vec F S128x32 .f32) : FVec F S512x512 .f32 :=
  matmul dot_S512x32_S32x512_S512x512_1_0_0_1_n_n none (truncf .bf16 (projM x0 x2) bitsLt_bf16_f32)
    (transpose S32x512 [1, 0] (truncf .bf16 (projM x0 x3) bitsLt_bf16_f32) transposes_S512x32_p1_0_S32x512) (constant S512x512 .f32 0x00000000#32)
/-- The squared, edge-weighted scores. -/
def scoreM (x0 : Vec F S1x512x128 .f32) (x1 : Vec F S1x512x512 .f32) (x2 x3 : Vec F S128x32 .f32) : FVec F S512x512 .f32 :=
  mulf (mulf (qkM x0 x2 x3) (qkM x0 x2 x3)) (gM x1)
/-- Each row's denominator, as a column. -/
def denomM (x0 : Vec F S1x512x128 .f32) (x1 : Vec F S1x512x512 .f32) (x2 x3 : Vec F S128x32 .f32) : FVec F S512x1 .f32 :=
  addf (shapeCast S512x1 (multiReduction .add [1] S512 (scoreM x0 x1 x2 x3) 0x00000000#32 reduces_S512x512_S512 (.inl rfl) rfl) shapeCasts_S512_S512x1)
    (broadcast S512x1 (Scalar.ofBits .f32 0x3A83126F#32))
/-- The normalised weights. -/
def attM (x0 : Vec F S1x512x128 .f32) (x1 : Vec F S1x512x512 .f32) (x2 x3 : Vec F S128x32 .f32) : FVec F S512x512 .f32 :=
  divf (scoreM x0 x1 x2 x3) (broadcastTo S512x512 (denomM x0 x1 x2 x3) broadcasts_S512x1_S512x512)
/-- The aggregated neighbour features. -/
def aggM (x0 : Vec F S1x512x128 .f32) (x1 : Vec F S1x512x512 .f32) (x2 x3 : Vec F S128x32 .f32) : FVec F S512x128 .f32 :=
  matmul dot_S512x512_S512x128_S512x128_1_0_0_1_n_n none (truncf .bf16 (attM x0 x1 x2 x3) bitsLt_bf16_f32) (sN x0) (constant S512x128 .f32 0x00000000#32)
/-- A node's own features beside the aggregated ones. -/
def featM (x0 : Vec F S1x512x128 .f32) (x1 : Vec F S1x512x512 .f32) (x2 x3 : Vec F S128x32 .f32) : FVec F S512x256 .f32 :=
  concatenate S512x256 1 [⟨S512x128, sM x0⟩, ⟨S512x128, aggM x0 x1 x2 x3⟩] concatenates_S512x128_S512x128_S512x256_d1
/-- The first layer's matrix product. -/
def linM (x0 : Vec F S1x512x128 .f32) (x1 : Vec F S1x512x512 .f32) (x2 x3 : Vec F S128x32 .f32) (x4 : Vec F S256x64 .f32) : FVec F S512x64 .f32 :=
  matmul dot_S512x256_S256x64_S512x64_1_0_0_1_n_n none (truncf .bf16 (featM x0 x1 x2 x3) bitsLt_bf16_f32) (truncf .bf16 x4 bitsLt_bf16_f32) (constant S512x64 .f32 0x00000000#32)

/-- The body's matrix chain is these stages composed. -/
theorem pay7_eq (x0 : Vec F S1x512x128 .f32) (x1 : Vec F S1x512x512 .f32) (x2 x3 : Vec F S128x32 .f32) (x4 : Vec F S256x64 .f32) :
    k0_pay7 x0 x1 x2 x3 x4 = linM x0 x1 x2 x3 x4 := rfl

end Stages

/-! ## What each case of the body leaves in the three output buffers -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the first output's buffer ends holding the first layer of the point's batch. -/
theorem out_A_6 (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S1x512x128 .f32) (x1 : Vec F S1x512x512 .f32) (x2 : Vec F S128x32 .f32) (x3 : Vec F S128x32 .f32) (x4 : Vec F S256x64 .f32) (x5 : Vec F S1x64 .f32) :
    out0_A_6 c i arg1 harg1 arg2 harg2 arg3 harg3 arg4 harg4 arg5 harg5 arg6 harg6 arg7 harg7 arg8 harg8 arg9 harg9 hc0 x0 x1 x2 x3 x4 x5 = k0_pay2 (k0_pay7 x0 x1 x2 x3 x4) (k0_pay8 x5) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread, harg6.read_unread, View.ld_unit_zero (S := S1x512x128) hz3, View.ld_unit_zero (S := S1x512x512) hz3, View.ld_unit_zero (S := S128x32) hz2, View.ld_unit_zero (S := S256x64) hz2, View.ld_unit_zero (S := S1x64) hz2]

/-- At a later point too. -/
theorem out_B_6 (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S1x512x128 .f32) (x1 : Vec F S1x512x512 .f32) (x2 : Vec F S128x32 .f32) (x3 : Vec F S128x32 .f32) (x4 : Vec F S256x64 .f32) (x5 : Vec F S1x64 .f32) (xo7 xo8 : Vec F S1x64 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay2 (k0_pay7 x0 x1 x2 x3 x4) (k0_pay8 x5) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz3]
  simp only [View.readAt_eq_ld, harg1.read_unread, harg2.read_unread, harg3.read_unread, harg4.read_unread, harg5.read_unread, harg6.read_unread, View.ld_unit_zero (S := S1x512x128) hz3, View.ld_unit_zero (S := S1x512x512) hz3, View.ld_unit_zero (S := S128x32) hz2, View.ld_unit_zero (S := S256x64) hz2, View.ld_unit_zero (S := S1x64) hz2]

/-- At the first point the column sums start from the zero row. -/
theorem out_A_7 (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S1x512x128 .f32) (x1 : Vec F S1x512x512 .f32) (x2 : Vec F S128x32 .f32) (x3 : Vec F S128x32 .f32) (x4 : Vec F S256x64 .f32) (x5 : Vec F S1x64 .f32) :
    out0_A_7 c i arg1 harg1 arg2 harg2 arg3 harg3 arg4 harg4 arg5 harg5 arg6 harg6 arg7 harg7 arg8 harg8 arg9 harg9 hc0 x0 x1 x2 x3 x4 x5 = k0_pay3 (k0_pay7 x0 x1 x2 x3 x4) (k0_pay8 x5) (k0_pay5 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x64) hz2]
  simp only [View.readAt_eq_ld, harg1.read_unread, harg2.read_unread, harg3.read_unread, harg4.read_unread, harg5.read_unread, harg6.read_unread, View.ld_unit_zero (S := S1x512x128) hz3, View.ld_unit_zero (S := S1x512x512) hz3, View.ld_unit_zero (S := S128x32) hz2, View.ld_unit_zero (S := S256x64) hz2, View.ld_unit_zero (S := S1x64) hz2, View.readCov_unit_zero (S := S1x64) _ hz2]

/-- At the first point the column sums of squares start from the zero row. -/
theorem out_A_8 (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S1x512x128 .f32) (x1 : Vec F S1x512x512 .f32) (x2 : Vec F S128x32 .f32) (x3 : Vec F S128x32 .f32) (x4 : Vec F S256x64 .f32) (x5 : Vec F S1x64 .f32) :
    out0_A_8 c i arg1 harg1 arg2 harg2 arg3 harg3 arg4 harg4 arg5 harg5 arg6 harg6 arg7 harg7 arg8 harg8 arg9 harg9 hc0 x0 x1 x2 x3 x4 x5 = k0_pay4 (k0_pay7 x0 x1 x2 x3 x4) (k0_pay8 x5) (k0_pay6 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x64) hz2]
  simp only [View.readAt_eq_ld, harg1.read_unread, harg2.read_unread, harg3.read_unread, harg4.read_unread, harg5.read_unread, harg6.read_unread, View.ld_unit_zero (S := S1x512x128) hz3, View.ld_unit_zero (S := S1x512x512) hz3, View.ld_unit_zero (S := S128x32) hz2, View.ld_unit_zero (S := S256x64) hz2, View.ld_unit_zero (S := S1x64) hz2, View.readCov_unit_zero (S := S1x64) _ hz2]

/-- At a later point the column sums go on from what the buffer held. -/
theorem out_B_7 (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S1x512x128 .f32) (x1 : Vec F S1x512x512 .f32) (x2 : Vec F S128x32 .f32) (x3 : Vec F S128x32 .f32) (x4 : Vec F S256x64 .f32) (x5 : Vec F S1x64 .f32) (xo7 xo8 : Vec F S1x64 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay3 (k0_pay7 x0 x1 x2 x3 x4) (k0_pay8 x5) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S1x512x128) hz3, View.ld_unit_zero (S := S1x512x512) hz3, View.ld_unit_zero (S := S128x32) hz2, View.ld_unit_zero (S := S256x64) hz2, View.ld_unit_zero (S := S1x64) hz2]

/-- At a later point the column sums of squares go on from what the buffer held. -/
theorem out_B_8 (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S1x512x128 .f32) (x1 : Vec F S1x512x512 .f32) (x2 : Vec F S128x32 .f32) (x3 : Vec F S128x32 .f32) (x4 : Vec F S256x64 .f32) (x5 : Vec F S1x64 .f32) (xo7 xo8 : Vec F S1x64 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay4 (k0_pay7 x0 x1 x2 x3 x4) (k0_pay8 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S1x512x128) hz3, View.ld_unit_zero (S := S1x512x512) hz3, View.ld_unit_zero (S := S128x32) hz2, View.ld_unit_zero (S := S256x64) hz2, View.ld_unit_zero (S := S1x64) hz2]

end Pieces

/-! ## The four matrix products, read at an index -/

section Dots

theorem lhs_proj_0 (i : S512x32.Idx) (q : dot_S512x128_S128x32_S512x32_1_0_0_1_n_n.contr.Idx) :
    (dot_S512x128_S128x32_S512x32_1_0_0_1_n_n.lhsIdx i q 0).val = (i 0).val := by
  unfold DotDims.lhsIdx
  rw [dif_neg (show ¬(0 : Fin S512x128.rank) ∈ dot_S512x128_S128x32_S512x32_1_0_0_1_n_n.lhsBatch by decide), dif_pos (show (0 : Fin S512x128.rank) ∈ dot_S512x128_S128x32_S512x32_1_0_0_1_n_n.lhsNonContracting by decide)]
  rfl
theorem lhs_proj_1 (i : S512x32.Idx) (q : dot_S512x128_S128x32_S512x32_1_0_0_1_n_n.contr.Idx) :
    (dot_S512x128_S128x32_S512x32_1_0_0_1_n_n.lhsIdx i q 1).val = (q ⟨0, by decide⟩).val :=
  dot_S512x128_S128x32_S512x32_1_0_0_1_n_n.lhsIdx_val_of_single rfl i q
theorem rhs_proj_0 (i : S512x32.Idx) (q : dot_S512x128_S128x32_S512x32_1_0_0_1_n_n.contr.Idx) :
    (dot_S512x128_S128x32_S512x32_1_0_0_1_n_n.rhsIdx i q 0).val = (q ⟨0, by decide⟩).val :=
  dot_S512x128_S128x32_S512x32_1_0_0_1_n_n.rhsIdx_val_of_single rfl i q
theorem rhs_proj_1 (i : S512x32.Idx) (q : dot_S512x128_S128x32_S512x32_1_0_0_1_n_n.contr.Idx) :
    (dot_S512x128_S128x32_S512x32_1_0_0_1_n_n.rhsIdx i q 1).val = (i 1).val := by
  unfold DotDims.rhsIdx
  rw [dif_neg (show ¬(1 : Fin S128x32.rank) ∈ dot_S512x128_S128x32_S512x32_1_0_0_1_n_n.rhsBatch by decide), dif_pos (show (1 : Fin S128x32.rank) ∈ dot_S512x128_S128x32_S512x32_1_0_0_1_n_n.rhsNonContracting by decide)]
  rfl

/-- A projection's entry is the row's sum over the 128 features. -/
theorem mm_proj (l : FVec Ideal S512x128 .bf16) (r : FVec Ideal S128x32 .bf16) (n : Fin 512) (m : Fin 32) :
    matmul dot_S512x128_S128x32_S512x32_1_0_0_1_n_n none l r (constant (F := Ideal) S512x32 .f32 0x00000000#32) (ix2 n m)
      = ∑ k : Fin 128, l (ix2 n k) * r (ix2 k m) := by
  simp only [matmul]
  rw [Ideal.matmul_constant_zero_apply, ← Equiv.sum_comp (contrEquiv1 dot_S512x128_S128x32_S512x32_1_0_0_1_n_n 128 rfl rfl).symm]
  refine Finset.sum_congr rfl fun k _ => ?_
  have hk := contrEquiv1_symm_val dot_S512x128_S128x32_S512x32_1_0_0_1_n_n 128 rfl rfl k
  have el : dot_S512x128_S128x32_S512x32_1_0_0_1_n_n.lhsIdx (ix2 n m) ((contrEquiv1 dot_S512x128_S128x32_S512x32_1_0_0_1_n_n 128 rfl rfl).symm k) = ix2 n k := funext fun a => Fin.ext (by
    match a with
    | ⟨0, _⟩ => exact lhs_proj_0 _ _
    | ⟨1, _⟩ => exact (lhs_proj_1 _ _).trans hk)
  have er : dot_S512x128_S128x32_S512x32_1_0_0_1_n_n.rhsIdx (ix2 n m) ((contrEquiv1 dot_S512x128_S128x32_S512x32_1_0_0_1_n_n 128 rfl rfl).symm k) = ix2 k m := funext fun a => Fin.ext (by
    match a with
    | ⟨0, _⟩ => exact (rhs_proj_0 _ _).trans hk
    | ⟨1, _⟩ => exact rhs_proj_1 _ _)
  rw [el, er]

theorem lhs_qk_0 (i : S512x512.Idx) (q : dot_S512x32_S32x512_S512x512_1_0_0_1_n_n.contr.Idx) :
    (dot_S512x32_S32x512_S512x512_1_0_0_1_n_n.lhsIdx i q 0).val = (i 0).val := by
  unfold DotDims.lhsIdx
  rw [dif_neg (show ¬(0 : Fin S512x32.rank) ∈ dot_S512x32_S32x512_S512x512_1_0_0_1_n_n.lhsBatch by decide), dif_pos (show (0 : Fin S512x32.rank) ∈ dot_S512x32_S32x512_S512x512_1_0_0_1_n_n.lhsNonContracting by decide)]
  rfl
theorem lhs_qk_1 (i : S512x512.Idx) (q : dot_S512x32_S32x512_S512x512_1_0_0_1_n_n.contr.Idx) :
    (dot_S512x32_S32x512_S512x512_1_0_0_1_n_n.lhsIdx i q 1).val = (q ⟨0, by decide⟩).val :=
  dot_S512x32_S32x512_S512x512_1_0_0_1_n_n.lhsIdx_val_of_single rfl i q
theorem rhs_qk_0 (i : S512x512.Idx) (q : dot_S512x32_S32x512_S512x512_1_0_0_1_n_n.contr.Idx) :
    (dot_S512x32_S32x512_S512x512_1_0_0_1_n_n.rhsIdx i q 0).val = (q ⟨0, by decide⟩).val :=
  dot_S512x32_S32x512_S512x512_1_0_0_1_n_n.rhsIdx_val_of_single rfl i q
theorem rhs_qk_1 (i : S512x512.Idx) (q : dot_S512x32_S32x512_S512x512_1_0_0_1_n_n.contr.Idx) :
    (dot_S512x32_S32x512_S512x512_1_0_0_1_n_n.rhsIdx i q 1).val = (i 1).val := by
  unfold DotDims.rhsIdx
  rw [dif_neg (show ¬(1 : Fin S32x512.rank) ∈ dot_S512x32_S32x512_S512x512_1_0_0_1_n_n.rhsBatch by decide), dif_pos (show (1 : Fin S32x512.rank) ∈ dot_S512x32_S32x512_S512x512_1_0_0_1_n_n.rhsNonContracting by decide)]
  rfl

/-- A score's entry before squaring is the sum over the 32 projected coordinates. -/
theorem mm_qk (l : FVec Ideal S512x32 .bf16) (r : FVec Ideal S32x512 .bf16) (n : Fin 512) (m : Fin 512) :
    matmul dot_S512x32_S32x512_S512x512_1_0_0_1_n_n none l r (constant (F := Ideal) S512x512 .f32 0x00000000#32) (ix2 n m)
      = ∑ k : Fin 32, l (ix2 n k) * r (ix2 k m) := by
  simp only [matmul]
  rw [Ideal.matmul_constant_zero_apply, ← Equiv.sum_comp (contrEquiv1 dot_S512x32_S32x512_S512x512_1_0_0_1_n_n 32 rfl rfl).symm]
  refine Finset.sum_congr rfl fun k _ => ?_
  have hk := contrEquiv1_symm_val dot_S512x32_S32x512_S512x512_1_0_0_1_n_n 32 rfl rfl k
  have el : dot_S512x32_S32x512_S512x512_1_0_0_1_n_n.lhsIdx (ix2 n m) ((contrEquiv1 dot_S512x32_S32x512_S512x512_1_0_0_1_n_n 32 rfl rfl).symm k) = ix2 n k := funext fun a => Fin.ext (by
    match a with
    | ⟨0, _⟩ => exact lhs_qk_0 _ _
    | ⟨1, _⟩ => exact (lhs_qk_1 _ _).trans hk)
  have er : dot_S512x32_S32x512_S512x512_1_0_0_1_n_n.rhsIdx (ix2 n m) ((contrEquiv1 dot_S512x32_S32x512_S512x512_1_0_0_1_n_n 32 rfl rfl).symm k) = ix2 k m := funext fun a => Fin.ext (by
    match a with
    | ⟨0, _⟩ => exact (rhs_qk_0 _ _).trans hk
    | ⟨1, _⟩ => exact rhs_qk_1 _ _)
  rw [el, er]

theorem lhs_agg_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_agg_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_agg_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_agg_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- An aggregated feature is the sum over the 512 neighbours. -/
theorem mm_agg (l : FVec Ideal S512x512 .bf16) (r : FVec Ideal S512x128 .bf16) (n : Fin 512) (m : Fin 128) :
    matmul dot_S512x512_S512x128_S512x128_1_0_0_1_n_n none l r (constant (F := Ideal) S512x128 .f32 0x00000000#32) (ix2 n m)
      = ∑ k : Fin 512, l (ix2 n k) * r (ix2 k m) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 n m) ((contrEquiv1 dot_S512x512_S512x128_S512x128_1_0_0_1_n_n 512 rfl rfl).symm k) = ix2 n k := funext fun a => Fin.ext (by
    match a with
    | ⟨0, _⟩ => exact lhs_agg_0 _ _
    | ⟨1, _⟩ => exact (lhs_agg_1 _ _).trans hk)
  have er : dot_S512x512_S512x128_S512x128_1_0_0_1_n_n.rhsIdx (ix2 n m) ((contrEquiv1 dot_S512x512_S512x128_S512x128_1_0_0_1_n_n 512 rfl rfl).symm k) = ix2 k m := funext fun a => Fin.ext (by
    match a with
    | ⟨0, _⟩ => exact (rhs_agg_0 _ _).trans hk
    | ⟨1, _⟩ => exact rhs_agg_1 _ _)
  rw [el, er]

theorem lhs_lin_0 (i : S512x64.Idx) (q : dot_S512x256_S256x64_S512x64_1_0_0_1_n_n.contr.Idx) :
    (dot_S512x256_S256x64_S512x64_1_0_0_1_n_n.lhsIdx i q 0).val = (i 0).val := by
  unfold DotDims.lhsIdx
  rw [dif_neg (show ¬(0 : Fin S512x256.rank) ∈ dot_S512x256_S256x64_S512x64_1_0_0_1_n_n.lhsBatch by decide), dif_pos (show (0 : Fin S512x256.rank) ∈ dot_S512x256_S256x64_S512x64_1_0_0_1_n_n.lhsNonContracting by decide)]
  rfl
theorem lhs_lin_1 (i : S512x64.Idx) (q : dot_S512x256_S256x64_S512x64_1_0_0_1_n_n.contr.Idx) :
    (dot_S512x256_S256x64_S512x64_1_0_0_1_n_n.lhsIdx i q 1).val = (q ⟨0, by decide⟩).val :=
  dot_S512x256_S256x64_S512x64_1_0_0_1_n_n.lhsIdx_val_of_single rfl i q
theorem rhs_lin_0 (i : S512x64.Idx) (q : dot_S512x256_S256x64_S512x64_1_0_0_1_n_n.contr.Idx) :
    (dot_S512x256_S256x64_S512x64_1_0_0_1_n_n.rhsIdx i q 0).val = (q ⟨0, by decide⟩).val :=
  dot_S512x256_S256x64_S512x64_1_0_0_1_n_n.rhsIdx_val_of_single rfl i q
theorem rhs_lin_1 (i : S512x64.Idx) (q : dot_S512x256_S256x64_S512x64_1_0_0_1_n_n.contr.Idx) :
    (dot_S512x256_S256x64_S512x64_1_0_0_1_n_n.rhsIdx i q 1).val = (i 1).val := by
  unfold DotDims.rhsIdx
  rw [dif_neg (show ¬(1 : Fin S256x64.rank) ∈ dot_S512x256_S256x64_S512x64_1_0_0_1_n_n.rhsBatch by decide), dif_pos (show (1 : Fin S256x64.rank) ∈ dot_S512x256_S256x64_S512x64_1_0_0_1_n_n.rhsNonContracting by decide)]
  rfl

/-- The first layer's entry before the bias is the sum over the 256 concatenated features. -/
theorem mm_lin (l : FVec Ideal S512x256 .bf16) (r : FVec Ideal S256x64 .bf16) (n : Fin 512) (m : Fin 64) :
    matmul dot_S512x256_S256x64_S512x64_1_0_0_1_n_n none l r (constant (F := Ideal) S512x64 .f32 0x00000000#32) (ix2 n m)
      = ∑ k : Fin 256, l (ix2 n k) * r (ix2 k m) := by
  simp only [matmul]
  rw [Ideal.matmul_constant_zero_apply, ← Equiv.sum_comp (contrEquiv1 dot_S512x256_S256x64_S512x64_1_0_0_1_n_n 256 rfl rfl).symm]
  refine Finset.sum_congr rfl fun k _ => ?_
  have hk := contrEquiv1_symm_val dot_S512x256_S256x64_S512x64_1_0_0_1_n_n 256 rfl rfl k
  have el : dot_S512x256_S256x64_S512x64_1_0_0_1_n_n.lhsIdx (ix2 n m) ((contrEquiv1 dot_S512x256_S256x64_S512x64_1_0_0_1_n_n 256 rfl rfl).symm k) = ix2 n k := funext fun a => Fin.ext (by
    match a with
    | ⟨0, _⟩ => exact lhs_lin_0 _ _
    | ⟨1, _⟩ => exact (lhs_lin_1 _ _).trans hk)
  have er : dot_S512x256_S256x64_S512x64_1_0_0_1_n_n.rhsIdx (ix2 n m) ((contrEquiv1 dot_S512x256_S256x64_S512x64_1_0_0_1_n_n 256 rfl rfl).symm k) = ix2 k m := funext fun a => Fin.ext (by
    match a with
    | ⟨0, _⟩ => exact (rhs_lin_0 _ _).trans hk
    | ⟨1, _⟩ => exact rhs_lin_1 _ _)
  rw [el, er]

end Dots

/-! ## The stages read at an index, at the ideal values -/

section Apply

variable (x0 : Vec Ideal S1x512x128 .f32) (x1 : Vec Ideal S1x512x512 .f32) (x2 x3 : Vec Ideal S128x32 .f32)
  (x4 : Vec Ideal S256x64 .f32) (x5 : Vec Ideal S1x64 .f32)

/-- A batch block's node features as a family over every batch index (the same at each). -/
abbrev sF : Fin 256 → Fin 512 → Fin 128 → EReal := fun _ n d => x0 (ix3 (0 : Fin 1) n d)
/-- A batch block's edge weights likewise. -/
abbrev gF : Fin 256 → Fin 512 → Fin 512 → EReal := fun _ n p => x1 (ix3 (0 : Fin 1) n p)
/-- A projection matrix by coordinates. -/
abbrev wF (w : Vec Ideal S128x32 .f32) : Fin 128 → Fin 32 → EReal := fun d m => w (ix2 d m)
/-- The first layer's weights by coordinates. -/
abbrev w1F : Fin 256 → Fin 64 → EReal := fun e j => x4 (ix2 e j)
/-- The first layer's bias row by its coordinate. -/
abbrev b1F : Fin 64 → EReal := fun j => x5 (ix2 (0 : Fin 1) j)

theorem sM_apply (n : Fin 512) (d : Fin 128) : sM x0 (ix2 n d) = x0 (ix3 (0 : Fin 1) n d) :=
  shapeCast_1ab_ab_apply x0 shapeCasts_S1x512x128_S512x128 n d

theorem gM_apply (n p : Fin 512) : gM x1 (ix2 n p) = x1 (ix3 (0 : Fin 1) n p) :=
  shapeCast_1ab_ab_apply x1 shapeCasts_S1x512x512_S512x512 n p

theorem sN_apply (n : Fin 512) (d : Fin 128) : sN x0 (ix2 n d) = x0 (ix3 (0 : Fin 1) n d) := sM_apply x0 n d

theorem projM_apply (w : Vec Ideal S128x32 .f32) (b : Fin 256) (n : Fin 512) (m : Fin 32) :
    projM x0 w (ix2 n m) = Cert.Spec.proj (sF x0) (wF w) b n m := by
  unfold projM
  rw [mm_proj]
  unfold Cert.Spec.proj
  refine Finset.sum_congr rfl fun d _ => ?_
  show sN x0 (ix2 n d) * w (ix2 d m) = x0 (ix3 (0 : Fin 1) n d) * w (ix2 d m)
  rw [sN_apply]

theorem qkM_apply (b : Fin 256) (n p : Fin 512) :
    qkM x0 x2 x3 (ix2 n p) = Cert.Spec.qk (sF x0) (wF x2) (wF x3) b n p := by
  unfold qkM
  rw [mm_qk]
  unfold Cert.Spec.qk
  refine Finset.sum_congr rfl fun m _ => ?_
  rw [transpose_ix2_apply]
  show projM x0 x2 (ix2 n m) * projM x0 x3 (ix2 p m) = _
  rw [projM_apply x0 x2 b, projM_apply x0 x3 b]

theorem scoreM_apply (b : Fin 256) (n p : Fin 512) :
    scoreM x0 x1 x2 x3 (ix2 n p) = Cert.Spec.score (sF x0) (gF x1) (wF x2) (wF x3) b n p := by
  unfold scoreM Cert.Spec.score
  rw [mulf_apply, mulf_apply, qkM_apply x0 x2 x3 b, gM_apply]

/-- A sum along the second axis of a square matrix, at a row. -/
theorem rowSum_apply (src : FVec Ideal S512x512 .f32) (h : S512x512.Reduces [1] S512) (hφ : FKind.Formats .f32)
    (hacc : (0x00000000#32 : BitVec 32) = 0x00000000#32) (n : Fin 512) :
    multiReduction .add [1] S512 src 0x00000000#32 h hφ hacc (ix1 n) = ∑ p : Fin 512, src (ix2 n p) := by
  refine (Ideal.multiReduction_add_single src 0x00000000#32 h hφ hacc (ix1 n)).trans ?_
  refine Finset.sum_congr rfl fun p _ => congrArg src (funext fun a => Fin.ext ?_)
  match a with
  | ⟨0, _⟩ => rfl
  | ⟨1, _⟩ => rfl

/-- A vector of 512 entries laid out as a column. -/
theorem colCast_apply {α : Type} (u : S512.Idx → α) (h : S512.ShapeCasts S512x1) (n : Fin 512) (z : Fin 1) :
    shapeCast S512x1 u h (ix2 n z) = u (ix1 n) :=
  shapeCast_apply u h _ _ (by
    have hz : z.val = 0 := by omega
    rw [Shape.rowMajor_val_one, Shape.rowMajor_val_two]
    show n.val = n.val * 1 + z.val
    omega)

/-- A column repeated across 512 columns. -/
theorem colBroadcast_apply {α : Type} (v : S512x1.Idx → α) (h : S512x1.Broadcasts S512x512) (n p : Fin 512) :
    broadcastTo S512x512 v h (ix2 n p) = v (ix2 n (0 : Fin 1)) := by
  refine broadcastTo_apply v h (ix2 n p) (ix2 n (0 : Fin 1)) fun ax => ?_
  match ax with
  | ⟨0, _⟩ => rfl
  | ⟨1, _⟩ => rfl

theorem denomM_apply (b : Fin 256) (n : Fin 512) (z : Fin 1) :
    denomM x0 x1 x2 x3 (ix2 n z) = Cert.Spec.denom (sF x0) (gF x1) (wF x2) (wF x3) b n := by
  unfold denomM Cert.Spec.denom
  rw [addf_apply, colCast_apply, rowSum_apply]
  refine congrArg₂ (· + ·) (Finset.sum_congr rfl fun p _ => scoreM_apply x0 x1 x2 x3 b n p) ?_
  rfl

theorem attM_apply (b : Fin 256) (n p : Fin 512) :
    attM x0 x1 x2 x3 (ix2 n p) = Cert.Spec.att (sF x0) (gF x1) (wF x2) (wF x3) b n p := by
  unfold attM Cert.Spec.att
  rw [divf_apply, colBroadcast_apply, scoreM_apply x0 x1 x2 x3 b, denomM_apply x0 x1 x2 x3 b]

theorem aggM_apply (b : Fin 256) (n : Fin 512) (d : Fin 128) :
    aggM x0 x1 x2 x3 (ix2 n d) = Cert.Spec.agg (sF x0) (gF x1) (wF x2) (wF x3) b n d := by
  unfold aggM
  rw [mm_agg]
  unfold Cert.Spec.agg
  refine Finset.sum_congr rfl fun p _ => ?_
  show attM x0 x1 x2 x3 (ix2 n p) * sN x0 (ix2 p d) = _
  rw [attM_apply x0 x1 x2 x3 b, sN_apply]

theorem featM_apply (b : Fin 256) (n : Fin 512) (e : Fin 256) :
    featM x0 x1 x2 x3 (ix2 n e) = Cert.Spec.feat (sF x0) (gF x1) (wF x2) (wF x3) b n e := by
  unfold featM Cert.Spec.feat
  by_cases h : e.val < 128
  · rw [dif_pos h]
    refine (concatenate_pair_apply_left (1 : Fin S512x256.rank) (sM x0) (aggM x0 x1 x2 x3)
      concatenates_S512x128_S512x128_S512x256_d1 (ix2 n e) rfl (ix2 n ⟨e.val, h⟩) fun a => ?_).trans (sM_apply x0 n ⟨e.val, h⟩)
    match a with
    | ⟨0, _⟩ => rfl
    | ⟨1, _⟩ => rfl
  · rw [dif_neg h]
    refine (concatenate_pair_apply_right (1 : Fin S512x256.rank) (sM x0) (aggM x0 x1 x2 x3)
      concatenates_S512x128_S512x128_S512x256_d1 (ix2 n e) rfl rfl (ix2 n ⟨e.val - 128, by omega⟩) (fun a ha => ?_) ?_).trans
        (aggM_apply x0 x1 x2 x3 b n ⟨e.val - 128, by omega⟩)
    · match a with
      | ⟨0, _⟩ => rfl
      | ⟨1, _⟩ => exact absurd rfl ha
    · show e.val - 128 + 128 = e.val
      omega

theorem linM_apply (b : Fin 256) (n : Fin 512) (j : Fin 64) :
    linM x0 x1 x2 x3 x4 (ix2 n j) = ∑ e : Fin 256, Cert.Spec.feat (sF x0) (gF x1) (wF x2) (wF x3) b n e * x4 (ix2 e j) := by
  unfold linM
  rw [mm_lin]
  refine Finset.sum_congr rfl fun e _ => ?_
  show featM x0 x1 x2 x3 (ix2 n e) * x4 (ix2 e j) = _
  rw [featM_apply x0 x1 x2 x3 b]

/-- THE BODY'S FIRST LAYER AT AN INDEX: the first layer of the mathematics, computed from the point's blocks. -/
theorem pay_h1 (b : Fin 256) (n : Fin 512) (j : Fin 64) :
    k0_pay1 (k0_pay7 x0 x1 x2 x3 x4) (k0_pay8 x5) (ix2 n j)
      = Cert.Spec.h1 (sF x0) (gF x1) (wF x2) (wF x3) (w1F x4) (b1F x5) b n j := by
  rw [pay7_eq]
  unfold k0_pay1 k0_pay8 Cert.Spec.h1
  rw [addf_apply, broadcastTo_1b_ab_apply, shapeCast_self, linM_apply x0 x1 x2 x3 x4 b]

end Apply

/-! ## The windows' blocks, read where they sit in their arrays -/

section Blocks

/-- The six input blocks at a point, each with its own shape. -/
abbrev blk0 (c : Dev nD) (t : Fin cfg0.N) : Vec Ideal S1x512x128 .f32 := iblk0 V c 0 t
abbrev blk1 (c : Dev nD) (t : Fin cfg0.N) : Vec Ideal S1x512x512 .f32 := iblk0 V c 1 t
abbrev blk2 (c : Dev nD) (t : Fin cfg0.N) : Vec Ideal S128x32 .f32 := iblk0 V c 2 t
abbrev blk3 (c : Dev nD) (t : Fin cfg0.N) : Vec Ideal S128x32 .f32 := iblk0 V c 3 t
abbrev blk4 (c : Dev nD) (t : Fin cfg0.N) : Vec Ideal S256x64 .f32 := iblk0 V c 4 t
abbrev blk5 (c : Dev nD) (t : Fin cfg0.N) : Vec Ideal S1x64 .f32 := iblk0 V c 5 t

/-- Where each window's block sits at each point: the batch's slab for the three batched windows, the whole array
    for the others, at every point of the grid. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- The features' block at point `t` is batch `t` of the features. -/
theorem blk0_apply (c : Dev nD) (t : Fin cfg0.N) (b : Fin 256) (hb : b.val = t.val) (n : Fin 512) (d : Fin 128) :
    blk0 V c t (ix3 (0 : Fin 1) n d) = V c main_arg0 (ix3 b n d) := by
  obtain ⟨e0, e1, e2⟩ := idx0 t
  show V c main_arg0 (((cfg0.win 0).blk t).view.emb (ix3 (0 : Fin 1) n d)) = V c main_arg0 (ix3 b n d)
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 512 + 1 * n.val = n.val; omega
  | ⟨2, _⟩ => show win0_0.index t (2 : Fin 3) * 128 + 1 * d.val = d.val; omega

/-- The edge weights' block at point `t` is batch `t` of the edge weights. -/
theorem blk1_apply (c : Dev nD) (t : Fin cfg0.N) (b : Fin 256) (hb : b.val = t.val) (n p : Fin 512) :
    blk1 V c t (ix3 (0 : Fin 1) n p) = V c main_arg1 (ix3 b n p) := by
  obtain ⟨e0, e1, e2⟩ := idx1 t
  show V c main_arg1 (((cfg0.win 1).blk t).view.emb (ix3 (0 : Fin 1) n p)) = V c main_arg1 (ix3 b n p)
  refine congrArg (V c main_arg1) (funext fun a => Fin.ext ?_)
  match a with
  | ⟨0, _⟩ => show win0_1.index t (0 : Fin 3) * 1 + 1 * 0 = b.val; omega
  | ⟨1, _⟩ => show win0_1.index t (1 : Fin 3) * 512 + 1 * n.val = n.val; omega
  | ⟨2, _⟩ => show win0_1.index t (2 : Fin 3) * 512 + 1 * p.val = p.val; omega

/-- The other four windows hold their whole arrays at every point. -/
theorem blk2_apply (c : Dev nD) (t : Fin cfg0.N) (d : Fin 128) (m : Fin 32) :
    blk2 V c t (ix2 d m) = V c main_arg2 (ix2 d m) := by
  obtain ⟨e0, e1⟩ := idx2 t
  show V c main_arg2 (((cfg0.win 2).blk t).view.emb (ix2 d m)) = V c main_arg2 (ix2 d m)
  refine congrArg (V c main_arg2) (funext fun a => Fin.ext ?_)
  match a with
  | ⟨0, _⟩ => show win0_2.index t (0 : Fin 2) * 128 + 1 * d.val = d.val; omega
  | ⟨1, _⟩ => show win0_2.index t (1 : Fin 2) * 32 + 1 * m.val = m.val; omega

theorem blk3_apply (c : Dev nD) (t : Fin cfg0.N) (d : Fin 128) (m : Fin 32) :
    blk3 V c t (ix2 d m) = V c main_arg3 (ix2 d m) := by
  obtain ⟨e0, e1⟩ := idx3 t
  show V c main_arg3 (((cfg0.win 3).blk t).view.emb (ix2 d m)) = V c main_arg3 (ix2 d m)
  refine congrArg (V c main_arg3) (funext fun a => Fin.ext ?_)
  match a with
  | ⟨0, _⟩ => show win0_3.index t (0 : Fin 2) * 128 + 1 * d.val = d.val; omega
  | ⟨1, _⟩ => show win0_3.index t (1 : Fin 2) * 32 + 1 * m.val = m.val; omega

theorem blk4_apply (c : Dev nD) (t : Fin cfg0.N) (e : Fin 256) (j : Fin 64) :
    blk4 V c t (ix2 e j) = V c main_arg4 (ix2 e j) := by
  obtain ⟨e0, e1⟩ := idx4 t
  show V c main_arg4 (((cfg0.win 4).blk t).view.emb (ix2 e j)) = V c main_arg4 (ix2 e j)
  refine congrArg (V c main_arg4) (funext fun a => Fin.ext ?_)
  match a with
  | ⟨0, _⟩ => show win0_4.index t (0 : Fin 2) * 256 + 1 * e.val = e.val; omega
  | ⟨1, _⟩ => show win0_4.index t (1 : Fin 2) * 64 + 1 * j.val = j.val; omega

theorem blk5_apply (c : Dev nD) (t : Fin cfg0.N) (j : Fin 64) :
    blk5 V c t (ix2 (0 : Fin 1) j) = V c main_v0 (ix2 (0 : Fin 1) j) := by
  obtain ⟨e0, e1⟩ := idx5 t
  show V c main_v0 (((cfg0.win 5).blk t).view.emb (ix2 (0 : Fin 1) j)) = V c main_v0 (ix2 (0 : Fin 1) j)
  refine congrArg (V c main_v0) (funext fun a => Fin.ext ?_)
  match a with
  | ⟨0, _⟩ => show win0_5.index t (0 : Fin 2) * 1 + 1 * 0 = 0; omega
  | ⟨1, _⟩ => show win0_5.index t (1 : Fin 2) * 64 + 1 * j.val = j.val; omega

end Blocks

/-! ## The three output buffers after each point -/

section Invariant

/-- The first layer of one batch reads only that batch's features and edge weights. -/
theorem h1_congr {s s' : Fin 256 → Fin 512 → Fin 128 → EReal} {g g' : Fin 256 → Fin 512 → Fin 512 → EReal}
    {qw qw' kw kw' : Fin 128 → Fin 32 → EReal} {w1 w1' : Fin 256 → Fin 64 → EReal} {b1 b1' : Fin 64 → EReal} (b : Fin 256)
    (hs : ∀ n d, s b n d = s' b n d) (hg : ∀ n p, g b n p = g' b n p) (hq : qw = qw') (hk : kw = kw') (hw : w1 = w1')
    (hb : b1 = b1') (n : Fin 512) (j : Fin 64) :
    Cert.Spec.h1 s g qw kw w1 b1 b n j = Cert.Spec.h1 s' g' qw' kw' w1' b1' b n j := by
  subst hq hk hw hb
  simp only [Cert.Spec.h1, Cert.Spec.feat, Cert.Spec.agg, Cert.Spec.att, Cert.Spec.denom, Cert.Spec.score, Cert.Spec.qk,
    Cert.Spec.proj, hs, hg]

/-- The body's matrix chain and bias row at point `t`. -/
abbrev P7 (c : Dev nD) (t : Fin cfg0.N) : FVec Ideal S512x64 .f32 :=
  k0_pay7 (blk0 V c t) (blk1 V c t) (blk2 V c t) (blk3 V c t) (blk4 V c t)
abbrev P8 (c : Dev nD) (t : Fin cfg0.N) : FVec Ideal S1x64 .f32 := k0_pay8 (blk5 V c t)

/-- What the body computes at point `t` is the first layer of batch `t`. -/
theorem blk_h1 (c : Dev nD) (t : Fin cfg0.N) (b : Fin 256) (hb : b.val = t.val) (n : Fin 512) (j : Fin 64) :
    k0_pay1 (P7 V c t) (P8 V c t) (ix2 n j) = h1V V c b n j := by
  refine (pay_h1 (blk0 V c t) (blk1 V c t) (blk2 V c t) (blk3 V c t) (blk4 V c t) (blk5 V c t) b n j).trans ?_
  unfold h1V
  exact h1_congr b (fun n d => blk0_apply V c t b hb n d) (fun n p => blk1_apply V c t b hb n p)
    (funext fun d => funext fun m => blk2_apply V c t d m) (funext fun d => funext fun m => blk3_apply V c t d m)
    (funext fun e => funext fun j => blk4_apply V c t e j) (funext fun j => blk5_apply V c t j) n j

/-- The three buffers after a point of the first case. -/
theorem outs_A (c : Dev nD) (t : Fin cfg0.N) (h0 : t.val % 256 = 0) :
    outsAt0 V c t.val t.isLt = (k0_pay2 (P7 V c t) (P8 V c t), k0_pay3 (P7 V c t) (P8 V c t) (k0_pay5 (F := Ideal)),
      k0_pay4 (P7 V c t) (P8 V c t) (k0_pay6 (F := Ideal))) :=
  (outsAt0_A V c t h0).trans (congrArg₂ Prod.mk
    (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 V c t) (blk1 V c t) (blk2 V c t) (blk3 V c t) (blk4 V c t) (blk5 V c t))
    (congrArg₂ Prod.mk
      (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 V c t) (blk1 V c t) (blk2 V c t) (blk3 V c t) (blk4 V c t) (blk5 V c t))
      (out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 V c t) (blk1 V c t) (blk2 V c t) (blk3 V c t) (blk4 V c t) (blk5 V c t))))

/-- The three buffers after a later point, over what the point before left. -/
theorem outs_B (c : Dev nD) (t : Fin cfg0.N) (h0 : ¬t.val % 256 = 0) :
    outsAt0 V c t.val t.isLt = (k0_pay2 (P7 V c t) (P8 V c t),
      k0_pay3 (P7 V c t) (P8 V c t) (outsAt0 V c (t.val - 1) (Nat.lt_of_le_of_lt (Nat.sub_le _ _) t.isLt)).2.1,
      k0_pay4 (P7 V c t) (P8 V c t) (outsAt0 V c (t.val - 1) (Nat.lt_of_le_of_lt (Nat.sub_le _ _) t.isLt)).2.2) :=
  (outsAt0_B V c t h0).trans (congrArg₂ Prod.mk
    (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 V c t) (blk1 V c t) (blk2 V c t) (blk3 V c t) (blk4 V c t) (blk5 V c t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 V c t) (blk1 V c t) (blk2 V c t) (blk3 V c t) (blk4 V c t) (blk5 V c t) (outsAt0 V c (t.val - 1) (Nat.lt_of_le_of_lt (Nat.sub_le _ _) t.isLt)).2.1 (outsAt0 V c (t.val - 1) (Nat.lt_of_le_of_lt (Nat.sub_le _ _) t.isLt)).2.2)
      (out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 V c t) (blk1 V c t) (blk2 V c t) (blk3 V c t) (blk4 V c t) (blk5 V c t) (outsAt0 V c (t.val - 1) (Nat.lt_of_le_of_lt (Nat.sub_le _ _) t.isLt)).2.1 (outsAt0 V c (t.val - 1) (Nat.lt_of_le_of_lt (Nat.sub_le _ _) t.isLt)).2.2)))

/-- After every point the first buffer holds the point's first layer. -/
theorem outs_fst (c : Dev nD) (t : Fin cfg0.N) : (outsAt0 V c t.val t.isLt).1 = k0_pay2 (P7 V c t) (P8 V c t) := by
  by_cases h0 : t.val % 256 = 0
  · rw [outs_A V c t h0]
  · rw [outs_B V c t h0]

end Invariant

/-! ## The running column sums -/

section Sums

/-- A sum along the first axis of a 512 by 64 matrix, at a column. -/
theorem colSum_apply (src : FVec Ideal S512x64 .f32) (h : S512x64.Reduces [0] S64) (hφ : FKind.Formats .f32)
    (hacc : (0x00000000#32 : BitVec 32) = 0x00000000#32) (j : Fin 64) :
    multiReduction .add [0] S64 src 0x00000000#32 h hφ hacc (ix1 j) = ∑ r : Fin 512, src (ix2 r j) := by
  refine (Ideal.multiReduction_add_single src 0x00000000#32 h hφ hacc (ix1 j)).trans ?_
  refine Finset.sum_congr rfl fun r _ => congrArg src (funext fun a => Fin.ext ?_)
  match a with
  | ⟨0, _⟩ => rfl
  | ⟨1, _⟩ => rfl

/-- The update of the column sums: what the buffer held plus the block's column sums. -/
theorem pay3_apply (v32 : FVec Ideal S512x64 .f32) (v34 : FVec Ideal S1x64 .f32) (v40 : Vec Ideal S1x64 .f32) (z : Fin 1) (j : Fin 64) :
    k0_pay3 v32 v34 v40 (ix2 z j) = v40 (ix2 z j) + ∑ r : Fin 512, k0_pay1 v32 v34 (ix2 r j) := by
  unfold k0_pay3
  rw [addf_apply, shapeCast_self, shapeCast_a_1a_apply, colSum_apply]

/-- The update of the column sums of squares likewise. -/
theorem pay4_apply (v32 : FVec Ideal S512x64 .f32) (v34 : FVec Ideal S1x64 .f32) (v46 : Vec Ideal S1x64 .f32) (z : Fin 1) (j : Fin 64) :
    k0_pay4 v32 v34 v46 (ix2 z j) = v46 (ix2 z j) + ∑ r : Fin 512, k0_pay1 v32 v34 (ix2 r j) * k0_pay1 v32 v34 (ix2 r j) := by
  unfold k0_pay4
  rw [addf_apply, shapeCast_self, shapeCast_a_1a_apply, colSum_apply]
  rfl

/-- The two reset rows are zero. -/
theorem pay5_apply (i : S1x64.Idx) : k0_pay5 (F := Ideal) i = 0 := Ideal.ofBits_zero_f32
theorem pay6_apply (i : S1x64.Idx) : k0_pay6 (F := Ideal) i = 0 := Ideal.ofBits_zero_f32

/-- The first layer of batch `k` when `k` is a batch, zero otherwise: the running sums' summand over the naturals. -/
def hN (c : Dev nD) (k : ℕ) (n : Fin 512) (j : Fin 64) : EReal := if h : k < 256 then h1V V c ⟨k, h⟩ n j else 0

theorem hN_of_lt (c : Dev nD) (t : Fin cfg0.N) (n : Fin 512) (j : Fin 64) :
    k0_pay1 (P7 V c t) (P8 V c t) (ix2 n j) = hN V c t.val n j := by
  have hN' : t.val < 256 := lt_of_lt_of_eq t.isLt (show cfg0.N = 256 from N_0)
  unfold hN
  rw [dif_pos hN']
  exact blk_h1 V c t ⟨t.val, hN'⟩ rfl n j

/-- After point `n` the second buffer holds every column's sum over the batches up to `n`. -/
theorem sum_inv (c : Dev nD) : ∀ (n : ℕ) (hn : n < cfg0.N) (z : Fin 1) (j : Fin 64),
    (outsAt0 V c n hn).2.1 (ix2 z j) = ∑ k ∈ Finset.range (n + 1), ∑ r : Fin 512, hN V c k r j
  | 0, hn, z, j => by
    rw [outs_A V c ⟨0, hn⟩ rfl]
    dsimp only
    rw [pay3_apply, pay5_apply, zero_add, Finset.sum_range_one]
    exact Finset.sum_congr rfl fun r _ => hN_of_lt V c ⟨0, hn⟩ r j
  | n + 1, hn, z, j => by
    have hN' : cfg0.N = 256 := N_0
    have hB : ¬(⟨n + 1, hn⟩ : Fin cfg0.N).val % 256 = 0 := by dsimp only; omega
    rw [outs_B V c ⟨n + 1, hn⟩ hB]
    dsimp only
    rw [pay3_apply, Finset.sum_range_succ]
    refine congrArg₂ (· + ·) ?_ (Finset.sum_congr rfl fun r _ => hN_of_lt V c ⟨n + 1, hn⟩ r j)
    exact sum_inv c n _ z j

/-- After point `n` the third buffer holds every column's sum of squares over the batches up to `n`. -/
theorem sumsq_inv (c : Dev nD) : ∀ (n : ℕ) (hn : n < cfg0.N) (z : Fin 1) (j : Fin 64),
    (outsAt0 V c n hn).2.2 (ix2 z j) = ∑ k ∈ Finset.range (n + 1), ∑ r : Fin 512, hN V c k r j * hN V c k r j
  | 0, hn, z, j => by
    rw [outs_A V c ⟨0, hn⟩ rfl]
    dsimp only
    rw [pay4_apply, pay6_apply, zero_add, Finset.sum_range_one]
    exact Finset.sum_congr rfl fun r _ => by rw [hN_of_lt V c ⟨0, hn⟩ r j]
  | n + 1, hn, z, j => by
    have hN' : cfg0.N = 256 := N_0
    have hB : ¬(⟨n + 1, hn⟩ : Fin cfg0.N).val % 256 = 0 := by dsimp only; omega
    rw [outs_B V c ⟨n + 1, hn⟩ hB]
    dsimp only
    rw [pay4_apply, Finset.sum_range_succ]
    refine congrArg₂ (· + ·) ?_ (Finset.sum_congr rfl fun r _ => by rw [hN_of_lt V c ⟨n + 1, hn⟩ r j])
    exact sumsq_inv c n _ z j

/-- Over all 256 batches the naturals' summand is the batches'. -/
theorem sum_hN (c : Dev nD) (f : EReal → EReal) (j : Fin 64) :
    ∑ k ∈ Finset.range 256, ∑ r : Fin 512, f (hN V c k r j) = ∑ b : Fin 256, ∑ n : Fin 512, f (h1V V c b n j) := by
  rw [Finset.sum_range]
  refine Finset.sum_congr rfl fun b _ => Finset.sum_congr rfl fun n _ => ?_
  unfold hN
  rw [dif_pos b.isLt]

end Sums

/-! ## From the buffers to the arrays -/

section Finals

/-- What the first output array ends holding. -/
abbrev G6 (c : Dev nD) : S256x512x64.Idx → EReal := fun i => h1V V c (i 0) (i 1) (i 2)
/-- What the second output array ends holding. -/
abbrev G7 (c : Dev nD) : S1x64.Idx → EReal := fun i => ∑ b : Fin 256, ∑ n : Fin 512, h1V V c b n (i 1)
/-- What the third output array ends holding. -/
abbrev G8 (c : Dev nD) : S1x64.Idx → EReal := fun i => ∑ b : Fin 256, ∑ n : Fin 512, h1V V c b n (i 1) * h1V V c b n (i 1)

/-- The first buffer after point `t`, at any index, is the first layer of batch `t`. -/
theorem pay2_blk (c : Dev nD) (t : Fin cfg0.N) (b : Fin 256) (hb : b.val = t.val) (y : S1x512x64.Idx) :
    k0_pay2 (P7 V c t) (P8 V c t) y = h1V V c b (y 1) (y 2) := by
  obtain ⟨u, n, j, rfl⟩ : ∃ (u : Fin 1) (n : Fin 512) (j : Fin 64), y = ix3 u n j := ⟨y 0, y 1, y 2, eq_ix3 y⟩
  unfold k0_pay2
  rw [shapeCast_ab_1ab_apply]
  exact blk_h1 V c t b hb n j

/-- The write-back of the first output at point `t` writes batch `t`'s slab of the first layer. -/
theorem flushed6 (c : Dev nD) (t : Fin cfg0.N) :
    (dat0 V c).flushed 6 t = ((cfg0.win 6).blk t).view.read (Elt Ideal) (G6 V c) := by
  have hN' : t.val < 256 := lt_of_lt_of_eq t.isLt (show cfg0.N = 256 from N_0)
  obtain ⟨e0, e1, e2⟩ := idx6 t
  show (cfg0.win 6).cut (grid0.coords t) ((dat0 V c).after 6 t) = _
  rw [after0_6, outs_fst V c t]
  funext y
  rw [View.read_apply]
  refine (pay2_blk V c t ⟨t.val, hN'⟩ rfl ((cfg0.win 6).xinj (grid0.coords t) y)).trans ?_
  show h1V V c ⟨t.val, hN'⟩ ⟨(y 1).val, _⟩ ⟨(y 2).val, _⟩ = h1V V c _ _ _
  have h1 : (y 1).val < 512 := (y 1).isLt
  have h2 : (y 2).val < 64 := (y 2).isLt
  congr 1
  · exact Fin.ext (by show t.val = win0_6.index t (0 : Fin 3) * 1 + 1 * (y 0).val; have h0 : (y 0).val < 1 := (y 0).isLt; omega)
  · exact Fin.ext (by show (y 1).val = win0_6.index t (1 : Fin 3) * 512 + 1 * (y 1).val; omega)
  · exact Fin.ext (by show (y 2).val = win0_6.index t (2 : Fin 3) * 64 + 1 * (y 2).val; omega)

theorem mem_blk6 (t : Fin cfg0.N) (i : S256x512x64.Idx) :
    i ∈ ((cfg0.win 6).blk t).view.set ↔ ∀ a : Fin 3, win0_6.index t a * S1x512x64.size a ≤ (i a).val ∧ (i a).val < win0_6.index t a * S1x512x64.size a + S1x512x64.size a := by
  show i ∈ ((View.whole main_v1_0).slice (win0_6.rect t)).set ↔ _
  rw [View.set_slice_whole, Rect.mem_set_unit]
  exact Iff.rfl

/-- Every entry of the first output array is in the slab of its batch's point. -/
theorem cover6 (i : S256x512x64.Idx) : ∃ t : Fin cfg0.N, (cfg0.win 6).flush t = true ∧ i ∈ ((cfg0.win 6).blk t).view.set := by
  have h0 : (i 0).val < 256 := (i 0).isLt
  have h1 : (i 1).val < 512 := (i 1).isLt
  have h2 : (i 2).val < 64 := (i 2).isLt
  obtain ⟨t, ht⟩ : ∃ t : Fin cfg0.N, t.val = (i 0).val := ⟨⟨(i 0).val, lt_of_lt_of_eq h0 (show cfg0.N = 256 from N_0).symm⟩, rfl⟩
  obtain ⟨e0, e1, e2⟩ := idx6 t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

end Finals

section Finals2

/-- The one write-back of the second output, at the last point, writes every column's sum over all batches and rows. -/
theorem flushed7 (c : Dev nD) (t : Fin cfg0.N) (hf : (cfg0.win 7).flush t = true) :
    (dat0 V c).flushed 7 t = ((cfg0.win 7).blk t).view.read (Elt Ideal) (G7 V c) := by
  have hN' : cfg0.N = 256 := N_0
  have h255 : t.val + 1 = 256 := by have := (flush0_7 t).mp hf; have := t.isLt; omega
  obtain ⟨e0, e1⟩ := idx7 t
  show (cfg0.win 7).cut (grid0.coords t) ((dat0 V c).after 7 t) = _
  rw [after0_7]
  funext y
  rw [View.read_apply]
  have h0 : (y 0).val < 1 := (y 0).isLt
  have h1 : (y 1).val < 64 := (y 1).isLt
  have ey : ((cfg0.win 7).xinj (grid0.coords t) y : S1x64.Idx) = ix2 (⟨(y 0).val, h0⟩ : Fin 1) (⟨(y 1).val, h1⟩ : Fin 64) := eq_ix2 _
  show (outsAt0 V c t.val t.isLt).2.1 ((cfg0.win 7).xinj (grid0.coords t) y) = G7 V c (((cfg0.win 7).blk t).view.emb y)
  rw [ey, sum_inv V c t.val t.isLt, h255, sum_hN V c (fun x => x)]
  show G7 V c (ix2 (⟨(y 0).val, h0⟩ : Fin 1) (⟨(y 1).val, h1⟩ : Fin 64)) = G7 V c (((cfg0.win 7).blk t).view.emb y)
  refine congrArg (G7 V c) (funext fun a => Fin.ext ?_)
  match a with
  | ⟨0, _⟩ => show (y 0).val = win0_7.index t (0 : Fin 2) * 1 + 1 * (y 0).val; omega
  | ⟨1, _⟩ => show (y 1).val = win0_7.index t (1 : Fin 2) * 64 + 1 * (y 1).val; omega

theorem mem_blk7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v1_1).slice (win0_7.rect t)).set ↔ _
  rw [View.set_slice_whole, Rect.mem_set_unit]
  exact Iff.rfl

/-- The last point's block is the whole row. -/
theorem cover7 (i : S1x64.Idx) : ∃ t : Fin cfg0.N, (cfg0.win 7).flush t = true ∧ i ∈ ((cfg0.win 7).blk t).view.set := by
  have h0 : (i 0).val < 1 := (i 0).isLt
  have h1 : (i 1).val < 64 := (i 1).isLt
  obtain ⟨t, ht⟩ : ∃ t : Fin cfg0.N, t.val = 255 := ⟨⟨255, by rw [show cfg0.N = 256 from N_0]; decide⟩, rfl⟩
  obtain ⟨e0, e1⟩ := idx7 t
  refine ⟨t, (flush0_7 t).mpr (by rw [ht]), ?_⟩
  rw [mem_blk7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 64 ≤ (i 1).val ∧ (i 1).val < win0_7.index t (1 : Fin 2) * 64 + 64; omega

/-- The one write-back of the third output, at the last point, writes every column's sum of squares over all batches and rows. -/
theorem flushed8 (c : Dev nD) (t : Fin cfg0.N) (hf : (cfg0.win 8).flush t = true) :
    (dat0 V c).flushed 8 t = ((cfg0.win 8).blk t).view.read (Elt Ideal) (G8 V c) := by
  have hN' : cfg0.N = 256 := N_0
  have h255 : t.val + 1 = 256 := by have := (flush0_8 t).mp hf; have := t.isLt; omega
  obtain ⟨e0, e1⟩ := idx8 t
  show (cfg0.win 8).cut (grid0.coords t) ((dat0 V c).after 8 t) = _
  rw [after0_8]
  funext y
  rw [View.read_apply]
  have h0 : (y 0).val < 1 := (y 0).isLt
  have h1 : (y 1).val < 64 := (y 1).isLt
  have ey : ((cfg0.win 8).xinj (grid0.coords t) y : S1x64.Idx) = ix2 (⟨(y 0).val, h0⟩ : Fin 1) (⟨(y 1).val, h1⟩ : Fin 64) := eq_ix2 _
  show (outsAt0 V c t.val t.isLt).2.2 ((cfg0.win 8).xinj (grid0.coords t) y) = G8 V c (((cfg0.win 8).blk t).view.emb y)
  rw [ey, sumsq_inv V c t.val t.isLt, h255, sum_hN V c (fun x => x * x)]
  show G8 V c (ix2 (⟨(y 0).val, h0⟩ : Fin 1) (⟨(y 1).val, h1⟩ : Fin 64)) = G8 V c (((cfg0.win 8).blk t).view.emb y)
  refine congrArg (G8 V c) (funext fun a => Fin.ext ?_)
  match a with
  | ⟨0, _⟩ => show (y 0).val = win0_8.index t (0 : Fin 2) * 1 + 1 * (y 0).val; omega
  | ⟨1, _⟩ => show (y 1).val = win0_8.index t (1 : Fin 2) * 64 + 1 * (y 1).val; omega

theorem mem_blk8 (t : Fin cfg0.N) (i : S1x64.Idx) :
    i ∈ ((cfg0.win 8).blk t).view.set ↔ ∀ a : Fin 2, win0_8.index t a * S1x64.size a ≤ (i a).val ∧ (i a).val < win0_8.index t a * S1x64.size a + S1x64.size a := by
  show i ∈ ((View.whole main_v1_2).slice (win0_8.rect t)).set ↔ _
  rw [View.set_slice_whole, Rect.mem_set_unit]
  exact Iff.rfl

/-- The last point's block is the whole row. -/
theorem cover8 (i : S1x64.Idx) : ∃ t : Fin cfg0.N, (cfg0.win 8).flush t = true ∧ i ∈ ((cfg0.win 8).blk t).view.set := by
  have h0 : (i 0).val < 1 := (i 0).isLt
  have h1 : (i 1).val < 64 := (i 1).isLt
  obtain ⟨t, ht⟩ : ∃ t : Fin cfg0.N, t.val = 255 := ⟨⟨255, by rw [show cfg0.N = 256 from N_0]; decide⟩, rfl⟩
  obtain ⟨e0, e1⟩ := idx8 t
  refine ⟨t, (flush0_8 t).mpr (by rw [ht]), ?_⟩
  rw [mem_blk8]
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 64 ≤ (i 1).val ∧ (i 1).val < win0_8.index t (1 : Fin 2) * 64 + 64; omega

end Finals2

/-- The first output array ends holding the first layer, batch by batch. -/
theorem h1_eq (c : Dev nD) (i : S256x512x64.Idx) :
    (dat0 (F := Ideal) V c).arrAt 6 cfg0.N i = h1V V c (i 0) (i 1) (i 2) :=
  congrFun ((dat0 (F := Ideal) V c).arrAt_eq_of_cover 6 (G6 V c) (fun t _ => flushed6 V c t) cover6) i

/-- The second output array ends holding every column's sum over all batches and rows. -/
theorem sum_eq (c : Dev nD) (i : S1x64.Idx) :
    (dat0 (F := Ideal) V c).arrAt 7 cfg0.N i = ∑ b : Fin 256, ∑ n : Fin 512, h1V V c b n (i 1) :=
  congrFun ((dat0 (F := Ideal) V c).arrAt_eq_of_cover 7 (G7 V c) (flushed7 V c) cover7) i

/-- The third output array ends holding every column's sum of squares over all batches and rows. -/
theorem sumsq_eq (c : Dev nD) (i : S1x64.Idx) :
    (dat0 (F := Ideal) V c).arrAt 8 cfg0.N i = ∑ b : Fin 256, ∑ n : Fin 512, h1V V c b n (i 1) * h1V V c b n (i 1) :=
  congrFun ((dat0 (F := Ideal) V c).arrAt_eq_of_cover 8 (G8 V c) (flushed8 V c) cover8) i

end Cert.KernelIdeal.Region0

end
-- ==== Proof.KRegion1.lean ====
/-
  REGION 1 (normalise the first layer with given column statistics, clamp, second linear layer, 8192 rows per grid
  point, column sums carried across the grid): what its three output arrays hold when the region ends.

  The grid has sixteen points; point t works on rows 8192·t … 8192·t + 8191. At every point the body leaves, in the
  first output's block, the tile  max((h − μ)·rsqrt(var + ε)·γ + β, 0)·w + b  of those rows, which is written back to
  those rows of the array; the sixteen blocks tile the array. The second and third outputs have one block, the whole
  [1, 64] array, kept across the points: the first point stores a zero row and adds its tile's column sums (sums of
  squares) to it, every later point adds its own to what the point before left, and the block is written back once,
  after the last point. By induction on the point the block holds, after point n, the sum over tiles 0 … n; sixteen
  tiles of 8192 rows are all 131072 rows.
-/
import proofs.«127264_j6760278524113_1_alg».proof.Proof.Gen.KernelIdeal.Frame
import proofs.«127264_j6760278524113_1_alg».proof.Proof.Spec
import proofs.«127264_j6760278524113_1_alg».proof.Proof.Algebra
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (V : (c : Dev nD) → (b : Ref sig .tc) → Buf (Elt Ideal) ((c : Thread nD τ).loc b))

/-- The second layer of row `r`, column `k`, computed from the arrays as the region finds them. -/
def h2V (c : Dev nD) (r : Fin 131072) (k : Fin 64) : EReal :=
  Cert.Spec.lin
    (Cert.Spec.bnRelu (fun j => V c main_v3 (ix2 (0 : Fin 1) j)) (fun j => V c main_v7 (ix2 (0 : Fin 1) j))
      (fun j => V c main_v9 (ix2 (0 : Fin 1) j)) (fun j => V c main_v10 (ix2 (0 : Fin 1) j))
      (fun r j => V c main_v8 (ix2 r j)))
    (fun i k => V c main_arg8 (ix2 i k)) (fun k => V c main_v11 (ix2 (0 : Fin 1) k)) r k

/-- The zero offsets, however spelt. -/
theorem hz : (![0, 0] : Fin 2 → Nat) = fun _ => 0 := funext fun a => by fin_cases a <;> rfl

/-! ## What each case of the body leaves in each output's buffer -/

section Pieces

variable {F : FTy → Type} [FloatOps F]

theorem pieceA7 (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) :
    out1_A_7 c i arg1 harg1 arg2 harg2 arg3 harg3 arg4 harg4 arg5 harg5 arg6 harg6 arg7 harg7 arg8 harg8 arg9 harg9 arg10 harg10 hc0 x0 x1 x2 x3 x4 x5 x6 = k1_pay5 x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S8192x64) hz, View.ld_unit_zero (S := S1x64) hz, View.ld_unit_zero (S := S64x64) hz]

theorem pieceB7 (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : ¬cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) (xo8 : Vec F S1x64 .f32) (xo9 : Vec F S1x64 .f32) :
    out1_B_7 c i arg1 harg1 arg2 harg2 arg3 harg3 arg4 harg4 arg5 harg5 arg6 harg6 arg7 harg7 arg8 harg8 arg9 harg9 arg10 harg10 hc0 x0 x1 x2 x3 x4 x5 x6 xo8 xo9 = k1_pay5 x0 x1 x2 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S8192x64) hz, View.ld_unit_zero (S := S1x64) hz, View.ld_unit_zero (S := S64x64) hz]

theorem pieceA8 (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) :
    out1_A_8 c i arg1 harg1 arg2 harg2 arg3 harg3 arg4 harg4 arg5 harg5 arg6 harg6 arg7 harg7 arg8 harg8 arg9 harg9 arg10 harg10 hc0 x0 x1 x2 x3 x4 x5 x6 = k1_pay1 (k1_pay5 x0 x1 x2 x3 x4 x5 x6) k1_pay3 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_cons_unit_zero (S := S1x64) hz]
  simp only [View.readCov_unit_zero (S := S1x64) _ hz, View.readAt_eq_ld, harg1.read_unread, harg2.read_unread, harg3.read_unread, harg4.read_unread, harg5.read_unread, harg6.read_unread, harg7.read_unread, View.ld_unit_zero (S := S8192x64) hz, View.ld_unit_zero (S := S1x64) hz, View.ld_unit_zero (S := S64x64) hz]

theorem pieceA9 (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) :
    out1_A_9 c i arg1 harg1 arg2 harg2 arg3 harg3 arg4 harg4 arg5 harg5 arg6 harg6 arg7 harg7 arg8 harg8 arg9 harg9 arg10 harg10 hc0 x0 x1 x2 x3 x4 x5 x6 = k1_pay2 (k1_pay5 x0 x1 x2 x3 x4 x5 x6) k1_pay4 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_cons_unit_zero (S := S1x64) hz]
  simp only [View.readCov_unit_zero (S := S1x64) _ hz, View.readAt_eq_ld, harg1.read_unread, harg2.read_unread, harg3.read_unread, harg4.read_unread, harg5.read_unread, harg6.read_unread, harg7.read_unread, View.ld_unit_zero (S := S8192x64) hz, View.ld_unit_zero (S := S1x64) hz, View.ld_unit_zero (S := S64x64) hz]

theorem pieceB8 (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : ¬cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) (xo8 : Vec F S1x64 .f32) (xo9 : Vec F S1x64 .f32) :
    out1_B_8 c i arg1 harg1 arg2 harg2 arg3 harg3 arg4 harg4 arg5 harg5 arg6 harg6 arg7 harg7 arg8 harg8 arg9 harg9 arg10 harg10 hc0 x0 x1 x2 x3 x4 x5 x6 xo8 xo9 = k1_pay1 (k1_pay5 x0 x1 x2 x3 x4 x5 x6) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz]
  simp only [harg9.read_unread, harg10.read_unread, View.readAt_eq_ld, harg1.read_unread, harg2.read_unread, harg3.read_unread, harg4.read_unread, harg5.read_unread, harg6.read_unread, harg7.read_unread, View.ld_unit_zero (S := S8192x64) hz, View.ld_unit_zero (S := S1x64) hz, View.ld_unit_zero (S := S64x64) hz]

theorem pieceB9 (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : ¬cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) (xo8 : Vec F S1x64 .f32) (xo9 : Vec F S1x64 .f32) :
    out1_B_9 c i arg1 harg1 arg2 harg2 arg3 harg3 arg4 harg4 arg5 harg5 arg6 harg6 arg7 harg7 arg8 harg8 arg9 harg9 arg10 harg10 hc0 x0 x1 x2 x3 x4 x5 x6 xo8 xo9 = k1_pay2 (k1_pay5 x0 x1 x2 x3 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz]
  simp only [harg9.read_unread, harg10.read_unread, View.readAt_eq_ld, harg1.read_unread, harg2.read_unread, harg3.read_unread, harg4.read_unread, harg5.read_unread, harg6.read_unread, harg7.read_unread, View.ld_unit_zero (S := S8192x64) hz, View.ld_unit_zero (S := S1x64) hz, View.ld_unit_zero (S := S64x64) hz]

end Pieces

/-! ## The body's arithmetic read at an index -/

theorem lhsM_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhsM_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhsM_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhsM_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The matrix product into a zero accumulator at (q, k): the sum over i of x[q, i] · w[i, k]. -/
theorem mm_apply (x : FVec Ideal S8192x64 .bf16) (w : FVec Ideal S64x64 .bf16) (q : Fin 8192) (k : Fin 64) :
    matmul dot_S8192x64_S64x64_S8192x64_1_0_0_1_n_n none x w (constant (F := Ideal) S8192x64 .f32 0x00000000#32) (ix2 q k)
      = ∑ i : Fin 64, x (ix2 q i) * w (ix2 i k) := by
  simp only [matmul]
  rw [Ideal.matmul_constant_zero_apply,
    ← Equiv.sum_comp (contrEquiv1 dot_S8192x64_S64x64_S8192x64_1_0_0_1_n_n 64 rfl rfl).symm]
  refine Finset.sum_congr rfl fun i _ => ?_
  have hk := contrEquiv1_symm_val dot_S8192x64_S64x64_S8192x64_1_0_0_1_n_n 64 rfl rfl i
  have el : dot_S8192x64_S64x64_S8192x64_1_0_0_1_n_n.lhsIdx (ix2 q k) ((contrEquiv1 dot_S8192x64_S64x64_S8192x64_1_0_0_1_n_n 64 rfl rfl).symm i) = ix2 q i :=
    funext fun a => Fin.ext (by
      match a with
      | ⟨0, _⟩ => exact lhsM_0 _ _
      | ⟨1, _⟩ => exact (lhsM_1 _ _).trans hk)
  have er : dot_S8192x64_S64x64_S8192x64_1_0_0_1_n_n.rhsIdx (ix2 q k) ((contrEquiv1 dot_S8192x64_S64x64_S8192x64_1_0_0_1_n_n 64 rfl rfl).symm i) = ix2 i k :=
    funext fun a => Fin.ext (by
      match a with
      | ⟨0, _⟩ => exact (rhsM_0 _ _).trans hk
      | ⟨1, _⟩ => exact rhsM_1 _ _)
  rw [el, er]

/-- The sum over the rows of a tile, at column k. -/
theorem colsum_apply (src : FVec Ideal S8192x64 .f32) (h : S8192x64.Reduces [0] S64) (hφ : FKind.Formats .f32)
    (hacc : (0x00000000#32 : BitVec 32) = 0x00000000#32) (k : Fin 64) :
    multiReduction .add [0] S64 src 0x00000000#32 h hφ hacc (ix1 k) = ∑ q : Fin 8192, src (ix2 q k) := by
  refine (Ideal.multiReduction_add_single src 0x00000000#32 h hφ hacc (ix1 k)).trans ?_
  exact Finset.sum_congr rfl fun q _ => congrArg src (funext fun a => Fin.ext (by
    match a with
    | ⟨0, _⟩ => rfl
    | ⟨1, _⟩ => rfl))

/-- The normalised, clamped tile times the weight matrix plus the bias row, at (q, k). -/
theorem pay5_apply (x0 : Vec Ideal S8192x64 .f32) (x1 x2 x3 x4 : Vec Ideal S1x64 .f32) (x5 : Vec Ideal S64x64 .f32)
    (x6 : Vec Ideal S1x64 .f32) (q : Fin 8192) (k : Fin 64) :
    k1_pay5 x0 x1 x2 x3 x4 x5 x6 (ix2 q k)
      = (∑ i : Fin 64, max ((x0 (ix2 q i) - x1 (ix2 (0 : Fin 1) i)) * Ideal.rsqrt (x2 (ix2 (0 : Fin 1) i) + Cert.Spec.cEps)
            * x3 (ix2 (0 : Fin 1) i) + x4 (ix2 (0 : Fin 1) i)) 0 * x5 (ix2 i k)) + x6 (ix2 (0 : Fin 1) k) := by
  unfold k1_pay5
  simp only [shapeCast_self]
  refine (addf_apply _ _ (ix2 q k)).trans ?_
  refine congrArg₂ (· + ·) ((mm_apply _ _ q k).trans (Finset.sum_congr rfl fun i _ => ?_)) (broadcastTo_1b_ab_apply x6 _ q k)
  refine congrArg₂ (· * ·) ?_ rfl
  show max ((x0 (ix2 q i) - broadcastTo S8192x64 x1 _ (ix2 q i)) * broadcastTo S8192x64 _ _ (ix2 q i) * broadcastTo S8192x64 x3 _ (ix2 q i) + broadcastTo S8192x64 x4 _ (ix2 q i)) (Ideal.ofBits .f32 0x00000000#32) = _
  rw [broadcastTo_1b_ab_apply, broadcastTo_1b_ab_apply, broadcastTo_1b_ab_apply, broadcastTo_1b_ab_apply, Ideal.ofBits_zero_f32]
  rfl

/-- The running column sum after a tile, at column k. -/
theorem pay1_apply (v33 : FVec Ideal S8192x64 .f32) (v35 : Vec Ideal S1x64 .f32) (k : Fin 64) :
    k1_pay1 v33 v35 (ix2 (0 : Fin 1) k) = v35 (ix2 (0 : Fin 1) k) + ∑ q : Fin 8192, v33 (ix2 q k) := by
  unfold k1_pay1
  simp only [shapeCast_self]
  refine (addf_apply _ _ (ix2 (0 : Fin 1) k)).trans ?_
  refine congrArg₂ (· + ·) rfl ?_
  refine (shapeCast_a_1a_apply _ _ (0 : Fin 1) k).trans ?_
  exact colsum_apply v33 _ _ _ k

/-- The running column sum of squares after a tile, at column k. -/
theorem pay2_apply (v33 : FVec Ideal S8192x64 .f32) (v41 : Vec Ideal S1x64 .f32) (k : Fin 64) :
    k1_pay2 v33 v41 (ix2 (0 : Fin 1) k) = v41 (ix2 (0 : Fin 1) k) + ∑ q : Fin 8192, v33 (ix2 q k) * v33 (ix2 q k) := by
  unfold k1_pay2
  simp only [shapeCast_self]
  refine (addf_apply _ _ (ix2 (0 : Fin 1) k)).trans ?_
  refine congrArg₂ (· + ·) rfl ?_
  refine (shapeCast_a_1a_apply _ _ (0 : Fin 1) k).trans ?_
  exact colsum_apply (mulf v33 v33) _ _ _ k

/-- The reset rows are zero. -/
theorem pay3_apply (k : Fin 64) : (k1_pay3 (F := Ideal)) (ix2 (0 : Fin 1) k) = 0 := Ideal.ofBits_zero_f32
theorem pay4_apply (k : Fin 64) : (k1_pay4 (F := Ideal)) (ix2 (0 : Fin 1) k) = 0 := Ideal.ofBits_zero_f32

/-! ## The input blocks read at an index -/

theorem hN1 : cfg1.N = 16 := N_1

/-- The row of the whole matrix that row q of tile t is. -/
def rowAt (t : Fin cfg1.N) (q : Fin 8192) : Fin 131072 :=
  ⟨t.val * 8192 + q.val, by have := lt_of_lt_of_eq t.isLt hN1; omega⟩

theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem idx7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)

theorem blk0_apply (c : Dev nD) (t : Fin cfg1.N) (q : Fin 8192) (j : Fin 64) :
    (iblk1 V c 0 t : Vec Ideal S8192x64 .f32) (ix2 q j) = V c main_v8 (ix2 (rowAt t q) j) := by
  have hi := idx0 t
  unfold iblk1
  rw [View.read_apply]
  show V c main_v8 _ = V c main_v8 _
  congr 1
  funext a
  apply Fin.ext
  match a with
  | ⟨0, _⟩ => show win1_0.index t (0 : Fin 2) * 8192 + 1 * q.val = t.val * 8192 + q.val; rw [hi.1]; omega
  | ⟨1, _⟩ => show win1_0.index t (1 : Fin 2) * 64 + 1 * j.val = j.val; rw [hi.2]; omega

theorem idx1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

theorem blk1_apply (c : Dev nD) (t : Fin cfg1.N) (p : Fin 1) (j : Fin 64) :
    (iblk1 V c 1 t : Vec Ideal S1x64 .f32) (ix2 p j) = V c main_v3 (ix2 p j) := by
  have hi := idx1 t
  unfold iblk1
  rw [View.read_apply]
  show V c main_v3 _ = V c main_v3 _
  congr 1
  funext a
  apply Fin.ext
  match a with
  | ⟨0, _⟩ => show win1_1.index t (0 : Fin 2) * 1 + 1 * p.val = p.val; rw [hi.1]; omega
  | ⟨1, _⟩ => show win1_1.index t (1 : Fin 2) * 64 + 1 * j.val = j.val; rw [hi.2]; omega

theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem blk2_apply (c : Dev nD) (t : Fin cfg1.N) (p : Fin 1) (j : Fin 64) :
    (iblk1 V c 2 t : Vec Ideal S1x64 .f32) (ix2 p j) = V c main_v7 (ix2 p j) := by
  have hi := idx2 t
  unfold iblk1
  rw [View.read_apply]
  show V c main_v7 _ = V c main_v7 _
  congr 1
  funext a
  apply Fin.ext
  match a with
  | ⟨0, _⟩ => show win1_2.index t (0 : Fin 2) * 1 + 1 * p.val = p.val; rw [hi.1]; omega
  | ⟨1, _⟩ => show win1_2.index t (1 : Fin 2) * 64 + 1 * j.val = j.val; rw [hi.2]; omega

theorem idx3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem blk3_apply (c : Dev nD) (t : Fin cfg1.N) (p : Fin 1) (j : Fin 64) :
    (iblk1 V c 3 t : Vec Ideal S1x64 .f32) (ix2 p j) = V c main_v9 (ix2 p j) := by
  have hi := idx3 t
  unfold iblk1
  rw [View.read_apply]
  show V c main_v9 _ = V c main_v9 _
  congr 1
  funext a
  apply Fin.ext
  match a with
  | ⟨0, _⟩ => show win1_3.index t (0 : Fin 2) * 1 + 1 * p.val = p.val; rw [hi.1]; omega
  | ⟨1, _⟩ => show win1_3.index t (1 : Fin 2) * 64 + 1 * j.val = j.val; rw [hi.2]; omega

theorem idx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem blk4_apply (c : Dev nD) (t : Fin cfg1.N) (p : Fin 1) (j : Fin 64) :
    (iblk1 V c 4 t : Vec Ideal S1x64 .f32) (ix2 p j) = V c main_v10 (ix2 p j) := by
  have hi := idx4 t
  unfold iblk1
  rw [View.read_apply]
  show V c main_v10 _ = V c main_v10 _
  congr 1
  funext a
  apply Fin.ext
  match a with
  | ⟨0, _⟩ => show win1_4.index t (0 : Fin 2) * 1 + 1 * p.val = p.val; rw [hi.1]; omega
  | ⟨1, _⟩ => show win1_4.index t (1 : Fin 2) * 64 + 1 * j.val = j.val; rw [hi.2]; omega

theorem idx5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

theorem blk5_apply (c : Dev nD) (t : Fin cfg1.N) (p : Fin 64) (j : Fin 64) :
    (iblk1 V c 5 t : Vec Ideal S64x64 .f32) (ix2 p j) = V c main_arg8 (ix2 p j) := by
  have hi := idx5 t
  unfold iblk1
  rw [View.read_apply]
  show V c main_arg8 _ = V c main_arg8 _
  congr 1
  funext a
  apply Fin.ext
  match a with
  | ⟨0, _⟩ => show win1_5.index t (0 : Fin 2) * 64 + 1 * p.val = p.val; rw [hi.1]; omega
  | ⟨1, _⟩ => show win1_5.index t (1 : Fin 2) * 64 + 1 * j.val = j.val; rw [hi.2]; omega

theorem idx6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

theorem blk6_apply (c : Dev nD) (t : Fin cfg1.N) (p : Fin 1) (j : Fin 64) :
    (iblk1 V c 6 t : Vec Ideal S1x64 .f32) (ix2 p j) = V c main_v11 (ix2 p j) := by
  have hi := idx6 t
  unfold iblk1
  rw [View.read_apply]
  show V c main_v11 _ = V c main_v11 _
  congr 1
  funext a
  apply Fin.ext
  match a with
  | ⟨0, _⟩ => show win1_6.index t (0 : Fin 2) * 1 + 1 * p.val = p.val; rw [hi.1]; omega
  | ⟨1, _⟩ => show win1_6.index t (1 : Fin 2) * 64 + 1 * j.val = j.val; rw [hi.2]; omega

/-- Tile t of the second layer: the body's arithmetic on the blocks of point t, at (q, k). -/
theorem tile_apply (c : Dev nD) (t : Fin cfg1.N) (q : Fin 8192) (k : Fin 64) :
    k1_pay5 (iblk1 V c 0 t) (iblk1 V c 1 t) (iblk1 V c 2 t) (iblk1 V c 3 t) (iblk1 V c 4 t) (iblk1 V c 5 t) (iblk1 V c 6 t) (ix2 q k)
      = h2V V c (rowAt t q) k := by
  refine (pay5_apply (iblk1 V c 0 t) (iblk1 V c 1 t) (iblk1 V c 2 t) (iblk1 V c 3 t) (iblk1 V c 4 t) (iblk1 V c 5 t) (iblk1 V c 6 t) q k).trans ?_
  unfold h2V Cert.Spec.lin Cert.Spec.bnRelu
  refine congrArg₂ (· + ·) (Finset.sum_congr rfl fun i _ => ?_) (blk6_apply V c t 0 k)
  rw [blk0_apply V c t q i, blk1_apply V c t 0 i, blk2_apply V c t 0 i, blk3_apply V c t 0 i, blk4_apply V c t 0 i, blk5_apply V c t i k]

/-! ## What the outputs' buffers hold after each point -/

/-- After every point the first output's buffer holds that point's tile of the second layer. -/
theorem outs7 (c : Dev nD) (t : Fin cfg1.N) : (outsAt1 V c t.val t.isLt).1 = k1_pay5 (iblk1 V c 0 t) (iblk1 V c 1 t) (iblk1 V c 2 t) (iblk1 V c 3 t) (iblk1 V c 4 t) (iblk1 V c 5 t) (iblk1 V c 6 t) := by
  by_cases h0 : t.val % 16 = 0
  · rw [outsAt1_A V c t h0]
    dsimp only
    exact pieceA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]
    dsimp only
    exact pieceB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- The part of a sum over all rows that tile `s` contributes (nothing past the last tile). -/
def tileOf (g : Fin 131072 → EReal) (s : ℕ) : EReal :=
  if h : s < 16 then ∑ q : Fin 8192, g ⟨s * 8192 + q.val, by omega⟩ else 0

/-- The sixteen tiles' parts add up to the sum over all rows. -/
theorem sum_tileOf (g : Fin 131072 → EReal) : ∑ s ∈ Finset.range 16, tileOf g s = ∑ r : Fin 131072, g r := by
  rw [Finset.sum_range, Cert.Spec.sum_tiles]
  exact Finset.sum_congr rfl fun t _ => by unfold tileOf; rw [dif_pos t.isLt]

theorem tile_sum (c : Dev nD) (t : Fin cfg1.N) (k : Fin 64) :
    ∑ q : Fin 8192, k1_pay5 (iblk1 V c 0 t) (iblk1 V c 1 t) (iblk1 V c 2 t) (iblk1 V c 3 t) (iblk1 V c 4 t) (iblk1 V c 5 t) (iblk1 V c 6 t) (ix2 q k) = tileOf (fun r => h2V V c r k) t.val := by
  have ht : t.val < 16 := lt_of_lt_of_eq t.isLt hN1
  unfold tileOf
  rw [dif_pos ht]
  exact Finset.sum_congr rfl fun q _ => tile_apply V c t q k

theorem tile_sumsq (c : Dev nD) (t : Fin cfg1.N) (k : Fin 64) :
    ∑ q : Fin 8192, k1_pay5 (iblk1 V c 0 t) (iblk1 V c 1 t) (iblk1 V c 2 t) (iblk1 V c 3 t) (iblk1 V c 4 t) (iblk1 V c 5 t) (iblk1 V c 6 t) (ix2 q k) * k1_pay5 (iblk1 V c 0 t) (iblk1 V c 1 t) (iblk1 V c 2 t) (iblk1 V c 3 t) (iblk1 V c 4 t) (iblk1 V c 5 t) (iblk1 V c 6 t) (ix2 q k)
      = tileOf (fun r => h2V V c r k * h2V V c r k) t.val := by
  have ht : t.val < 16 := lt_of_lt_of_eq t.isLt hN1
  unfold tileOf
  rw [dif_pos ht]
  exact Finset.sum_congr rfl fun q _ => by rw [tile_apply V c t q k]; rfl

theorem sum_inv (c : Dev nD) : ∀ (n : ℕ) (hn : n < cfg1.N) (k : Fin 64),
    (outsAt1 V c n hn).2.1 (ix2 (0 : Fin 1) k) = ∑ s ∈ Finset.range (n + 1), tileOf (fun r => h2V V c r k) s
  | 0, hn, k => by
    have h0 : (⟨0, hn⟩ : Fin cfg1.N).val % 16 = 0 := Nat.zero_mod _
    rw [outsAt1_A V c (⟨0, hn⟩ : Fin cfg1.N) h0]
    dsimp only
    refine (congrFun (pieceA8 (F := Ideal) c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) (ms1_4 (⟨0, hn⟩ : Fin cfg1.N)) (hs1_4 (⟨0, hn⟩ : Fin cfg1.N)) (ms1_5 (⟨0, hn⟩ : Fin cfg1.N)) (hs1_5 (⟨0, hn⟩ : Fin cfg1.N)) (ms1_6 (⟨0, hn⟩ : Fin cfg1.N)) (hs1_6 (⟨0, hn⟩ : Fin cfg1.N)) (ms1_7 (⟨0, hn⟩ : Fin cfg1.N)) (hs1_7 (⟨0, hn⟩ : Fin cfg1.N)) (ms1_8 (⟨0, hn⟩ : Fin cfg1.N)) (hs1_8 (⟨0, hn⟩ : Fin cfg1.N)) (ms1_9 (⟨0, hn⟩ : Fin cfg1.N)) (hs1_9 (⟨0, hn⟩ : Fin cfg1.N)) ((hcond1_0 (⟨0, hn⟩ : Fin cfg1.N)).mpr h0) (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (iblk1 V c 4 (⟨0, hn⟩ : Fin cfg1.N)) (iblk1 V c 5 (⟨0, hn⟩ : Fin cfg1.N)) (iblk1 V c 6 (⟨0, hn⟩ : Fin cfg1.N))) (ix2 (0 : Fin 1) k)).trans ?_
    refine (pay1_apply (k1_pay5 (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (iblk1 V c 4 (⟨0, hn⟩ : Fin cfg1.N)) (iblk1 V c 5 (⟨0, hn⟩ : Fin cfg1.N)) (iblk1 V c 6 (⟨0, hn⟩ : Fin cfg1.N))) (k1_pay3 (F := Ideal)) k).trans ?_
    rw [pay3_apply, zero_add, Finset.sum_range_one]
    exact tile_sum V c (⟨0, hn⟩ : Fin cfg1.N) k
  | n + 1, hn, k => by
    have hB : ¬(⟨n + 1, hn⟩ : Fin cfg1.N).val % 16 = 0 := by have := lt_of_lt_of_eq hn hN1; dsimp only; omega
    rw [outsAt1_B V c (⟨n + 1, hn⟩ : Fin cfg1.N) hB]
    dsimp only
    refine (congrFun (pieceB8 (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) (ms1_5 (⟨n + 1, hn⟩ : Fin cfg1.N)) (hs1_5 (⟨n + 1, hn⟩ : Fin cfg1.N)) (ms1_6 (⟨n + 1, hn⟩ : Fin cfg1.N)) (hs1_6 (⟨n + 1, hn⟩ : Fin cfg1.N)) (ms1_7 (⟨n + 1, hn⟩ : Fin cfg1.N)) (hs1_7 (⟨n + 1, hn⟩ : Fin cfg1.N)) (ms1_8 (⟨n + 1, hn⟩ : Fin cfg1.N)) (hs1_8 (⟨n + 1, hn⟩ : Fin cfg1.N)) (ms1_9 (⟨n + 1, hn⟩ : Fin cfg1.N)) (hs1_9 (⟨n + 1, hn⟩ : Fin cfg1.N)) (fun h => hB ((hcond1_0 (⟨n + 1, hn⟩ : Fin cfg1.N)).mp h)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (iblk1 V c 5 (⟨n + 1, hn⟩ : Fin cfg1.N)) (iblk1 V c 6 (⟨n + 1, hn⟩ : Fin cfg1.N)) (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2) (ix2 (0 : Fin 1) k)).trans ?_
    refine (pay1_apply (k1_pay5 (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (iblk1 V c 5 (⟨n + 1, hn⟩ : Fin cfg1.N)) (iblk1 V c 6 (⟨n + 1, hn⟩ : Fin cfg1.N))) (outsAt1 V c ((⟨n + 1, hn⟩ : Fin cfg1.N).val - 1) (Nat.lt_of_le_of_lt (Nat.sub_le _ _) (⟨n + 1, hn⟩ : Fin cfg1.N).isLt)).2.1 k).trans ?_
    rw [Finset.sum_range_succ]
    exact congrArg₂ (· + ·) (sum_inv c n (Nat.lt_of_succ_lt hn) k) (tile_sum V c (⟨n + 1, hn⟩ : Fin cfg1.N) k)

theorem sumsq_inv (c : Dev nD) : ∀ (n : ℕ) (hn : n < cfg1.N) (k : Fin 64),
    (outsAt1 V c n hn).2.2 (ix2 (0 : Fin 1) k) = ∑ s ∈ Finset.range (n + 1), tileOf (fun r => h2V V c r k * h2V V c r k) s
  | 0, hn, k => by
    have h0 : (⟨0, hn⟩ : Fin cfg1.N).val % 16 = 0 := Nat.zero_mod _
    rw [outsAt1_A V c (⟨0, hn⟩ : Fin cfg1.N) h0]
    dsimp only
    refine (congrFun (pieceA9 (F := Ideal) c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) (ms1_4 (⟨0, hn⟩ : Fin cfg1.N)) (hs1_4 (⟨0, hn⟩ : Fin cfg1.N)) (ms1_5 (⟨0, hn⟩ : Fin cfg1.N)) (hs1_5 (⟨0, hn⟩ : Fin cfg1.N)) (ms1_6 (⟨0, hn⟩ : Fin cfg1.N)) (hs1_6 (⟨0, hn⟩ : Fin cfg1.N)) (ms1_7 (⟨0, hn⟩ : Fin cfg1.N)) (hs1_7 (⟨0, hn⟩ : Fin cfg1.N)) (ms1_8 (⟨0, hn⟩ : Fin cfg1.N)) (hs1_8 (⟨0, hn⟩ : Fin cfg1.N)) (ms1_9 (⟨0, hn⟩ : Fin cfg1.N)) (hs1_9 (⟨0, hn⟩ : Fin cfg1.N)) ((hcond1_0 (⟨0, hn⟩ : Fin cfg1.N)).mpr h0) (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (iblk1 V c 4 (⟨0, hn⟩ : Fin cfg1.N)) (iblk1 V c 5 (⟨0, hn⟩ : Fin cfg1.N)) (iblk1 V c 6 (⟨0, hn⟩ : Fin cfg1.N))) (ix2 (0 : Fin 1) k)).trans ?_
    refine (pay2_apply (k1_pay5 (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (iblk1 V c 4 (⟨0, hn⟩ : Fin cfg1.N)) (iblk1 V c 5 (⟨0, hn⟩ : Fin cfg1.N)) (iblk1 V c 6 (⟨0, hn⟩ : Fin cfg1.N))) (k1_pay4 (F := Ideal)) k).trans ?_
    rw [pay4_apply, zero_add, Finset.sum_range_one]
    exact tile_sumsq V c (⟨0, hn⟩ : Fin cfg1.N) k
  | n + 1, hn, k => by
    have hB : ¬(⟨n + 1, hn⟩ : Fin cfg1.N).val % 16 = 0 := by have := lt_of_lt_of_eq hn hN1; dsimp only; omega
    rw [outsAt1_B V c (⟨n + 1, hn⟩ : Fin cfg1.N) hB]
    dsimp only
    refine (congrFun (pieceB9 (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) (ms1_5 (⟨n + 1, hn⟩ : Fin cfg1.N)) (hs1_5 (⟨n + 1, hn⟩ : Fin cfg1.N)) (ms1_6 (⟨n + 1, hn⟩ : Fin cfg1.N)) (hs1_6 (⟨n + 1, hn⟩ : Fin cfg1.N)) (ms1_7 (⟨n + 1, hn⟩ : Fin cfg1.N)) (hs1_7 (⟨n + 1, hn⟩ : Fin cfg1.N)) (ms1_8 (⟨n + 1, hn⟩ : Fin cfg1.N)) (hs1_8 (⟨n + 1, hn⟩ : Fin cfg1.N)) (ms1_9 (⟨n + 1, hn⟩ : Fin cfg1.N)) (hs1_9 (⟨n + 1, hn⟩ : Fin cfg1.N)) (fun h => hB ((hcond1_0 (⟨n + 1, hn⟩ : Fin cfg1.N)).mp h)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (iblk1 V c 5 (⟨n + 1, hn⟩ : Fin cfg1.N)) (iblk1 V c 6 (⟨n + 1, hn⟩ : Fin cfg1.N)) (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2) (ix2 (0 : Fin 1) k)).trans ?_
    refine (pay2_apply (k1_pay5 (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (iblk1 V c 5 (⟨n + 1, hn⟩ : Fin cfg1.N)) (iblk1 V c 6 (⟨n + 1, hn⟩ : Fin cfg1.N))) (outsAt1 V c ((⟨n + 1, hn⟩ : Fin cfg1.N).val - 1) (Nat.lt_of_le_of_lt (Nat.sub_le _ _) (⟨n + 1, hn⟩ : Fin cfg1.N).isLt)).2.2 k).trans ?_
    rw [Finset.sum_range_succ]
    exact congrArg₂ (· + ·) (sumsq_inv c n (Nat.lt_of_succ_lt hn) k) (tile_sumsq V c (⟨n + 1, hn⟩ : Fin cfg1.N) k)

/-! ## The three arrays after the region -/

theorem idx8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

theorem idx9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- The second layer as contents of the first output array. -/
abbrev G7 (c : Dev nD) : Buf (Elt Ideal) ((c : Thread nD τ).loc main_v12_0) :=
  (fun i => h2V V c (i 0) (i 1) : S131072x64.Idx → EReal)

theorem G7_apply (c : Dev nD) (r : Fin 131072) (k : Fin 64) : G7 V c (ix2 r k) = h2V V c r k := rfl

/-- Block t of the first output array is rows 8192·t … 8192·t + 8191: a tile read through it is those rows. -/
theorem tile7_eq (t : Fin cfg1.N) (X : Vec Ideal S8192x64 .f32) (G : S131072x64.Idx → EReal)
    (h : ∀ (q : Fin 8192) (k : Fin 64), X (ix2 q k) = G (ix2 (rowAt t q) k)) :
    (cfg1.win 7).cut (grid1.coords t) X = ((cfg1.win 7).blk t).view.read (Elt Ideal) G := by
  have hi := idx7 t
  refine funext fun (j : S8192x64.Idx) => ?_
  obtain ⟨q, k, rfl⟩ : ∃ (q : Fin 8192) (k : Fin 64), j = ix2 q k := ⟨j 0, j 1, eq_ix2 j⟩
  have e : ((cfg1.win 7).blk t).view.emb (ix2 q k) = (ix2 (rowAt t q) k : S131072x64.Idx) :=
    funext fun a => Fin.ext (by
      match a with
      | ⟨0, _⟩ => show win1_7.index t (0 : Fin 2) * 8192 + 1 * q.val = t.val * 8192 + q.val; rw [hi.1]; omega
      | ⟨1, _⟩ => show win1_7.index t (1 : Fin 2) * 64 + 1 * k.val = k.val; rw [hi.2]; omega)
  show X (ix2 q k) = G (((cfg1.win 7).blk t).view.emb (ix2 q k))
  rw [e]
  exact h q k

/-- What point t writes back to the first output array is rows 8192·t … 8192·t + 8191 of the second layer. -/
theorem flushed7 (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7, outs7 V c t]
  refine tile7_eq t (k1_pay5 (iblk1 V c 0 t) (iblk1 V c 1 t) (iblk1 V c 2 t) (iblk1 V c 3 t) (iblk1 V c 4 t) (iblk1 V c 5 t) (iblk1 V c 6 t)) (G7 V c) fun q k => ?_
  rw [G7_apply, tile_apply V c t q k]

theorem mem_blk7 (t : Fin cfg1.N) (i : S131072x64.Idx) :
    i ∈ ((cfg1.win 7).blk t).view.set ↔ ∀ a : Fin 2, win1_7.index t a * S8192x64.size a ≤ (i a).val ∧ (i a).val < win1_7.index t a * S8192x64.size a + S8192x64.size a := by
  show i ∈ ((View.whole main_v12_0).slice (win1_7.rect t)).set ↔ _
  rw [View.set_slice_whole, Rect.mem_set_unit]
  exact Iff.rfl

/-- Row r lies in the block of point r / 8192. -/
theorem cover7 (i : S131072x64.Idx) : ∃ t : Fin cfg1.N, (cfg1.win 7).flush t = true ∧ i ∈ ((cfg1.win 7).blk t).view.set := by
  have hi0 : (i 0).val < 131072 := (i 0).isLt
  have hi1 : (i 1).val < 64 := (i 1).isLt
  have hq : (i 0).val / 8192 < cfg1.N := by rw [hN1]; omega
  refine ⟨⟨(i 0).val / 8192, hq⟩, flush1_7 _, ?_⟩
  have hi := idx7 ⟨(i 0).val / 8192, hq⟩
  rw [mem_blk7]
  intro a
  match a with
  | ⟨0, _⟩ => show win1_7.index _ (0 : Fin 2) * 8192 ≤ (i 0).val ∧ (i 0).val < win1_7.index _ (0 : Fin 2) * 8192 + 8192; rw [hi.1]; dsimp only; omega
  | ⟨1, _⟩ => show win1_7.index _ (1 : Fin 2) * 64 ≤ (i 1).val ∧ (i 1).val < win1_7.index _ (1 : Fin 2) * 64 + 64; rw [hi.2]; omega

/-- Every column's sum over all rows, as contents of the second output array. -/
abbrev G8 (c : Dev nD) : Buf (Elt Ideal) ((c : Thread nD τ).loc main_v12_1) :=
  (fun i => ∑ r : Fin 131072, h2V V c r (i 1) : S1x64.Idx → EReal)

theorem G8_apply (c : Dev nD) (k : Fin 64) : G8 V c (ix2 (0 : Fin 1) k) = ∑ r : Fin 131072, h2V V c r k := rfl

/-- The one block of this output is the whole array: a row read through it is the row. -/
theorem row8_eq (t : Fin cfg1.N) (X : Vec Ideal S1x64 .f32) (G : S1x64.Idx → EReal)
    (h : ∀ k : Fin 64, X (ix2 (0 : Fin 1) k) = G (ix2 (0 : Fin 1) k)) :
    (cfg1.win 8).cut (grid1.coords t) X = ((cfg1.win 8).blk t).view.read (Elt Ideal) G := by
  have hi := idx8 t
  refine funext fun (j : S1x64.Idx) => ?_
  obtain ⟨u, k, rfl⟩ : ∃ (u : Fin 1) (k : Fin 64), j = ix2 u k := ⟨j 0, j 1, eq_ix2 j⟩
  obtain rfl : u = 0 := Subsingleton.elim _ _
  have e : ((cfg1.win 8).blk t).view.emb (ix2 (0 : Fin 1) k) = (ix2 (0 : Fin 1) k : S1x64.Idx) :=
    funext fun a => Fin.ext (by
      match a with
      | ⟨0, _⟩ => show win1_8.index t (0 : Fin 2) * 1 + 1 * 0 = 0; rw [hi.1]
      | ⟨1, _⟩ => show win1_8.index t (1 : Fin 2) * 64 + 1 * k.val = k.val; rw [hi.2]; omega)
  show X (ix2 (0 : Fin 1) k) = G (((cfg1.win 8).blk t).view.emb (ix2 (0 : Fin 1) k))
  rw [e]
  exact h k

/-- The one write-back of this output, after the last point, writes the sum over all sixteen tiles. -/
theorem flushed8 (c : Dev nD) (t : Fin cfg1.N) (hf : (cfg1.win 8).flush t = true) :
    (dat1 V c).flushed 8 t = ((cfg1.win 8).blk t).view.read (Elt Ideal) (G8 V c) := by
  have h15 : t.val = 15 := by have := (flush1_8 t).mp hf; have := lt_of_lt_of_eq t.isLt hN1; omega
  show (cfg1.win 8).cut (grid1.coords t) ((dat1 V c).after 8 t) = _
  rw [after1_8]
  refine row8_eq t (outsAt1 V c t.val t.isLt).2.1 (G8 V c) fun k => ?_
  rw [G8_apply, sum_inv V c t.val t.isLt k, h15]
  exact sum_tileOf _

theorem mem_blk8 (t : Fin cfg1.N) (i : S1x64.Idx) :
    i ∈ ((cfg1.win 8).blk t).view.set ↔ ∀ a : Fin 2, win1_8.index t a * S1x64.size a ≤ (i a).val ∧ (i a).val < win1_8.index t a * S1x64.size a + S1x64.size a := by
  show i ∈ ((View.whole main_v12_1).slice (win1_8.rect t)).set ↔ _
  rw [View.set_slice_whole, Rect.mem_set_unit]
  exact Iff.rfl

theorem cover8 (i : S1x64.Idx) : ∃ t : Fin cfg1.N, (cfg1.win 8).flush t = true ∧ i ∈ ((cfg1.win 8).blk t).view.set := by
  have hi0 : (i 0).val < 1 := (i 0).isLt
  have hi1 : (i 1).val < 64 := (i 1).isLt
  have h15 : 15 < cfg1.N := by rw [hN1]; decide
  refine ⟨⟨15, h15⟩, (flush1_8 _).mpr rfl, ?_⟩
  have hi := idx8 ⟨15, h15⟩
  rw [mem_blk8]
  intro a
  match a with
  | ⟨0, _⟩ => show win1_8.index _ (0 : Fin 2) * 1 ≤ (i 0).val ∧ (i 0).val < win1_8.index _ (0 : Fin 2) * 1 + 1; rw [hi.1]; omega
  | ⟨1, _⟩ => show win1_8.index _ (1 : Fin 2) * 64 ≤ (i 1).val ∧ (i 1).val < win1_8.index _ (1 : Fin 2) * 64 + 64; rw [hi.2]; omega

/-- Every column's sum of squares over all rows, as contents of the third output array. -/
abbrev G9 (c : Dev nD) : Buf (Elt Ideal) ((c : Thread nD τ).loc main_v12_2) :=
  (fun i => ∑ r : Fin 131072, h2V V c r (i 1) * h2V V c r (i 1) : S1x64.Idx → EReal)

theorem G9_apply (c : Dev nD) (k : Fin 64) : G9 V c (ix2 (0 : Fin 1) k) = ∑ r : Fin 131072, h2V V c r k * h2V V c r k := rfl

/-- The one block of this output is the whole array: a row read through it is the row. -/
theorem row9_eq (t : Fin cfg1.N) (X : Vec Ideal S1x64 .f32) (G : S1x64.Idx → EReal)
    (h : ∀ k : Fin 64, X (ix2 (0 : Fin 1) k) = G (ix2 (0 : Fin 1) k)) :
    (cfg1.win 9).cut (grid1.coords t) X = ((cfg1.win 9).blk t).view.read (Elt Ideal) G := by
  have hi := idx9 t
  refine funext fun (j : S1x64.Idx) => ?_
  obtain ⟨u, k, rfl⟩ : ∃ (u : Fin 1) (k : Fin 64), j = ix2 u k := ⟨j 0, j 1, eq_ix2 j⟩
  obtain rfl : u = 0 := Subsingleton.elim _ _
  have e : ((cfg1.win 9).blk t).view.emb (ix2 (0 : Fin 1) k) = (ix2 (0 : Fin 1) k : S1x64.Idx) :=
    funext fun a => Fin.ext (by
      match a with
      | ⟨0, _⟩ => show win1_9.index t (0 : Fin 2) * 1 + 1 * 0 = 0; rw [hi.1]
      | ⟨1, _⟩ => show win1_9.index t (1 : Fin 2) * 64 + 1 * k.val = k.val; rw [hi.2]; omega)
  show X (ix2 (0 : Fin 1) k) = G (((cfg1.win 9).blk t).view.emb (ix2 (0 : Fin 1) k))
  rw [e]
  exact h k

/-- The one write-back of this output, after the last point, writes the sum over all sixteen tiles. -/
theorem flushed9 (c : Dev nD) (t : Fin cfg1.N) (hf : (cfg1.win 9).flush t = true) :
    (dat1 V c).flushed 9 t = ((cfg1.win 9).blk t).view.read (Elt Ideal) (G9 V c) := by
  have h15 : t.val = 15 := by have := (flush1_9 t).mp hf; have := lt_of_lt_of_eq t.isLt hN1; omega
  show (cfg1.win 9).cut (grid1.coords t) ((dat1 V c).after 9 t) = _
  rw [after1_9]
  refine row9_eq t (outsAt1 V c t.val t.isLt).2.2 (G9 V c) fun k => ?_
  rw [G9_apply, sumsq_inv V c t.val t.isLt k, h15]
  exact sum_tileOf _

theorem mem_blk9 (t : Fin cfg1.N) (i : S1x64.Idx) :
    i ∈ ((cfg1.win 9).blk t).view.set ↔ ∀ a : Fin 2, win1_9.index t a * S1x64.size a ≤ (i a).val ∧ (i a).val < win1_9.index t a * S1x64.size a + S1x64.size a := by
  show i ∈ ((View.whole main_v12_2).slice (win1_9.rect t)).set ↔ _
  rw [View.set_slice_whole, Rect.mem_set_unit]
  exact Iff.rfl

theorem cover9 (i : S1x64.Idx) : ∃ t : Fin cfg1.N, (cfg1.win 9).flush t = true ∧ i ∈ ((cfg1.win 9).blk t).view.set := by
  have hi0 : (i 0).val < 1 := (i 0).isLt
  have hi1 : (i 1).val < 64 := (i 1).isLt
  have h15 : 15 < cfg1.N := by rw [hN1]; decide
  refine ⟨⟨15, h15⟩, (flush1_9 _).mpr rfl, ?_⟩
  have hi := idx9 ⟨15, h15⟩
  rw [mem_blk9]
  intro a
  match a with
  | ⟨0, _⟩ => show win1_9.index _ (0 : Fin 2) * 1 ≤ (i 0).val ∧ (i 0).val < win1_9.index _ (0 : Fin 2) * 1 + 1; rw [hi.1]; omega
  | ⟨1, _⟩ => show win1_9.index _ (1 : Fin 2) * 64 ≤ (i 1).val ∧ (i 1).val < win1_9.index _ (1 : Fin 2) * 64 + 64; rw [hi.2]; omega

/-- The first output array ends holding the second layer. -/
theorem h2_eq (c : Dev nD) (i : S131072x64.Idx) :
    (dat1 (F := Ideal) V c).arrAt 7 cfg1.N i = h2V V c (i 0) (i 1) :=
  congrFun ((dat1 V c).arrAt_eq_of_cover 7 (G7 V c) (fun t _ => flushed7 V c t) cover7) i

/-- The second output array ends holding every column's sum over all rows. -/
theorem sum_eq (c : Dev nD) (i : S1x64.Idx) :
    (dat1 (F := Ideal) V c).arrAt 8 cfg1.N i = ∑ r : Fin 131072, h2V V c r (i 1) :=
  congrFun ((dat1 V c).arrAt_eq_of_cover 8 (G8 V c) (flushed8 V c) cover8) i

/-- The third output array ends holding every column's sum of squares over all rows. -/
theorem sumsq_eq (c : Dev nD) (i : S1x64.Idx) :
    (dat1 (F := Ideal) V c).arrAt 9 cfg1.N i = ∑ r : Fin 131072, h2V V c r (i 1) * h2V V c r (i 1) :=
  congrFun ((dat1 V c).arrAt_eq_of_cover 9 (G9 V c) (flushed9 V c) cover9) i

end Cert.KernelIdeal.Region1

end
-- ==== Proof.KRegion2.lean ====
/-
  REGION 2 (normalise the second layer with given column statistics, clamp, output layer, logistic function, 8192
  rows per grid point): what its output array holds when the region ends.
-/
import proofs.«127264_j6760278524113_1_alg».proof.Proof.Gen.KernelIdeal.Frame
import proofs.«127264_j6760278524113_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output of row `r`, column `a`, computed from the arrays as the region finds them. -/
def outV (c : Dev nD) (r : Fin 131072) (a : Fin 16) : EReal :=
  Ideal.logistic (Cert.Spec.lin
    (Cert.Spec.bnRelu (fun j => V c main_v14 (ix2 (0 : Fin 1) j)) (fun j => V c main_v18 (ix2 (0 : Fin 1) j))
      (fun j => V c main_v19 (ix2 (0 : Fin 1) j)) (fun j => V c main_v20 (ix2 (0 : Fin 1) j))
      (fun r j => V c main_v12_0 (ix2 r j)))
    (fun i a => V c main_arg12 (ix2 i a)) (fun a => V c main_v21 (ix2 (0 : Fin 1) a)) r a)

/-! ## The output layer's product, read at an index

The contraction is over the one shared axis: the left operand's second, the right operand's first. -/

private theorem lhs_mm_0 (i : S8192x16.Idx) (q : dot_S8192x64_S64x16_S8192x16_1_0_0_1_n_n.contr.Idx) :
    (dot_S8192x64_S64x16_S8192x16_1_0_0_1_n_n.lhsIdx i q 0).val = (i 0).val := by
  unfold DotDims.lhsIdx
  rw [dif_neg (show ¬(0 : Fin S8192x64.rank) ∈ dot_S8192x64_S64x16_S8192x16_1_0_0_1_n_n.lhsBatch by decide), dif_pos (show (0 : Fin S8192x64.rank) ∈ dot_S8192x64_S64x16_S8192x16_1_0_0_1_n_n.lhsNonContracting by decide)]
  rfl
private theorem lhs_mm_1 (i : S8192x16.Idx) (q : dot_S8192x64_S64x16_S8192x16_1_0_0_1_n_n.contr.Idx) :
    (dot_S8192x64_S64x16_S8192x16_1_0_0_1_n_n.lhsIdx i q 1).val = (q ⟨0, by decide⟩).val :=
  dot_S8192x64_S64x16_S8192x16_1_0_0_1_n_n.lhsIdx_val_of_single rfl i q
private theorem rhs_mm_0 (i : S8192x16.Idx) (q : dot_S8192x64_S64x16_S8192x16_1_0_0_1_n_n.contr.Idx) :
    (dot_S8192x64_S64x16_S8192x16_1_0_0_1_n_n.rhsIdx i q 0).val = (q ⟨0, by decide⟩).val :=
  dot_S8192x64_S64x16_S8192x16_1_0_0_1_n_n.rhsIdx_val_of_single rfl i q
private theorem rhs_mm_1 (i : S8192x16.Idx) (q : dot_S8192x64_S64x16_S8192x16_1_0_0_1_n_n.contr.Idx) :
    (dot_S8192x64_S64x16_S8192x16_1_0_0_1_n_n.rhsIdx i q 1).val = (i 1).val := by
  unfold DotDims.rhsIdx
  rw [dif_neg (show ¬(1 : Fin S64x16.rank) ∈ dot_S8192x64_S64x16_S8192x16_1_0_0_1_n_n.rhsBatch by decide), dif_pos (show (1 : Fin S64x16.rank) ∈ dot_S8192x64_S64x16_S8192x16_1_0_0_1_n_n.rhsNonContracting by decide)]
  rfl

/-- An [8192,64] by [64,16] product into the zero accumulator, at `(p, a)`: the sum over the 64 shared coordinates. -/
private theorem mm_apply (A : FVec Ideal S8192x64 .bf16) (B : FVec Ideal S64x16 .bf16) (p : Fin 8192) (a : Fin 16) :
    FloatOps.matmul dot_S8192x64_S64x16_S8192x16_1_0_0_1_n_n none A B (constant (F := Ideal) S8192x16 .f32 0x00000000#32) (ix2 p a)
      = ∑ k : Fin 64, A (ix2 p k) * B (ix2 k a) := by
  rw [Ideal.matmul_constant_zero_apply, ← Equiv.sum_comp (contrEquiv1 dot_S8192x64_S64x16_S8192x16_1_0_0_1_n_n 64 rfl rfl).symm]
  refine Finset.sum_congr rfl fun k _ => ?_
  have hk := contrEquiv1_symm_val dot_S8192x64_S64x16_S8192x16_1_0_0_1_n_n 64 rfl rfl k
  have el : dot_S8192x64_S64x16_S8192x16_1_0_0_1_n_n.lhsIdx (ix2 p a) ((contrEquiv1 dot_S8192x64_S64x16_S8192x16_1_0_0_1_n_n 64 rfl rfl).symm k) = ix2 p k := funext fun ax => Fin.ext (by
    match ax with
    | ⟨0, _⟩ => exact lhs_mm_0 _ _
    | ⟨1, _⟩ => exact (lhs_mm_1 _ _).trans hk)
  have er : dot_S8192x64_S64x16_S8192x16_1_0_0_1_n_n.rhsIdx (ix2 p a) ((contrEquiv1 dot_S8192x64_S64x16_S8192x16_1_0_0_1_n_n 64 rfl rfl).symm k) = ix2 k a := funext fun ax => Fin.ext (by
    match ax with
    | ⟨0, _⟩ => exact (rhs_mm_0 _ _).trans hk
    | ⟨1, _⟩ => exact rhs_mm_1 _ _)
  rw [el, er]

/-! ## The body's arithmetic at an index -/

private theorem rsqrt_apply {s : Shape} {φ : FTy} (v : FVec Ideal s φ) (i : s.Idx) : rsqrt v i = Ideal.rsqrt (v i) := rfl
private theorem logistic_apply {s : Shape} {φ : FTy} (v : FVec Ideal s φ) (i : s.Idx) : logistic v i = Ideal.logistic (v i) := rfl

/-- What the body stores at `(p, a)`, from the loaded blocks: the row normalised with the given statistics, scaled,
    shifted and clamped at zero, multiplied into the output weights, the bias added, the logistic function applied. -/
private theorem pay_apply (x0 : Vec Ideal S8192x64 .f32) (x1 x2 x3 x4 : Vec Ideal S1x64 .f32) (x5 : Vec Ideal S64x16 .f32)
    (x6 : Vec Ideal S1x16 .f32) (p : Fin 8192) (a : Fin 16) :
    k2_pay1 (F := Ideal) x0 x1 x2 x3 x4 x5 x6 (ix2 p a)
      = Ideal.logistic ((∑ j : Fin 64, max ((x0 (ix2 p j) - x1 (ix2 (0 : Fin 1) j)) * Ideal.rsqrt (x2 (ix2 (0 : Fin 1) j) + Cert.Spec.cEps)
            * x3 (ix2 (0 : Fin 1) j) + x4 (ix2 (0 : Fin 1) j)) 0 * x5 (ix2 j a)) + x6 (ix2 (0 : Fin 1) a)) := by
  unfold k2_pay1
  simp only [logistic_apply, addf_apply, matmul, mm_apply, truncf_apply, maximumf_apply, mulf_apply, subf_apply, rsqrt_apply,
    shapeCast_self, broadcastTo_1b_ab_apply, broadcast_apply, Ideal.ofBits_def, Ideal.ofBits_zero_f32, Cert.Spec.cEps]

/-! ## The blocks a point loads, as entries of the arrays -/

private theorem hz : (![0, 0] : Fin 2 → Nat) = fun _ => 0 := funext fun a => by fin_cases a <;> rfl

/-- The printed index maps over the grid: the row-blocked windows (input 0 and the output) sit at block `t` of the
    rows, every other window at its one block. -/
private theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Input 0's block at point `t` holds rows `8192 t … 8192 t + 8191` of its array. -/
private theorem blk0_apply (c : Dev nD) (t : Fin cfg2.N) (q : Fin 8192) (r : Fin 131072) (hr : r.val = t.val * 8192 + q.val) (j : Fin 64) :
    (iblk2 (F := Ideal) V c 0 t : Vec Ideal S8192x64 .f32) (ix2 q j) = (V c main_v12_0 : S131072x64.Idx → EReal) (ix2 r j) := by
  obtain ⟨e0, e1, -⟩ := idx_facts t
  unfold iblk2
  rw [View.read_apply]
  show V c main_v12_0 _ = V c main_v12_0 _
  congr 1
  funext a
  apply Fin.ext
  match a with
  | ⟨0, _⟩ => show win2_0.index t (0 : Fin 2) * 8192 + 1 * q.val = r.val; rw [e0, hr]; omega
  | ⟨1, _⟩ => show win2_0.index t (1 : Fin 2) * 64 + 1 * j.val = j.val; rw [e1]; omega

/-- Each one-block window's block is its whole array (the four [1,64] rows, the [64,16] weights, the [1,16] bias). -/
private theorem blk1_apply (c : Dev nD) (t : Fin cfg2.N) (j : Fin 64) :
    (iblk2 (F := Ideal) V c 1 t : Vec Ideal S1x64 .f32) (ix2 (0 : Fin 1) j) = (V c main_v14 : S1x64.Idx → EReal) (ix2 (0 : Fin 1) j) := by
  obtain ⟨-, -, e0, e1, -⟩ := idx_facts t
  unfold iblk2
  rw [View.read_apply]
  show V c main_v14 _ = V c main_v14 _
  congr 1
  funext a
  apply Fin.ext
  match a with
  | ⟨0, _⟩ => show win2_1.index t (0 : Fin 2) * 1 + 1 * 0 = 0; rw [e0]
  | ⟨1, _⟩ => show win2_1.index t (1 : Fin 2) * 64 + 1 * j.val = j.val; rw [e1]; omega
private theorem blk2_apply (c : Dev nD) (t : Fin cfg2.N) (j : Fin 64) :
    (iblk2 (F := Ideal) V c 2 t : Vec Ideal S1x64 .f32) (ix2 (0 : Fin 1) j) = (V c main_v18 : S1x64.Idx → EReal) (ix2 (0 : Fin 1) j) := by
  obtain ⟨-, -, -, -, e0, e1, -⟩ := idx_facts t
  unfold iblk2
  rw [View.read_apply]
  show V c main_v18 _ = V c main_v18 _
  congr 1
  funext a
  apply Fin.ext
  match a with
  | ⟨0, _⟩ => show win2_2.index t (0 : Fin 2) * 1 + 1 * 0 = 0; rw [e0]
  | ⟨1, _⟩ => show win2_2.index t (1 : Fin 2) * 64 + 1 * j.val = j.val; rw [e1]; omega
private theorem blk3_apply (c : Dev nD) (t : Fin cfg2.N) (j : Fin 64) :
    (iblk2 (F := Ideal) V c 3 t : Vec Ideal S1x64 .f32) (ix2 (0 : Fin 1) j) = (V c main_v19 : S1x64.Idx → EReal) (ix2 (0 : Fin 1) j) := by
  obtain ⟨-, -, -, -, -, -, e0, e1, -⟩ := idx_facts t
  unfold iblk2
  rw [View.read_apply]
  show V c main_v19 _ = V c main_v19 _
  congr 1
  funext a
  apply Fin.ext
  match a with
  | ⟨0, _⟩ => show win2_3.index t (0 : Fin 2) * 1 + 1 * 0 = 0; rw [e0]
  | ⟨1, _⟩ => show win2_3.index t (1 : Fin 2) * 64 + 1 * j.val = j.val; rw [e1]; omega
private theorem blk4_apply (c : Dev nD) (t : Fin cfg2.N) (j : Fin 64) :
    (iblk2 (F := Ideal) V c 4 t : Vec Ideal S1x64 .f32) (ix2 (0 : Fin 1) j) = (V c main_v20 : S1x64.Idx → EReal) (ix2 (0 : Fin 1) j) := by
  obtain ⟨-, -, -, -, -, -, -, -, e0, e1, -⟩ := idx_facts t
  unfold iblk2
  rw [View.read_apply]
  show V c main_v20 _ = V c main_v20 _
  congr 1
  funext a
  apply Fin.ext
  match a with
  | ⟨0, _⟩ => show win2_4.index t (0 : Fin 2) * 1 + 1 * 0 = 0; rw [e0]
  | ⟨1, _⟩ => show win2_4.index t (1 : Fin 2) * 64 + 1 * j.val = j.val; rw [e1]; omega
private theorem blk5_apply (c : Dev nD) (t : Fin cfg2.N) (j : Fin 64) (a : Fin 16) :
    (iblk2 (F := Ideal) V c 5 t : Vec Ideal S64x16 .f32) (ix2 j a) = (V c main_arg12 : S64x16.Idx → EReal) (ix2 j a) := by
  obtain ⟨-, -, -, -, -, -, -, -, -, -, e0, e1, -⟩ := idx_facts t
  unfold iblk2
  rw [View.read_apply]
  show V c main_arg12 _ = V c main_arg12 _
  congr 1
  funext b
  apply Fin.ext
  match b with
  | ⟨0, _⟩ => show win2_5.index t (0 : Fin 2) * 64 + 1 * j.val = j.val; rw [e0]; omega
  | ⟨1, _⟩ => show win2_5.index t (1 : Fin 2) * 16 + 1 * a.val = a.val; rw [e1]; omega
private theorem blk6_apply (c : Dev nD) (t : Fin cfg2.N) (a : Fin 16) :
    (iblk2 (F := Ideal) V c 6 t : Vec Ideal S1x16 .f32) (ix2 (0 : Fin 1) a) = (V c main_v21 : S1x16.Idx → EReal) (ix2 (0 : Fin 1) a) := by
  obtain ⟨-, -, -, -, -, -, -, -, -, -, -, -, e0, e1, -⟩ := idx_facts t
  unfold iblk2
  rw [View.read_apply]
  show V c main_v21 _ = V c main_v21 _
  congr 1
  funext b
  apply Fin.ext
  match b with
  | ⟨0, _⟩ => show win2_6.index t (0 : Fin 2) * 1 + 1 * 0 = 0; rw [e0]
  | ⟨1, _⟩ => show win2_6.index t (1 : Fin 2) * 16 + 1 * a.val = a.val; rw [e1]; omega

/-! ## What a point writes back -/

/-- The body's store at point `t`, at `y` of the block, is the output of the array row `8192 t + y 0`. -/
private theorem pay_blk (c : Dev nD) (t : Fin cfg2.N) (y : S8192x16.Idx) (i : S131072x16.Idx)
    (h0 : (i 0).val = t.val * 8192 + (y 0).val) (h1 : (i 1).val = (y 1).val) :
    k2_pay1 (F := Ideal) (iblk2 V c 0 t) (iblk2 V c 1 t) (iblk2 V c 2 t) (iblk2 V c 3 t) (iblk2 V c 4 t) (iblk2 V c 5 t) (iblk2 V c 6 t) y
      = outV V c (i 0) (i 1) := by
  obtain ⟨q, a, rfl⟩ : ∃ (q : Fin 8192) (a : Fin 16), y = ix2 q a := ⟨y 0, y 1, eq_ix2 y⟩
  obtain ⟨r, b, rfl⟩ : ∃ (r : Fin 131072) (b : Fin 16), i = ix2 r b := ⟨i 0, i 1, eq_ix2 i⟩
  obtain rfl : b = a := Fin.ext h1
  refine (pay_apply (iblk2 V c 0 t) (iblk2 V c 1 t) (iblk2 V c 2 t) (iblk2 V c 3 t) (iblk2 V c 4 t) (iblk2 V c 5 t) (iblk2 V c 6 t) q b).trans ?_
  show _ = outV V c r b
  unfold outV Cert.Spec.lin Cert.Spec.bnRelu
  simp only [blk0_apply V c t q r h0, blk1_apply V c t, blk2_apply V c t, blk3_apply V c t, blk4_apply V c t, blk5_apply V c t, blk6_apply V c t]

/-- WHAT POINT `t` WRITES BACK is block `t` of the whole-array function `outV`. -/
private theorem flushed_eq (c : Dev nD) (t : Fin cfg2.N) :
    (dat2 (F := Ideal) V c).flushed 7 t
      = ((cfg2.win 7).blk t).view.read (Elt Ideal) (fun i : S131072x16.Idx => outV V c (i 0) (i 1)) := by
  show (cfg2.win 7).cut (grid2.coords t) ((dat2 V c).after 7 t) = _
  rw [after2_7]
  unfold out2_7
  rw [View.canon_unit_zero hz]
  simp only [View.ld_unit_zero (S := S8192x64) hz, View.ld_unit_zero (S := S1x64) hz, View.ld_unit_zero (S := S64x16) hz,
    View.ld_unit_zero (S := S1x16) hz]
  obtain ⟨-, -, -, -, -, -, -, -, -, -, -, -, -, -, e0, e1⟩ := idx_facts t
  funext y
  exact pay_blk V c t y (((cfg2.win 7).blk t).view.emb y)
    (by show win2_7.index t (0 : Fin 2) * 8192 + 1 * (y 0).val = t.val * 8192 + (y 0).val; rw [e0]; omega)
    (by show win2_7.index t (1 : Fin 2) * 16 + 1 * (y 1).val = (y 1).val; rw [e1]; omega)

/-! ## The blocks cover the array -/

/-- An index of the array is in point `t`'s block iff each coordinate is in the block's range on its axis. -/
private theorem mem_blk7 (t : Fin cfg2.N) (i : S131072x16.Idx) :
    i ∈ ((cfg2.win 7).blk t).view.set ↔ ∀ a : Fin 2, win2_7.index t a * S8192x16.size a ≤ (i a).val ∧ (i a).val < win2_7.index t a * S8192x16.size a + S8192x16.size a := by
  show i ∈ ((View.whole main_v22).slice (win2_7.rect t)).set ↔ _
  rw [View.set_slice_whole, Rect.mem_set_unit]
  exact Iff.rfl

/-- Row `r` is in the block of point `r / 8192`, which is written back. -/
private theorem covered (i : S131072x16.Idx) :
    ∃ t : Fin cfg2.N, (cfg2.win 7).flush t = true ∧ i ∈ ((cfg2.win 7).blk t).view.set := by
  have hN : cfg2.N = 16 := N_2
  have hi0 : (i 0).val < 131072 := (i 0).isLt
  have hi1 : (i 1).val < 16 := (i 1).isLt
  obtain ⟨t, ht⟩ : ∃ t : Fin cfg2.N, t.val = (i 0).val / 8192 := ⟨⟨(i 0).val / 8192, by rw [hN]; omega⟩, rfl⟩
  obtain ⟨-, -, -, -, -, -, -, -, -, -, -, -, -, -, e0, e1⟩ := idx_facts t
  refine ⟨t, flush2_7 t, ?_⟩
  rw [mem_blk7]
  intro a
  match a with
  | ⟨0, _⟩ => show win2_7.index t (0 : Fin 2) * 8192 ≤ (i 0).val ∧ (i 0).val < win2_7.index t (0 : Fin 2) * 8192 + 8192; rw [e0, ht]; omega
  | ⟨1, _⟩ => show win2_7.index t (1 : Fin 2) * 16 ≤ (i 1).val ∧ (i 1).val < win2_7.index t (1 : Fin 2) * 16 + 16; rw [e1]; omega

/-- The output array ends holding the logistic output of every row. -/
theorem out_eq (c : Dev nD) (i : S131072x16.Idx) :
    (dat2 (F := Ideal) V c).arrAt 7 cfg2.N i = outV V c (i 0) (i 1) := by
  exact congrFun ((dat2 (F := Ideal) V c).arrAt_eq_of_cover 7 (fun i : S131072x16.Idx => outV V c (i 0) (i 1))
    (fun t _ => flushed_eq V c t) (covered)) i

end Cert.KernelIdeal.Region2

end
-- ==== Proof.KValue.lean ====
/-
  THE KERNEL PROGRAM'S RESULT, as a function of its fourteen argument arrays, at the extended reals.

  The program is three regions with host operations between them. Walking the contents of its buffers from the
  launch to the return:

  * before region 0 the bias row of the first layer is reshaped from [64] to [1, 64]; region 0 leaves the first layer
    H1 (batch by batch), and every column's sum and sum of squares over all 256 · 512 = 131072 rows;
  * the host divides both sums by the row count, forms  mean  and  (Σ h²)/N − mean²,  reads the first layer by rows
    (row r is batch r / 512, position r % 512) and reshapes three parameter rows; region 1 normalises, clamps and
    applies the second linear layer, leaving the second layer H2 and its column sums and sums of squares;
  * the host forms the second layer's mean and variance the same way and reshapes three more rows; region 2 normalises,
    clamps, applies the output layer and the logistic function;
  * the result [131072, 16] is reshaped to [256, 512, 16]: entry (b, n, a) is row b · 512 + n.

  Each buffer is read at the boundary where it was last written, one small equation per buffer and boundary; the sums
  over batches and positions are sums over rows. Put together, the result array is the specification's network with
  both variances spelt as mean of squares minus squared mean.
-/
import proofs.«127264_j6760278524113_1_alg».proof.Proof.Gen.KernelIdeal.Frame
import proofs.«127264_j6760278524113_1_alg».proof.Proof.KRegion0
import proofs.«127264_j6760278524113_1_alg».proof.Proof.KRegion1
import proofs.«127264_j6760278524113_1_alg».proof.Proof.KRegion2
import proofs.«127264_j6760278524113_1_alg».proof.Proof.Spec
import proofs.«127264_j6760278524113_1_alg».proof.Proof.Algebra
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Value

open Cert.KernelIdeal Cert.KernelIdeal.Gen Idealize.ShloMosaic Idealize.ShloMosaic.TcCoe Idealize.ShloMosaic.ValueIdx Idealize.SL.Sem
open Cert.Spec (rowOf rowB rowN)

/-! ## Reshapes read at an index -/

theorem cast_rows_out {α : Type} (x : S131072x16.Idx → α) (h : S131072x16.ShapeCasts S256x512x16)
    (b : Fin 256) (n : Fin 512) (a : Fin 16) :
    shapeCast S256x512x16 x h (ix3 b n a) = x (ix2 (rowOf b n) a) :=
  shapeCast_apply x h _ _ (by
    rw [Shape.rowMajor_val_two, Shape.rowMajor_val_three]
    rfl)

theorem cast_rows_in {α : Type} (x : S256x512x64.Idx → α) (h : S256x512x64.ShapeCasts S131072x64)
    (r : Fin 131072) (j : Fin 64) :
    shapeCast S131072x64 x h (ix2 r j) = x (ix3 (rowB r) (rowN r) j) :=
  shapeCast_apply x h _ _ (by
    rw [Shape.rowMajor_val_two, Shape.rowMajor_val_three]
    show (r.val / 512 * 512 + r.val % 512) * 64 + j.val = r.val * 64 + j.val
    rw [Nat.div_add_mod'])

variable (m : (ℓ : Loc nD τ sig) → Buf (Elt Ideal) ℓ) (ρ : Dev nD → PrngReg) (c : Dev nD)

/-- The fourteen argument arrays as the inputs of the specification. -/
abbrev I : Cert.Spec.Inputs :=
  Cert.Spec.inputsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))

/-! ## Region 0's entry -/

theorem V1_arg0 : V1 m ρ c main_arg0 = m ((c.tc : Thread nD τ).loc main_arg0) := by
  show StableHlo.after hostOps0 (W0 m ρ c) (Proc.devRef .tc main_arg0) = _
  after_results
theorem V1_arg1 : V1 m ρ c main_arg1 = m ((c.tc : Thread nD τ).loc main_arg1) := by
  show StableHlo.after hostOps0 (W0 m ρ c) (Proc.devRef .tc main_arg1) = _
  after_results
theorem V1_arg2 : V1 m ρ c main_arg2 = m ((c.tc : Thread nD τ).loc main_arg2) := by
  show StableHlo.after hostOps0 (W0 m ρ c) (Proc.devRef .tc main_arg2) = _
  after_results
theorem V1_arg3 : V1 m ρ c main_arg3 = m ((c.tc : Thread nD τ).loc main_arg3) := by
  show StableHlo.after hostOps0 (W0 m ρ c) (Proc.devRef .tc main_arg3) = _
  after_results
theorem V1_arg4 : V1 m ρ c main_arg4 = m ((c.tc : Thread nD τ).loc main_arg4) := by
  show StableHlo.after hostOps0 (W0 m ρ c) (Proc.devRef .tc main_arg4) = _
  after_results

theorem V1_v0 (j : Fin 64) :
    (V1 m ρ c main_v0 : S1x64.Idx → EReal) (ix2 (0 : Fin 1) j) = (m ((c.tc : Thread nD τ).loc main_arg5) : S64.Idx → EReal) (ix1 j) := by
  have e : (V1 m ρ c main_v0 : S1x64.Idx → EReal)
      = fun i => shapeCast S1x64 (m ((c.tc : Thread nD τ).loc main_arg5) : S64.Idx → EReal) shapeCasts_S64_S1x64 i := by
    show StableHlo.after hostOps0 (W0 m ρ c) (Proc.devRef .tc main_v0) = _
    after_results
    rfl
  rw [e]
  exact shapeCast_a_1a_apply _ _ 0 j

/-- Region 0 computes the first layer of the inputs. -/
theorem h1V_eq (b : Fin 256) (n : Fin 512) (j : Fin 64) :
    Region0.h1V (V1 m ρ) c b n j = Cert.Spec.H1 (I m c) (rowOf b n) j := by
  unfold Region0.h1V Cert.Spec.H1
  rw [Cert.Spec.rowB_rowOf, Cert.Spec.rowN_rowOf, V1_arg0, V1_arg1, V1_arg2, V1_arg3, V1_arg4]
  exact congrArg (fun f => Cert.Spec.h1 _ _ _ _ _ f b n j) (funext fun j => V1_v0 m ρ c j)

/-! ## Region 0's exit -/

theorem W2_v1_0 (i : S256x512x64.Idx) :
    (W2 m ρ c (Proc.devRef .tc main_v1_0) : S256x512x64.Idx → EReal) i = Cert.Spec.H1 (I m c) (rowOf (i 0) (i 1)) (i 2) :=
  (congrFun (W2_arr m ρ c 6) i).trans ((Region0.h1_eq (V1 m ρ) c i).trans (h1V_eq m ρ c _ _ _))

theorem W2_v1_1 (j : Fin 64) :
    (W2 m ρ c (Proc.devRef .tc main_v1_1) : S1x64.Idx → EReal) (ix2 (0 : Fin 1) j) = Cert.Spec.colSum (Cert.Spec.H1 (I m c)) j := by
  show @Eq EReal _ _
  have e1 : (W2 m ρ c (Proc.devRef .tc main_v1_1) : S1x64.Idx → EReal) (ix2 (0 : Fin 1) j)
      = (∑ b : Fin 256, ∑ n : Fin 512, Region0.h1V (V1 m ρ) c b n j : EReal) :=
    (congrFun (W2_arr m ρ c 7) _).trans (Region0.sum_eq (V1 m ρ) c (ix2 (0 : Fin 1) j))
  rw [e1]
  unfold Cert.Spec.colSum
  rw [Cert.Spec.sum_rows]
  exact Finset.sum_congr rfl fun b _ => Finset.sum_congr rfl fun n _ => h1V_eq m ρ c b n j

theorem W2_v1_2 (j : Fin 64) :
    (W2 m ρ c (Proc.devRef .tc main_v1_2) : S1x64.Idx → EReal) (ix2 (0 : Fin 1) j) = Cert.Spec.colSumSq (Cert.Spec.H1 (I m c)) j := by
  show @Eq EReal _ _
  have e1 : (W2 m ρ c (Proc.devRef .tc main_v1_2) : S1x64.Idx → EReal) (ix2 (0 : Fin 1) j)
      = (∑ b : Fin 256, ∑ n : Fin 512, Region0.h1V (V1 m ρ) c b n j * Region0.h1V (V1 m ρ) c b n j : EReal) :=
    (congrFun (W2_arr m ρ c 8) _).trans (Region0.sumsq_eq (V1 m ρ) c (ix2 (0 : Fin 1) j))
  rw [e1]
  unfold Cert.Spec.colSumSq
  rw [Cert.Spec.sum_rows]
  exact Finset.sum_congr rfl fun b _ => Finset.sum_congr rfl fun n _ => by rw [h1V_eq m ρ c b n j]

/-! ## Two congruences -/

theorem bnRelu_congr {mu mu' var var' gam gam' bet bet' : Fin 64 → EReal} {h h' : Fin 131072 → Fin 64 → EReal}
    (e1 : ∀ j, mu j = mu' j) (e2 : ∀ j, var j = var' j) (e3 : ∀ j, gam j = gam' j) (e4 : ∀ j, bet j = bet' j)
    (e5 : ∀ r j, h r j = h' r j) : Cert.Spec.bnRelu mu var gam bet h = Cert.Spec.bnRelu mu' var' gam' bet' h' := by
  obtain rfl : mu = mu' := funext e1
  obtain rfl : var = var' := funext e2
  obtain rfl : gam = gam' := funext e3
  obtain rfl : bet = bet' := funext e4
  obtain rfl : h = h' := funext fun r => funext (e5 r)
  rfl

theorem lin_congr {K M : ℕ} {a a' : Fin 131072 → Fin K → EReal} {w w' : Fin K → Fin M → EReal} {bias bias' : Fin M → EReal}
    (ea : a = a') (ew : ∀ i k, w i k = w' i k) (eb : ∀ k, bias k = bias' k) :
    Cert.Spec.lin a w bias = Cert.Spec.lin a' w' bias' := by
  obtain rfl : w = w' := funext fun i => funext (ew i)
  obtain rfl : bias = bias' := funext eb
  rw [ea]

/-! ## The arguments a later host stretch reshapes are still as launched -/

theorem W2_arg6 : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results
theorem W2_arg7 : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results
theorem W2_arg8 : W2 m ρ c (Proc.devRef .tc main_arg8) = m ((c.tc : Thread nD τ).loc main_arg8) := by
  refine (W2_of_ne m ρ c main_arg8 (by decide)).trans ?_
  show StableHlo.after hostOps0 (W0 m ρ c) (Proc.devRef .tc main_arg8) = _
  after_results
theorem W2_arg9 : W2 m ρ c (Proc.devRef .tc main_arg9) = m ((c.tc : Thread nD τ).loc main_arg9) := by
  refine (W2_of_ne m ρ c main_arg9 (by decide)).trans ?_
  show StableHlo.after hostOps0 (W0 m ρ c) (Proc.devRef .tc main_arg9) = _
  after_results
theorem W2_arg10 : W2 m ρ c (Proc.devRef .tc main_arg10) = m ((c.tc : Thread nD τ).loc main_arg10) := by
  refine (W2_of_ne m ρ c main_arg10 (by decide)).trans ?_
  show StableHlo.after hostOps0 (W0 m ρ c) (Proc.devRef .tc main_arg10) = _
  after_results
theorem W2_arg11 : W2 m ρ c (Proc.devRef .tc main_arg11) = m ((c.tc : Thread nD τ).loc main_arg11) := by
  refine (W2_of_ne m ρ c main_arg11 (by decide)).trans ?_
  show StableHlo.after hostOps0 (W0 m ρ c) (Proc.devRef .tc main_arg11) = _
  after_results
theorem W2_arg12 : W2 m ρ c (Proc.devRef .tc main_arg12) = m ((c.tc : Thread nD τ).loc main_arg12) := by
  refine (W2_of_ne m ρ c main_arg12 (by decide)).trans ?_
  show StableHlo.after hostOps0 (W0 m ρ c) (Proc.devRef .tc main_arg12) = _
  after_results
theorem W2_arg13 : W2 m ρ c (Proc.devRef .tc main_arg13) = m ((c.tc : Thread nD τ).loc main_arg13) := by
  refine (W2_of_ne m ρ c main_arg13 (by decide)).trans ?_
  show StableHlo.after hostOps0 (W0 m ρ c) (Proc.devRef .tc main_arg13) = _
  after_results

/-! ## Region 1's entry: the statistics of the first layer, the first layer by rows, the reshaped parameter rows -/

theorem V3_v3 (j : Fin 64) : @Eq EReal (V3 m ρ c main_v3 (ix2 (0 : Fin 1) j)) (Cert.Spec.mean (Cert.Spec.H1 (I m c)) j) := by
  have e : (V3 m ρ c main_v3 : S1x64.Idx → EReal)
      = Host.divf (W2 m ρ c (Proc.devRef .tc main_v1_1) : FVec Ideal S1x64 .f32) (broadcastInDim S1x64 ![] bcast_S_S1x64 (constant (F := Ideal) S_ .f32 0x48000000#32)) := by
    show StableHlo.after hostOps1 (W2 m ρ c) (Proc.devRef .tc main_v3) = _
    after_results
  rw [e, hostDivf_apply, broadcastInDim_scalar_apply, constant_apply, W2_v1_1]
  rfl

theorem V3_v7 (j : Fin 64) : @Eq EReal (V3 m ρ c main_v7 (ix2 (0 : Fin 1) j)) (Cert.Spec.varK (Cert.Spec.H1 (I m c)) j) := by
  have e : (V3 m ρ c main_v7 : S1x64.Idx → EReal)
      = subf (Host.divf (W2 m ρ c (Proc.devRef .tc main_v1_2) : FVec Ideal S1x64 .f32) (broadcastInDim S1x64 ![] bcast_S_S1x64 (constant (F := Ideal) S_ .f32 0x48000000#32)))
          (mulf (Host.divf (W2 m ρ c (Proc.devRef .tc main_v1_1) : FVec Ideal S1x64 .f32) (broadcastInDim S1x64 ![] bcast_S_S1x64 (constant (F := Ideal) S_ .f32 0x48000000#32)))
            (Host.divf (W2 m ρ c (Proc.devRef .tc main_v1_1) : FVec Ideal S1x64 .f32) (broadcastInDim S1x64 ![] bcast_S_S1x64 (constant (F := Ideal) S_ .f32 0x48000000#32)))) := by
    show StableHlo.after hostOps1 (W2 m ρ c) (Proc.devRef .tc main_v7) = _
    after_results
  rw [e, subf_apply, mulf_apply, hostDivf_apply, hostDivf_apply, broadcastInDim_scalar_apply, constant_apply, W2_v1_1, W2_v1_2]
  rfl

theorem V3_v8 (r : Fin 131072) (j : Fin 64) : @Eq EReal (V3 m ρ c main_v8 (ix2 r j)) (Cert.Spec.H1 (I m c) r j) := by
  have e : (V3 m ρ c main_v8 : S131072x64.Idx → EReal)
      = fun i => shapeCast S131072x64 (W2 m ρ c (Proc.devRef .tc main_v1_0) : S256x512x64.Idx → EReal) shapeCasts_S256x512x64_S131072x64 i := by
    show StableHlo.after hostOps1 (W2 m ρ c) (Proc.devRef .tc main_v8) = _
    after_results
    rfl
  rw [e]
  refine (cast_rows_in _ _ r j).trans ?_
  rw [W2_v1_0]
  show Cert.Spec.H1 (I m c) (rowOf (rowB r) (rowN r)) j = _
  rw [Cert.Spec.rowOf_rowB_rowN]

theorem V3_v9 (j : Fin 64) : @Eq EReal (V3 m ρ c main_v9 (ix2 (0 : Fin 1) j)) ((I m c).g1 j) := by
  have e : (V3 m ρ c main_v9 : S1x64.Idx → EReal)
      = fun i => shapeCast S1x64 (W2 m ρ c (Proc.devRef .tc main_arg6) : S64.Idx → EReal) shapeCasts_S64_S1x64 i := by
    show StableHlo.after hostOps1 (W2 m ρ c) (Proc.devRef .tc main_v9) = _
    after_results
    rfl
  rw [e, W2_arg6]
  exact shapeCast_a_1a_apply _ _ 0 j
theorem V3_v10 (j : Fin 64) : @Eq EReal (V3 m ρ c main_v10 (ix2 (0 : Fin 1) j)) ((I m c).be1 j) := by
  have e : (V3 m ρ c main_v10 : S1x64.Idx → EReal)
      = fun i => shapeCast S1x64 (W2 m ρ c (Proc.devRef .tc main_arg7) : S64.Idx → EReal) shapeCasts_S64_S1x64 i := by
    show StableHlo.after hostOps1 (W2 m ρ c) (Proc.devRef .tc main_v10) = _
    after_results
    rfl
  rw [e, W2_arg7]
  exact shapeCast_a_1a_apply _ _ 0 j
theorem V3_v11 (j : Fin 64) : @Eq EReal (V3 m ρ c main_v11 (ix2 (0 : Fin 1) j)) ((I m c).b2 j) := by
  have e : (V3 m ρ c main_v11 : S1x64.Idx → EReal)
      = fun i => shapeCast S1x64 (W2 m ρ c (Proc.devRef .tc main_arg9) : S64.Idx → EReal) shapeCasts_S64_S1x64 i := by
    show StableHlo.after hostOps1 (W2 m ρ c) (Proc.devRef .tc main_v11) = _
    after_results
    rfl
  rw [e, W2_arg9]
  exact shapeCast_a_1a_apply _ _ 0 j

theorem V3_arg8 : V3 m ρ c main_arg8 = m ((c.tc : Thread nD τ).loc main_arg8) := by
  refine Eq.trans ?_ (W2_arg8 m ρ c)
  show StableHlo.after hostOps1 (W2 m ρ c) (Proc.devRef .tc main_arg8) = _
  after_results

/-- Region 1 computes the second layer of the inputs, with the variance as mean of squares minus squared mean. -/
theorem h2V_eq (r : Fin 131072) (k : Fin 64) : Region1.h2V (V3 m ρ) c r k = Cert.Spec.H2K (I m c) r k := by
  unfold Region1.h2V Cert.Spec.H2K
  exact congrFun (congrFun (lin_congr
    (bnRelu_congr (V3_v3 m ρ c) (V3_v7 m ρ c) (V3_v9 m ρ c) (V3_v10 m ρ c) (V3_v8 m ρ c))
    (fun i k => congrFun (V3_arg8 m ρ c) (ix2 i k)) (V3_v11 m ρ c)) r) k

/-! ## Region 1's exit -/

theorem W4_v12_0 (r : Fin 131072) (j : Fin 64) :
    @Eq EReal (W4 m ρ c (Proc.devRef .tc main_v12_0) (ix2 r j)) (Cert.Spec.H2K (I m c) r j) :=
  (congrFun (W4_arr m ρ c 7) (ix2 r j)).trans ((Region1.h2_eq (V3 m ρ) c (ix2 r j)).trans (h2V_eq m ρ c r j))

theorem W4_v12_1 (j : Fin 64) :
    @Eq EReal (W4 m ρ c (Proc.devRef .tc main_v12_1) (ix2 (0 : Fin 1) j)) (Cert.Spec.colSum (Cert.Spec.H2K (I m c)) j) := by
  have e1 : @Eq EReal (W4 m ρ c (Proc.devRef .tc main_v12_1) (ix2 (0 : Fin 1) j)) (∑ r : Fin 131072, Region1.h2V (V3 m ρ) c r j) :=
    (congrFun (W4_arr m ρ c 8) _).trans (Region1.sum_eq (V3 m ρ) c (ix2 (0 : Fin 1) j))
  rw [e1]
  unfold Cert.Spec.colSum
  exact Finset.sum_congr rfl fun r _ => h2V_eq m ρ c r j

theorem W4_v12_2 (j : Fin 64) :
    @Eq EReal (W4 m ρ c (Proc.devRef .tc main_v12_2) (ix2 (0 : Fin 1) j)) (Cert.Spec.colSumSq (Cert.Spec.H2K (I m c)) j) := by
  have e1 : @Eq EReal (W4 m ρ c (Proc.devRef .tc main_v12_2) (ix2 (0 : Fin 1) j))
      (∑ r : Fin 131072, Region1.h2V (V3 m ρ) c r j * Region1.h2V (V3 m ρ) c r j) :=
    (congrFun (W4_arr m ρ c 9) _).trans (Region1.sumsq_eq (V3 m ρ) c (ix2 (0 : Fin 1) j))
  rw [e1]
  unfold Cert.Spec.colSumSq
  exact Finset.sum_congr rfl fun r _ => by rw [h2V_eq m ρ c r j]

theorem W4_arg10 : W4 m ρ c (Proc.devRef .tc main_arg10) = m ((c.tc : Thread nD τ).loc main_arg10) := by
  refine (W4_of_ne m ρ c main_arg10 (by decide)).trans (Eq.trans ?_ (W2_arg10 m ρ c))
  show StableHlo.after hostOps1 (W2 m ρ c) (Proc.devRef .tc main_arg10) = _
  after_results
theorem W4_arg11 : W4 m ρ c (Proc.devRef .tc main_arg11) = m ((c.tc : Thread nD τ).loc main_arg11) := by
  refine (W4_of_ne m ρ c main_arg11 (by decide)).trans (Eq.trans ?_ (W2_arg11 m ρ c))
  show StableHlo.after hostOps1 (W2 m ρ c) (Proc.devRef .tc main_arg11) = _
  after_results
theorem W4_arg12 : W4 m ρ c (Proc.devRef .tc main_arg12) = m ((c.tc : Thread nD τ).loc main_arg12) := by
  refine (W4_of_ne m ρ c main_arg12 (by decide)).trans (Eq.trans ?_ (W2_arg12 m ρ c))
  show StableHlo.after hostOps1 (W2 m ρ c) (Proc.devRef .tc main_arg12) = _
  after_results
theorem W4_arg13 : W4 m ρ c (Proc.devRef .tc main_arg13) = m ((c.tc : Thread nD τ).loc main_arg13) := by
  refine (W4_of_ne m ρ c main_arg13 (by decide)).trans (Eq.trans ?_ (W2_arg13 m ρ c))
  show StableHlo.after hostOps1 (W2 m ρ c) (Proc.devRef .tc main_arg13) = _
  after_results

/-! ## Region 2's entry -/

theorem V5_v14 (j : Fin 64) : @Eq EReal (V5 m ρ c main_v14 (ix2 (0 : Fin 1) j)) (Cert.Spec.mean (Cert.Spec.H2K (I m c)) j) := by
  have e : (V5 m ρ c main_v14 : S1x64.Idx → EReal)
      = Host.divf (W4 m ρ c (Proc.devRef .tc main_v12_1) : FVec Ideal S1x64 .f32) (broadcastInDim S1x64 ![] bcast_S_S1x64 (constant (F := Ideal) S_ .f32 0x48000000#32)) := by
    show StableHlo.after hostOps2 (W4 m ρ c) (Proc.devRef .tc main_v14) = _
    after_results
  rw [e, hostDivf_apply, broadcastInDim_scalar_apply, constant_apply, W4_v12_1]
  rfl

theorem V5_v18 (j : Fin 64) : @Eq EReal (V5 m ρ c main_v18 (ix2 (0 : Fin 1) j)) (Cert.Spec.varK (Cert.Spec.H2K (I m c)) j) := by
  have e : (V5 m ρ c main_v18 : S1x64.Idx → EReal)
      = subf (Host.divf (W4 m ρ c (Proc.devRef .tc main_v12_2) : FVec Ideal S1x64 .f32) (broadcastInDim S1x64 ![] bcast_S_S1x64 (constant (F := Ideal) S_ .f32 0x48000000#32)))
          (mulf (Host.divf (W4 m ρ c (Proc.devRef .tc main_v12_1) : FVec Ideal S1x64 .f32) (broadcastInDim S1x64 ![] bcast_S_S1x64 (constant (F := Ideal) S_ .f32 0x48000000#32)))
            (Host.divf (W4 m ρ c (Proc.devRef .tc main_v12_1) : FVec Ideal S1x64 .f32) (broadcastInDim S1x64 ![] bcast_S_S1x64 (constant (F := Ideal) S_ .f32 0x48000000#32)))) := by
    show StableHlo.after hostOps2 (W4 m ρ c) (Proc.devRef .tc main_v18) = _
    after_results
  rw [e, subf_apply, mulf_apply, hostDivf_apply, hostDivf_apply, broadcastInDim_scalar_apply, constant_apply, W4_v12_1, W4_v12_2]
  rfl

theorem V5_v12_0 (r : Fin 131072) (j : Fin 64) : @Eq EReal (V5 m ρ c main_v12_0 (ix2 r j)) (Cert.Spec.H2K (I m c) r j) := by
  have e : V5 m ρ c main_v12_0 = W4 m ρ c (Proc.devRef .tc main_v12_0) := by
    show StableHlo.after hostOps2 (W4 m ρ c) (Proc.devRef .tc main_v12_0) = _
    after_results
  rw [e]
  exact W4_v12_0 m ρ c r j

theorem V5_v19 (j : Fin 64) : @Eq EReal (V5 m ρ c main_v19 (ix2 (0 : Fin 1) j)) ((I m c).g2 j) := by
  have e : (V5 m ρ c main_v19 : S1x64.Idx → EReal)
      = fun i => shapeCast S1x64 (W4 m ρ c (Proc.devRef .tc main_arg10) : S64.Idx → EReal) shapeCasts_S64_S1x64 i := by
    show StableHlo.after hostOps2 (W4 m ρ c) (Proc.devRef .tc main_v19) = _
    after_results
    rfl
  rw [e, W4_arg10]
  exact shapeCast_a_1a_apply _ _ 0 j
theorem V5_v20 (j : Fin 64) : @Eq EReal (V5 m ρ c main_v20 (ix2 (0 : Fin 1) j)) ((I m c).be2 j) := by
  have e : (V5 m ρ c main_v20 : S1x64.Idx → EReal)
      = fun i => shapeCast S1x64 (W4 m ρ c (Proc.devRef .tc main_arg11) : S64.Idx → EReal) shapeCasts_S64_S1x64 i := by
    show StableHlo.after hostOps2 (W4 m ρ c) (Proc.devRef .tc main_v20) = _
    after_results
    rfl
  rw [e, W4_arg11]
  exact shapeCast_a_1a_apply _ _ 0 j
theorem V5_v21 (j : Fin 16) : @Eq EReal (V5 m ρ c main_v21 (ix2 (0 : Fin 1) j)) ((I m c).bo j) := by
  have e : (V5 m ρ c main_v21 : S1x16.Idx → EReal)
      = fun i => shapeCast S1x16 (W4 m ρ c (Proc.devRef .tc main_arg13) : S16.Idx → EReal) shapeCasts_S16_S1x16 i := by
    show StableHlo.after hostOps2 (W4 m ρ c) (Proc.devRef .tc main_v21) = _
    after_results
    rfl
  rw [e, W4_arg13]
  exact shapeCast_a_1a_apply _ _ 0 j

theorem V5_arg12 : V5 m ρ c main_arg12 = m ((c.tc : Thread nD τ).loc main_arg12) := by
  refine Eq.trans ?_ (W4_arg12 m ρ c)
  show StableHlo.after hostOps2 (W4 m ρ c) (Proc.devRef .tc main_arg12) = _
  after_results

/-- Region 2 computes the output of the inputs, with both variances as mean of squares minus squared mean. -/
theorem outV_eq (b : Fin 256) (n : Fin 512) (a : Fin 16) :
    Region2.outV (V5 m ρ) c (rowOf b n) a = Cert.Spec.outK (I m c) b n a := by
  unfold Region2.outV Cert.Spec.outK
  exact congrArg Ideal.logistic (congrFun (congrFun (lin_congr
    (bnRelu_congr (V5_v14 m ρ c) (V5_v18 m ρ c) (V5_v19 m ρ c) (V5_v20 m ρ c) (V5_v12_0 m ρ c))
    (fun i k => congrFun (V5_arg12 m ρ c) (ix2 i k)) (V5_v21 m ρ c)) (rowOf b n)) a)

/-! ## Region 2's exit and the last reshape -/

theorem W6_v22 (b : Fin 256) (n : Fin 512) (a : Fin 16) :
    @Eq EReal (W6 m ρ c (Proc.devRef .tc main_v22) (ix2 (rowOf b n) a)) (Cert.Spec.outK (I m c) b n a) :=
  (congrFun (W6_arr m ρ c 7) (ix2 (rowOf b n) a)).trans
    ((Region2.out_eq (V5 m ρ) c (ix2 (rowOf b n) a)).trans (outV_eq m ρ c b n a))

/-- The result array of the kernel program holds the network's output, the variances spelt as mean of squares minus
    squared mean, of the fourteen argument arrays. -/
theorem result_eq (m : (ℓ : Loc nD τ sig) → Buf (Elt Ideal) ℓ) (ρ : Dev nD → PrngReg) (c : Dev nD) :
    Cert.KernelIdeal.Gen.W7 m ρ c (Proc.devRef .tc main_v23)
      = fun i => Cert.Spec.outK (Cert.Spec.inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1) (i 2) := by
  have e : (W7 m ρ c (Proc.devRef .tc main_v23) : S256x512x16.Idx → EReal)
      = fun i => shapeCast S256x512x16 (W6 m ρ c (Proc.devRef .tc main_v22) : S131072x16.Idx → EReal)
          shapeCasts_S131072x16_S256x512x16 i := by
    show StableHlo.after hostOps3 (W6 m ρ c) (Proc.devRef .tc main_v23) = _
    after_results
    rfl
  rw [e]
  funext i
  obtain ⟨b, n, a, rfl⟩ : ∃ b n a, i = ix3 b n a := ⟨i 0, i 1, i 2, eq_ix3 i⟩
  exact (cast_rows_out _ _ b n a).trans (W6_v22 m ρ c b n a)

end Cert.KernelIdeal.Value
end
-- ==== Proof.RTerm.lean ====
/-
  The reference program's result as ONE pure function of its fourteen argument arrays: its host operations composed in
  program order, stage by stage — the attention and first layer (`tH1`), a column mean (`tMean`), the outlined variance
  with its guarded quotient (`tVar`), a normalisation followed by the clamp at zero (`tBnRelu`), a linear layer
  (`tLin64`), and the logistic output reshaped to batches (`tOut`).
-/
import proofs.«127264_j6760278524113_1_alg».proof.ReferenceIdeal
import proofs.«127264_j6760278524113_1_alg».proof.Proof.Gen.ReferenceIdeal

noncomputable section

namespace Cert.ReferenceIdeal.Term

open Cert.ReferenceIdeal Idealize.ShloMosaic Cert.ReferenceIdeal.Facts₀ Cert.ReferenceIdeal.Facts

variable {F : FTy → Type} [FloatOps F]

/-- Attention and the first layer over flattened rows (`%0` … `%17`). -/
def tH1 (a0 : FVec F S256x512x128 .f32) (a1 : FVec F S256x512x512 .f32) (a2 a3 : FVec F S128x32 .f32)
    (a4 : FVec F S256x64 .f32) (a5 : FVec F S64 .f32) : FVec F S131072x64 .f32 :=
  let v0 : FVec F S256x512x32 .f32 := Host.dotGeneral dot_S256x512x128_S128x32_S256x512x32_2_0_01_1_n_n none a0 a2
  let v1 : FVec F S256x512x32 .f32 := Host.dotGeneral dot_S256x512x128_S128x32_S256x512x32_2_0_01_1_n_n none a0 a3
  let v2 : FVec F S256x512x512 .f32 := Host.dotGeneral dot_S256x512x32_S256x512x32_S256x512x512_2_2_1_1_0_0 none v0 v1
  let v3 : FVec F S256x512x512 .f32 := mulf v2 v2
  let v4 : FVec F S256x512x512 .f32 := mulf v3 a1
  let v5 : FVec F S256x512 .f32 := Host.reduceAdd v4 (constant S_ .f32 0x00000000#32) reducesTo_S256x512x512_S256x512_d2 h_S_
  let v6 : FVec F S256x512x1 .f32 := broadcastInDim S256x512x1 ![0, 1] bcast_S256x512_S256x512x1_0_1 v5
  let v7 : FVec F S256x512x1 .f32 := broadcastInDim S256x512x1 ![] bcast_S_S256x512x1 (constant S_ .f32 0x3A83126F#32)
  let v8 : FVec F S256x512x1 .f32 := addf v6 v7
  let v9 : FVec F S256x512x512 .f32 := broadcastInDim S256x512x512 ![0, 1, 2] bcast_S256x512x1_S256x512x512_0_1_2 v8
  let v10 : FVec F S256x512x512 .f32 := Host.divf v4 v9
  let v11 : FVec F S256x512x128 .f32 := Host.dotGeneral dot_S256x512x512_S256x512x128_S256x512x128_2_1_1_2_0_0 none v10 a0
  let v12 : FVec F S256x512x256 .f32 :=
    concatenate S256x512x256 2 [⟨S256x512x128, a0⟩, ⟨S256x512x128, v11⟩] concatenates_S256x512x128_S256x512x128_S256x512x256_d2
  let v13 : FVec F S131072x256 .f32 := shapeCast S131072x256 v12 shapeCasts_S256x512x256_S131072x256
  let v14 : FVec F S131072x64 .f32 := Host.dotGeneral dot_S131072x256_S256x64_S131072x64_1_0_0_1_n_n none v13 a4
  let v15 : FVec F S1x64 .f32 := broadcastInDim S1x64 ![1] bcast_S64_S1x64_1 a5
  let v16 : FVec F S131072x64 .f32 := broadcastInDim S131072x64 ![0, 1] bcast_S1x64_S131072x64_0_1 v15
  addf v14 v16

/-- A column mean: the column sum over the row count. -/
def tMean (x : FVec F S131072x64 .f32) : FVec F S64 .f32 :=
  Host.divf (Host.reduceAdd x (constant S_ .f32 0x00000000#32) reducesTo_S131072x64_S64_d0 h_S_)
    (broadcastInDim S64 ![] bcast_S_S64 (constant S_ .f32 0x48000000#32))

/-- The outlined variance: the mean of squared deviations, its divisor the row count minus a zero offset, the
    quotient kept where that divisor is positive. -/
def tVar (x : FVec F S131072x64 .f32) : FVec F S64 .f32 :=
  let v0 : FVec F S64 .f32 := Host.reduceAdd x (constant S_ .f32 0x00000000#32) reducesTo_S131072x64_S64_d0 h_S_
  let v1 : FVec F S1x64 .f32 := broadcastInDim S1x64 ![1] bcast_S64_S1x64_1 v0
  let v2 : FVec F S1x64 .f32 := broadcastInDim S1x64 ![] bcast_S_S1x64 (constant S_ .f32 0x48000000#32)
  let v3 : FVec F S1x64 .f32 := Host.divf v1 v2
  let v4 : FVec F S131072x64 .f32 := broadcastInDim S131072x64 ![0, 1] bcast_S1x64_S131072x64_0_1 v3
  let v5 : FVec F S131072x64 .f32 := subf x v4
  let v6 : FVec F S131072x64 .f32 := mulf v5 v5
  let v7 : FVec F S_ .f32 := sitofp .f32 (constantI S_ 32 0#32)
  let v8 : FVec F S_ .f32 := subf (constant S_ .f32 0x48000000#32) v7
  let v9 : FVec F S64 .f32 := Host.reduceAdd v6 (constant S_ .f32 0x00000000#32) reducesTo_S131072x64_S64_d0 h_S_
  let v10 : FVec F S64 .f32 := broadcastInDim S64 ![] bcast_S_S64 v8
  let v11 : FVec F S64 .f32 := Host.divf v9 v10
  let v12 : IVec S_ 1 := cmpf .ogt v8 (constant S_ .f32 0x00000000#32)
  let w1 : FVec F S64 .f32 := broadcastInDim S64 ![] bcast_S_S64 (id (constant S_ .f32 0x7FC00000#32))
  select (broadcastInDim S64 ![] bcast_S_S64 v12) v11 w1

/-- Normalise every column by its mean and variance, scale, shift, clamp at zero. -/
def tBnRelu (x : FVec F S131072x64 .f32) (gam bet : FVec F S64 .f32) : FVec F S131072x64 .f32 :=
  let v20 : FVec F S64 .f32 := tMean x
  let v21 : FVec F S64 .f32 := tVar x
  let v22 : FVec F S1x64 .f32 := broadcastInDim S1x64 ![1] bcast_S64_S1x64_1 v20
  let v23 : FVec F S131072x64 .f32 := broadcastInDim S131072x64 ![0, 1] bcast_S1x64_S131072x64_0_1 v22
  let v24 : FVec F S131072x64 .f32 := subf x v23
  let v25 : FVec F S64 .f32 := broadcastInDim S64 ![] bcast_S_S64 (constant S_ .f32 0x3727C5AC#32)
  let v26 : FVec F S64 .f32 := addf v21 v25
  let v27 : FVec F S64 .f32 := Host.rsqrt v26
  let v28 : FVec F S1x64 .f32 := broadcastInDim S1x64 ![1] bcast_S64_S1x64_1 v27
  let v29 : FVec F S131072x64 .f32 := broadcastInDim S131072x64 ![0, 1] bcast_S1x64_S131072x64_0_1 v28
  let v30 : FVec F S131072x64 .f32 := mulf v24 v29
  let v31 : FVec F S1x64 .f32 := broadcastInDim S1x64 ![1] bcast_S64_S1x64_1 gam
  let v32 : FVec F S131072x64 .f32 := broadcastInDim S131072x64 ![0, 1] bcast_S1x64_S131072x64_0_1 v31
  let v33 : FVec F S131072x64 .f32 := mulf v30 v32
  let v34 : FVec F S1x64 .f32 := broadcastInDim S1x64 ![1] bcast_S64_S1x64_1 bet
  let v35 : FVec F S131072x64 .f32 := broadcastInDim S131072x64 ![0, 1] bcast_S1x64_S131072x64_0_1 v34
  let v36 : FVec F S131072x64 .f32 := addf v33 v35
  maximumf v36 (broadcastInDim S131072x64 ![] bcast_S_S131072x64 (constant S_ .f32 0x00000000#32))

/-- A linear layer of width 64. -/
def tLin64 (x : FVec F S131072x64 .f32) (w : FVec F S64x64 .f32) (b : FVec F S64 .f32) : FVec F S131072x64 .f32 :=
  addf (Host.dotGeneral dot_S131072x64_S64x64_S131072x64_1_0_0_1_n_n none x w)
    (broadcastInDim S131072x64 ![0, 1] bcast_S1x64_S131072x64_0_1 (broadcastInDim S1x64 ![1] bcast_S64_S1x64_1 b))

/-- The output layer, its logistic function spelt `1 / (1 + exp (−x))`, reshaped to batches. -/
def tOut (x : FVec F S131072x64 .f32) (wo : FVec F S64x16 .f32) (bo : FVec F S16 .f32) : FVec F S256x512x16 .f32 :=
  let v62 : FVec F S131072x16 .f32 := Host.dotGeneral dot_S131072x64_S64x16_S131072x16_1_0_0_1_n_n none x wo
  let v64 : FVec F S131072x16 .f32 :=
    broadcastInDim S131072x16 ![0, 1] bcast_S1x16_S131072x16_0_1 (broadcastInDim S1x16 ![1] bcast_S16_S1x16_1 bo)
  let v65 : FVec F S131072x16 .f32 := addf v62 v64
  let v66 : FVec F S131072x16 .f32 := Host.negf v65
  let v67 : FVec F S131072x16 .f32 := Host.exp v66
  let v68 : FVec F S131072x16 .f32 := broadcastInDim S131072x16 ![] bcast_S_S131072x16 (constant S_ .f32 0x3F800000#32)
  let v69 : FVec F S131072x16 .f32 := addf v68 v67
  let v70 : FVec F S131072x16 .f32 := broadcastInDim S131072x16 ![] bcast_S_S131072x16 (constant S_ .f32 0x3F800000#32)
  let v71 : FVec F S131072x16 .f32 := Host.divf v70 v69
  shapeCast S256x512x16 v71 shapeCasts_S131072x16_S256x512x16

/-- The reference's result as a function of its arguments. -/
def refOut (a0 : FVec F S256x512x128 .f32) (a1 : FVec F S256x512x512 .f32) (a2 a3 : FVec F S128x32 .f32)
    (a4 : FVec F S256x64 .f32) (a5 a6 a7 : FVec F S64 .f32) (a8 : FVec F S64x64 .f32) (a9 a10 a11 : FVec F S64 .f32)
    (a12 : FVec F S64x16 .f32) (a13 : FVec F S16 .f32) : FVec F S256x512x16 .f32 :=
  tOut (tBnRelu (tLin64 (tBnRelu (tH1 a0 a1 a2 a3 a4 a5) a6 a7) a8 a9) a10 a11) a12 a13

end Cert.ReferenceIdeal.Term

end
-- ==== Proof.RRun.lean ====
/-
  The run of the reference program read back as a pure function of its arguments.

  The program is a straight line of 131 array operations: the 81 of its main function, and the bodies of the four
  calls it makes (twice a column variance, which itself calls a guarded choice; twice a clamp at zero) listed at
  their call sites over each call's own arrays. The line is cut at the stages of the composed term: the attention
  and first layer (`opsA`), a normalisation with its clamp (`opsB`), a linear layer (`opsC`), the second
  normalisation (`opsD`) and the logistic output (`opsE`). For each stretch: the array it produces is the stage's
  function of the arrays it reads (`A_val` … `E_val`), and an array the stretch does not write keeps its contents
  (`A_keep` … `E_keep`: every operation writes exactly one array, and the arrays a stretch writes are listed).
  Composing the five gives the result array as `Term.refOut` of the fourteen arguments (`out_eq`), the arguments
  untouched (`arg_keep`), and with the general statement about straight lines (`run_seq`) the run itself (`run`).
-/
import proofs.«127264_j6760278524113_1_alg».proof.ReferenceIdeal
import proofs.«127264_j6760278524113_1_alg».proof.Proof.Gen.ReferenceIdeal
import proofs.«127264_j6760278524113_1_alg».proof.Proof.RTerm
import Idealize.ShloMosaic.Lib.StableHlo.Run
import Mathlib.Data.List.Basic

noncomputable section

namespace Cert.ReferenceIdeal.Run

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## Two general facts about straight lines -/

/-- The contents after two lines in a row: the second line's, from the first line's. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- A one-array write set lies among the device arrays of any list of references that holds that array. -/
theorem single_sub_of_mem {τ : Topo} {sig : RefSig} {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- One entry of a stretch's table of written arrays: the operation's write set is one array, found in the list. -/
local macro "w!" : term => `(single_sub_of_mem (by decide))

/-! ## The attention and the first layer: `%0` … `%17` -/

/-- The first twenty operations, in order. -/
abbrev opsA : List (HloOp τ sig (Elt F)) :=
  [ binary main_arg0 main_arg2 main_v0 (fun l r => Host.dotGeneral dot_S256x512x128_S128x32_S256x512x32_2_0_01_1_n_n none l r),
    binary main_arg0 main_arg3 main_v1 (fun l r => Host.dotGeneral dot_S256x512x128_S128x32_S256x512x32_2_0_01_1_n_n none l r),
    binary main_v0 main_v1 main_v2 (fun l r => Host.dotGeneral dot_S256x512x32_S256x512x32_S256x512x512_2_2_1_1_0_0 none l r),
    binary main_v2 main_v2 main_v3 mulf,
    binary main_v3 main_arg1 main_v4 mulf,
    nullary main_cst (constant S_ .f32 0x00000000#32),
    binary main_v4 main_cst main_v5 (fun x v => Host.reduceAdd x v reducesTo_S256x512x512_S256x512_d2 h_S_),
    unary main_v5 main_v6 (broadcastInDim S256x512x1 ![0, 1] bcast_S256x512_S256x512x1_0_1),
    nullary main_cst_0 (constant S_ .f32 0x3A83126F#32),
    unary main_cst_0 main_v7 (broadcastInDim S256x512x1 ![] bcast_S_S256x512x1),
    binary main_v6 main_v7 main_v8 addf,
    unary main_v8 main_v9 (broadcastInDim S256x512x512 ![0, 1, 2] bcast_S256x512x1_S256x512x512_0_1_2),
    binary main_v4 main_v9 main_v10 Host.divf,
    binary main_v10 main_arg0 main_v11 (fun l r => Host.dotGeneral dot_S256x512x512_S256x512x128_S256x512x128_2_1_1_2_0_0 none l r),
    binary main_arg0 main_v11 main_v12 (fun a b => concatenate S256x512x256 2 [⟨S256x512x128, a⟩, ⟨S256x512x128, b⟩] concatenates_S256x512x128_S256x512x128_S256x512x256_d2),
    reshape main_v12 main_v13 rfl shapeCasts_S256x512x256_S131072x256,
    binary main_v13 main_arg4 main_v14 (fun l r => Host.dotGeneral dot_S131072x256_S256x64_S131072x64_1_0_0_1_n_n none l r),
    unary main_arg5 main_v15 (broadcastInDim S1x64 ![1] bcast_S64_S1x64_1),
    unary main_v15 main_v16 (broadcastInDim S131072x64 ![0, 1] bcast_S1x64_S131072x64_0_1),
    binary main_v14 main_v16 main_v17 addf ]

/-- The arrays the first stretch writes. -/
abbrev WA : List (Ref sig .tc) :=
  [main_v0, main_v1, main_v2, main_v3, main_v4, main_cst, main_v5, main_v6, main_cst_0, main_v7, main_v8, main_v9, main_v10,
    main_v11, main_v12, main_v13, main_v14, main_v15, main_v16, main_v17]

theorem A_sub : (opsA : List (HloOp τ sig (Elt F))).Forall fun op => op.bufs ⊆ tcRefs τ sig :=
  ⟨binary_bufs_sub .., binary_bufs_sub .., binary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., binary_bufs_sub .., reshape_bufs_sub .., binary_bufs_sub .., unary_bufs_sub ..,
    unary_bufs_sub .., binary_bufs_sub ..⟩

theorem A_writes : (opsA : List (HloOp τ sig (Elt F))).Forall fun op =>
    op.writes ⊆ (WA.map (Proc.devRef (τ := τ) .tc)).toFinset :=
  ⟨w!, w!, w!, w!, w!, w!, w!, w!, w!, w!, w!, w!, w!, w!, w!, w!, w!, w!, w!, w!⟩

theorem A_fresh : ∀ op ∈ (opsA : List (HloOp τ sig (Elt F))), op.fresh = ∅ := by
  intro _ h; (repeat (cases h with | head => rfl | tail _ h => ?_)); exact nomatch h

/-- An array the first stretch does not write keeps its contents. -/
theorem A_keep (V : Valuation τ sig (Elt F)) (r : Ref sig .tc) (hr : r ∉ WA := by decide) :
    after opsA V (Proc.devRef .tc r) = V (Proc.devRef .tc r) :=
  after_of_writes_sub opsA V A_writes hr

attribute [local irreducible] Host.reduceAdd concatenate shapeCast broadcastInDim in
/-- The first stretch leaves `%17` at the first stage's function of the six arguments it reads: each operation's
    result read at its own array is its function of its operands' contents, read at any other array what was there. -/
theorem A_val (V : Valuation τ sig (Elt F)) :
    after opsA V (main_v17 : DevRef τ sig)
      = Term.tH1 (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results
  rfl

/-! ## The first normalisation and its clamp: `%cst_1` … `%37` -/

/-- The next forty-seven operations, in order: the column mean (six, the last the integer zero the variance takes),
    the variance's twenty-two over the arrays of its call (its last three the guarded choice's, over that call's),
    the sixteen that normalise, scale and shift, and the clamp's three over the arrays of its call. -/
abbrev opsB : List (HloOp τ sig (Elt F)) :=
  [ nullary main_cst_1 (constant S_ .f32 0x00000000#32),
    binary main_v17 main_cst_1 main_v18 (fun x v => Host.reduceAdd x v reducesTo_S131072x64_S64_d0 h_S_),
    nullary main_cst_2 (constant S_ .f32 0x48000000#32),
    unary main_cst_2 main_v19 (broadcastInDim S64 ![] bcast_S_S64),
    binary main_v18 main_v19 main_v20 Host.divf,
    nullary main_c (constantI S_ 32 0#32),
    TRef.nullary main_call0.cst (constant S_ .f32 0x00000000#32),
    TRef.binary (.of main_v17) main_call0.cst main_call0.v0 (fun x v => Host.reduceAdd x v reducesTo_S131072x64_S64_d0 h_S_),
    TRef.unary main_call0.v0 main_call0.v1 (broadcastInDim S1x64 ![1] bcast_S64_S1x64_1),
    TRef.nullary main_call0.cst_0 (constant S_ .f32 0x48000000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S131072x64 ![0, 1] bcast_S1x64_S131072x64_0_1),
    TRef.binary (.of main_v17) main_call0.v4 main_call0.v5 subf,
    TRef.binary main_call0.v5 main_call0.v5 main_call0.v6 mulf,
    TRef.unary (.of main_c) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S131072x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v20 main_v22 (broadcastInDim S1x64 ![1] bcast_S64_S1x64_1),
    unary main_v22 main_v23 (broadcastInDim S131072x64 ![0, 1] bcast_S1x64_S131072x64_0_1),
    binary main_v17 main_v23 main_v24 subf,
    nullary main_cst_3 (constant S_ .f32 0x3727C5AC#32),
    unary main_cst_3 main_v25 (broadcastInDim S64 ![] bcast_S_S64),
    binary main_v21 main_v25 main_v26 addf,
    unary main_v26 main_v27 Host.rsqrt,
    unary main_v27 main_v28 (broadcastInDim S1x64 ![1] bcast_S64_S1x64_1),
    unary main_v28 main_v29 (broadcastInDim S131072x64 ![0, 1] bcast_S1x64_S131072x64_0_1),
    binary main_v24 main_v29 main_v30 mulf,
    unary main_arg6 main_v31 (broadcastInDim S1x64 ![1] bcast_S64_S1x64_1),
    unary main_v31 main_v32 (broadcastInDim S131072x64 ![0, 1] bcast_S1x64_S131072x64_0_1),
    binary main_v30 main_v32 main_v33 mulf,
    unary main_arg7 main_v34 (broadcastInDim S1x64 ![1] bcast_S64_S1x64_1),
    unary main_v34 main_v35 (broadcastInDim S131072x64 ![0, 1] bcast_S1x64_S131072x64_0_1),
    binary main_v33 main_v35 main_v36 addf,
    TRef.nullary main_call1.cst (constant S_ .f32 0x00000000#32),
    TRef.unary main_call1.cst main_call1.v0 (broadcastInDim S131072x64 ![] bcast_S_S131072x64),
    TRef.binary (.of main_v36) main_call1.v0 main_call1.v1 maximumf ]

/-- The arrays the second stretch writes. -/
abbrev WB : List (Ref sig .tc) :=
  [main_cst_1, main_v18, main_cst_2, main_v19, main_v20, main_c,
    main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10,
    main_call0_v11, main_call0_cst_3, main_call0_v12, main_call0_cst_4, main_call0_call0_v0, main_call0_call0_v1, main_v21,
    main_v22, main_v23, main_v24, main_cst_3, main_v25, main_v26, main_v27, main_v28, main_v29, main_v30, main_v31, main_v32,
    main_v33, main_v34, main_v35, main_v36, main_call1_cst, main_call1_v0, main_v37]

theorem B_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    nullary_bufs_sub .., unary_bufs_sub .., binary_bufs_sub ..⟩

theorem B_writes : (opsB : List (HloOp τ sig (Elt F))).Forall fun op =>
    op.writes ⊆ (WB.map (Proc.devRef (τ := τ) .tc)).toFinset :=
  ⟨w!, w!, w!, w!, w!, w!,
    w!, w!, w!, w!, w!, w!, w!, w!, w!, w!, w!, w!, w!, w!, w!, w!, w!, w!, w!, w!, w!, w!,
    w!, w!, w!, w!, w!, w!, w!, w!, w!, w!, w!, w!, w!, w!, w!, w!,
    w!, w!, w!⟩

theorem B_fresh : ∀ op ∈ (opsB : List (HloOp τ sig (Elt F))), op.fresh = ∅ := by
  intro _ h; (repeat (cases h with | head => rfl | tail _ h => ?_)); exact nomatch h

/-- An array the second stretch does not write keeps its contents. -/
theorem B_keep (V : Valuation τ sig (Elt F)) (r : Ref sig .tc) (hr : r ∉ WB := by decide) :
    after opsB V (Proc.devRef .tc r) = V (Proc.devRef .tc r) :=
  after_of_writes_sub opsB V B_writes hr

attribute [local irreducible] Host.reduceAdd concatenate shapeCast broadcastInDim in
/-- The second stretch leaves `%37` at the normalisation of `%17` by the two arguments it reads, clamped at zero. The
    operations of the two calls carry each array's type beside its reference; at these literal references the
    transport between the two is the identity. -/
theorem B_val (V : Valuation τ sig (Elt F)) :
    after opsB V (main_v37 : DevRef τ sig)
      = Term.tBnRelu (V (main_v17 : DevRef τ sig)) (V (main_arg6 : DevRef τ sig)) (V (main_arg7 : DevRef τ sig)) := by
  after_results_simp
  rfl

/-! ## The linear layer: `%38` … `%41` -/

/-- The next four operations, in order. -/
abbrev opsC : List (HloOp τ sig (Elt F)) :=
  [ binary main_v37 main_arg8 main_v38 (fun l r => Host.dotGeneral dot_S131072x64_S64x64_S131072x64_1_0_0_1_n_n none l r),
    unary main_arg9 main_v39 (broadcastInDim S1x64 ![1] bcast_S64_S1x64_1),
    unary main_v39 main_v40 (broadcastInDim S131072x64 ![0, 1] bcast_S1x64_S131072x64_0_1),
    binary main_v38 main_v40 main_v41 addf ]

/-- The arrays the third stretch writes. -/
abbrev WC : List (Ref sig .tc) := [main_v38, main_v39, main_v40, main_v41]

theorem C_sub : (opsC : List (HloOp τ sig (Elt F))).Forall fun op => op.bufs ⊆ tcRefs τ sig :=
  ⟨binary_bufs_sub .., unary_bufs_sub .., unary_bufs_sub .., binary_bufs_sub ..⟩

theorem C_writes : (opsC : List (HloOp τ sig (Elt F))).Forall fun op =>
    op.writes ⊆ (WC.map (Proc.devRef (τ := τ) .tc)).toFinset :=
  ⟨w!, w!, w!, w!⟩

theorem C_fresh : ∀ op ∈ (opsC : List (HloOp τ sig (Elt F))), op.fresh = ∅ := by
  intro _ h; (repeat (cases h with | head => rfl | tail _ h => ?_)); exact nomatch h

/-- An array the third stretch does not write keeps its contents. -/
theorem C_keep (V : Valuation τ sig (Elt F)) (r : Ref sig .tc) (hr : r ∉ WC := by decide) :
    after opsC V (Proc.devRef .tc r) = V (Proc.devRef .tc r) :=
  after_of_writes_sub opsC V C_writes hr

attribute [local irreducible] Host.reduceAdd concatenate shapeCast broadcastInDim in
/-- The third stretch leaves `%41` at the linear layer of `%37` with the weights and the bias it reads. -/
theorem C_val (V : Valuation τ sig (Elt F)) :
    after opsC V (main_v41 : DevRef τ sig)
      = Term.tLin64 (V (main_v37 : DevRef τ sig)) (V (main_arg8 : DevRef τ sig)) (V (main_arg9 : DevRef τ sig)) := by
  after_results
  rfl

/-! ## The second normalisation and its clamp: `%cst_4` … `%61` -/

/-- The next forty-seven operations, in order: the second stretch's, over `%41`, the second pair of calls' arrays and
    the next two arguments. -/
abbrev opsD : List (HloOp τ sig (Elt F)) :=
  [ nullary main_cst_4 (constant S_ .f32 0x00000000#32),
    binary main_v41 main_cst_4 main_v42 (fun x v => Host.reduceAdd x v reducesTo_S131072x64_S64_d0 h_S_),
    nullary main_cst_5 (constant S_ .f32 0x48000000#32),
    unary main_cst_5 main_v43 (broadcastInDim S64 ![] bcast_S_S64),
    binary main_v42 main_v43 main_v44 Host.divf,
    nullary main_c_6 (constantI S_ 32 0#32),
    TRef.nullary main_call2.cst (constant S_ .f32 0x00000000#32),
    TRef.binary (.of main_v41) main_call2.cst main_call2.v0 (fun x v => Host.reduceAdd x v reducesTo_S131072x64_S64_d0 h_S_),
    TRef.unary main_call2.v0 main_call2.v1 (broadcastInDim S1x64 ![1] bcast_S64_S1x64_1),
    TRef.nullary main_call2.cst_0 (constant S_ .f32 0x48000000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S131072x64 ![0, 1] bcast_S1x64_S131072x64_0_1),
    TRef.binary (.of main_v41) main_call2.v4 main_call2.v5 subf,
    TRef.binary main_call2.v5 main_call2.v5 main_call2.v6 mulf,
    TRef.unary (.of main_c_6) main_call2.v7 (sitofp .f32),
    TRef.nullary main_call2.cst_1 (constant S_ .f32 0x48000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S131072x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v44 main_v46 (broadcastInDim S1x64 ![1] bcast_S64_S1x64_1),
    unary main_v46 main_v47 (broadcastInDim S131072x64 ![0, 1] bcast_S1x64_S131072x64_0_1),
    binary main_v41 main_v47 main_v48 subf,
    nullary main_cst_7 (constant S_ .f32 0x3727C5AC#32),
    unary main_cst_7 main_v49 (broadcastInDim S64 ![] bcast_S_S64),
    binary main_v45 main_v49 main_v50 addf,
    unary main_v50 main_v51 Host.rsqrt,
    unary main_v51 main_v52 (broadcastInDim S1x64 ![1] bcast_S64_S1x64_1),
    unary main_v52 main_v53 (broadcastInDim S131072x64 ![0, 1] bcast_S1x64_S131072x64_0_1),
    binary main_v48 main_v53 main_v54 mulf,
    unary main_arg10 main_v55 (broadcastInDim S1x64 ![1] bcast_S64_S1x64_1),
    unary main_v55 main_v56 (broadcastInDim S131072x64 ![0, 1] bcast_S1x64_S131072x64_0_1),
    binary main_v54 main_v56 main_v57 mulf,
    unary main_arg11 main_v58 (broadcastInDim S1x64 ![1] bcast_S64_S1x64_1),
    unary main_v58 main_v59 (broadcastInDim S131072x64 ![0, 1] bcast_S1x64_S131072x64_0_1),
    binary main_v57 main_v59 main_v60 addf,
    TRef.nullary main_call3.cst (constant S_ .f32 0x00000000#32),
    TRef.unary main_call3.cst main_call3.v0 (broadcastInDim S131072x64 ![] bcast_S_S131072x64),
    TRef.binary (.of main_v60) main_call3.v0 main_call3.v1 maximumf ]

/-- The arrays the fourth stretch writes. -/
abbrev WD : List (Ref sig .tc) :=
  [main_cst_4, main_v42, main_cst_5, main_v43, main_v44, main_c_6,
    main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10,
    main_call2_v11, main_call2_cst_3, main_call2_v12, main_call2_cst_4, main_call2_call0_v0, main_call2_call0_v1, main_v45,
    main_v46, main_v47, main_v48, main_cst_7, main_v49, main_v50, main_v51, main_v52, main_v53, main_v54, main_v55, main_v56,
    main_v57, main_v58, main_v59, main_v60, main_call3_cst, main_call3_v0, main_v61]

theorem D_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    nullary_bufs_sub .., unary_bufs_sub .., binary_bufs_sub ..⟩

theorem D_writes : (opsD : List (HloOp τ sig (Elt F))).Forall fun op =>
    op.writes ⊆ (WD.map (Proc.devRef (τ := τ) .tc)).toFinset :=
  ⟨w!, w!, w!, w!, w!, w!,
    w!, w!, w!, w!, w!, w!, w!, w!, w!, w!, w!, w!, w!, w!, w!, w!, w!, w!, w!, w!, w!, w!,
    w!, w!, w!, w!, w!, w!, w!, w!, w!, w!, w!, w!, w!, w!, w!, w!,
    w!, w!, w!⟩

theorem D_fresh : ∀ op ∈ (opsD : List (HloOp τ sig (Elt F))), op.fresh = ∅ := by
  intro _ h; (repeat (cases h with | head => rfl | tail _ h => ?_)); exact nomatch h

/-- An array the fourth stretch does not write keeps its contents. -/
theorem D_keep (V : Valuation τ sig (Elt F)) (r : Ref sig .tc) (hr : r ∉ WD := by decide) :
    after opsD V (Proc.devRef .tc r) = V (Proc.devRef .tc r) :=
  after_of_writes_sub opsD V D_writes hr

attribute [local irreducible] Host.reduceAdd concatenate shapeCast broadcastInDim in
/-- The fourth stretch leaves `%61` at the normalisation of `%41` by the two arguments it reads, clamped at zero. -/
theorem D_val (V : Valuation τ sig (Elt F)) :
    after opsD V (main_v61 : DevRef τ sig)
      = Term.tBnRelu (V (main_v41 : DevRef τ sig)) (V (main_arg10 : DevRef τ sig)) (V (main_arg11 : DevRef τ sig)) := by
  after_results_simp
  rfl

/-! ## The logistic output: `%62` … `%72` -/

/-- The last thirteen operations, in order. -/
abbrev opsE : List (HloOp τ sig (Elt F)) :=
  [ binary main_v61 main_arg12 main_v62 (fun l r => Host.dotGeneral dot_S131072x64_S64x16_S131072x16_1_0_0_1_n_n none l r),
    unary main_arg13 main_v63 (broadcastInDim S1x16 ![1] bcast_S16_S1x16_1),
    unary main_v63 main_v64 (broadcastInDim S131072x16 ![0, 1] bcast_S1x16_S131072x16_0_1),
    binary main_v62 main_v64 main_v65 addf,
    unary main_v65 main_v66 Host.negf,
    unary main_v66 main_v67 Host.exp,
    nullary main_cst_8 (constant S_ .f32 0x3F800000#32),
    unary main_cst_8 main_v68 (broadcastInDim S131072x16 ![] bcast_S_S131072x16),
    binary main_v68 main_v67 main_v69 addf,
    nullary main_cst_9 (constant S_ .f32 0x3F800000#32),
    unary main_cst_9 main_v70 (broadcastInDim S131072x16 ![] bcast_S_S131072x16),
    binary main_v70 main_v69 main_v71 Host.divf,
    reshape main_v71 main_v72 rfl shapeCasts_S131072x16_S256x512x16 ]

/-- The arrays the last stretch writes. -/
abbrev WE : List (Ref sig .tc) :=
  [main_v62, main_v63, main_v64, main_v65, main_v66, main_v67, main_cst_8, main_v68, main_v69, main_cst_9, main_v70, main_v71,
    main_v72]

theorem E_sub : (opsE : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    reshape_bufs_sub ..⟩

theorem E_writes : (opsE : List (HloOp τ sig (Elt F))).Forall fun op =>
    op.writes ⊆ (WE.map (Proc.devRef (τ := τ) .tc)).toFinset :=
  ⟨w!, w!, w!, w!, w!, w!, w!, w!, w!, w!, w!, w!, w!⟩

theorem E_fresh : ∀ op ∈ (opsE : List (HloOp τ sig (Elt F))), op.fresh = ∅ := by
  intro _ h; (repeat (cases h with | head => rfl | tail _ h => ?_)); exact nomatch h

/-- An array the last stretch does not write keeps its contents. -/
theorem E_keep (V : Valuation τ sig (Elt F)) (r : Ref sig .tc) (hr : r ∉ WE := by decide) :
    after opsE V (Proc.devRef .tc r) = V (Proc.devRef .tc r) :=
  after_of_writes_sub opsE V E_writes hr

attribute [local irreducible] Host.reduceAdd concatenate shapeCast broadcastInDim in
/-- The last stretch leaves the result array at the output stage of `%61` with the weights and the bias it reads. -/
theorem E_val (V : Valuation τ sig (Elt F)) :
    after opsE V (main_v72 : DevRef τ sig)
      = Term.tOut (V (main_v61 : DevRef τ sig)) (V (main_arg12 : DevRef τ sig)) (V (main_arg13 : DevRef τ sig)) := by
  after_results
  rfl

/-! ## The whole line -/

/-- The program's 131 operations, in order: the five stretches in a row. -/
abbrev ops : List (HloOp τ sig (Elt F)) := opsA ++ (opsB ++ (opsC ++ (opsD ++ opsE)))

set_option maxRecDepth 8192 in
set_option maxHeartbeats 4000000 in
/-- The main function is that straight line: its two windows in a row, the called functions' definitions unfolded at
    their calls and the calls' records at their fields; both sides are one chain of single steps once sequencing is
    reassociated. -/
theorem main_eq (c : Dev nD) : main (F := F) c = seq ops := by
  simp only [main, main_part0, main_part1, fn_var.body, fn_where.body, fn_relu.body, ops, seq_append, seq, bind_assoc,
    pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches arrays of the core only. -/
theorem ops_sub : (ops : List (HloOp τ sig (Elt F))).Forall fun op => op.bufs ⊆ tcRefs τ sig :=
  List.forall_append.mpr ⟨A_sub, List.forall_append.mpr ⟨B_sub, List.forall_append.mpr ⟨C_sub,
    List.forall_append.mpr ⟨D_sub, E_sub⟩⟩⟩⟩

/-- Every operation of the line determines what it writes. -/
theorem ops_fresh : ∀ op ∈ (ops : List (HloOp τ sig (Elt F))), op.fresh = ∅ := by
  intro op h
  simp only [ops, List.mem_append] at h
  rcases h with h | h | h | h | h
  exacts [A_fresh op h, B_fresh op h, C_fresh op h, D_fresh op h, E_fresh op h]

/-- An array no stretch writes (every argument is one) keeps its contents through the whole line. -/
theorem arg_keep (V : Valuation τ sig (Elt F)) (r : Ref sig .tc)
    (hA : r ∉ WA := by decide) (hB : r ∉ WB := by decide) (hC : r ∉ WC := by decide) (hD : r ∉ WD := by decide)
    (hE : r ∉ WE := by decide) :
    after ops V (Proc.devRef .tc r) = V (Proc.devRef .tc r) := by
  simp only [ops, after_app]
  rw [E_keep _ r hE, D_keep _ r hD, C_keep _ r hC, B_keep _ r hB, A_keep _ r hA]

/-- The result array after the whole line is the composed term of the fourteen arguments: each stretch's array is its
    stage of what it reads from the stretches before, and an argument read late is still what it was at the start. -/
theorem out_eq (V : Valuation τ sig (Elt F)) :
    after ops V (main_v72 : DevRef τ sig)
      = Term.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) := by
  simp only [ops, after_app]
  rw [E_val, D_val, C_val, B_val, A_val,
    D_keep _ main_arg12, D_keep _ main_arg13,
    C_keep _ main_arg10, C_keep _ main_arg11, C_keep _ main_arg12, C_keep _ main_arg13,
    B_keep _ main_arg8, B_keep _ main_arg9, B_keep _ main_arg10, B_keep _ main_arg11, B_keep _ main_arg12, B_keep _ main_arg13,
    A_keep _ main_arg6, A_keep _ main_arg7, A_keep _ main_arg8, A_keep _ main_arg9, A_keep _ main_arg10, A_keep _ main_arg11,
    A_keep _ main_arg12, A_keep _ main_arg13]
  rfl

/-! ## The run -/

/-- On every device, for any float values, from any memory with zero counters: every weakly fair execution of the
    main function terminates with the result array at the composed term of the arguments' launch contents and the
    fourteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
        = Term.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨(h c main_v72).trans (out_eq _),
      (h c main_arg0).trans (arg_keep _ main_arg0), (h c main_arg1).trans (arg_keep _ main_arg1),
      (h c main_arg2).trans (arg_keep _ main_arg2), (h c main_arg3).trans (arg_keep _ main_arg3),
      (h c main_arg4).trans (arg_keep _ main_arg4), (h c main_arg5).trans (arg_keep _ main_arg5),
      (h c main_arg6).trans (arg_keep _ main_arg6), (h c main_arg7).trans (arg_keep _ main_arg7),
      (h c main_arg8).trans (arg_keep _ main_arg8), (h c main_arg9).trans (arg_keep _ main_arg9),
      (h c main_arg10).trans (arg_keep _ main_arg10), (h c main_arg11).trans (arg_keep _ main_arg11),
      (h c main_arg12).trans (arg_keep _ main_arg12), (h c main_arg13).trans (arg_keep _ main_arg13)⟩)
    (run_seq scopedRefs_eq scopedSems_eq defs main (fun _ => ops) main_eq (fun _ => ops_sub) m ρ (fun _ => ops_fresh))

end Cert.ReferenceIdeal.Run

end
-- ==== Proof.RRead.lean ====
/-
  The reference's result read at an index, at the ideal values (a float an extended real, every operation exact).

  Each stage of the reference term is read coordinate by coordinate: a contraction as the sum over its one contracted
  axis, a reduction as the sum over the reduced axis from a zero initial value, a broadcast as its operand at the kept
  coordinates, the concatenation along the feature axis as the case split at 128, the two reshapes through the row
  number  r = b * 512 + n.  Composed, the result at (b, n, a) is the index-by-index formula with the variance spelt
  as the mean of squared deviations.
-/
import proofs.«127264_j6760278524113_1_alg».proof.Proof.RTerm
import proofs.«127264_j6760278524113_1_alg».proof.Proof.Spec
import proofs.«127264_j6760278524113_1_alg».proof.Proof.Algebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Read

open Cert.ReferenceIdeal Idealize.ShloMosaic Idealize.ShloMosaic.ValueIdx
open Cert.ReferenceIdeal.Facts₀ Cert.ReferenceIdeal.Facts
open scoped BigOperators

/-! ## The six contractions, each as the sum over its contracted axis -/

/-! ### Node features times a projection matrix: `[256,512,128] · [128,32]` -/

theorem lhs_proj_0 (i : S256x512x32.Idx) (q : dot_S256x512x128_S128x32_S256x512x32_2_0_01_1_n_n.contr.Idx) :
    (dot_S256x512x128_S128x32_S256x512x32_2_0_01_1_n_n.lhsIdx i q 0).val = (i 0).val := by
  delta DotDims.lhsIdx
  rw [dif_neg (show ¬(0 : Fin S256x512x128.rank) ∈ dot_S256x512x128_S128x32_S256x512x32_2_0_01_1_n_n.lhsBatch by decide),
    dif_pos (show (0 : Fin S256x512x128.rank) ∈ dot_S256x512x128_S128x32_S256x512x32_2_0_01_1_n_n.lhsNonContracting by decide)]
  rfl
theorem lhs_proj_1 (i : S256x512x32.Idx) (q : dot_S256x512x128_S128x32_S256x512x32_2_0_01_1_n_n.contr.Idx) :
    (dot_S256x512x128_S128x32_S256x512x32_2_0_01_1_n_n.lhsIdx i q 1).val = (i 1).val := by
  delta DotDims.lhsIdx
  rw [dif_neg (show ¬(1 : Fin S256x512x128.rank) ∈ dot_S256x512x128_S128x32_S256x512x32_2_0_01_1_n_n.lhsBatch by decide),
    dif_pos (show (1 : Fin S256x512x128.rank) ∈ dot_S256x512x128_S128x32_S256x512x32_2_0_01_1_n_n.lhsNonContracting by decide)]
  rfl
theorem lhs_proj_2 (i : S256x512x32.Idx) (q : dot_S256x512x128_S128x32_S256x512x32_2_0_01_1_n_n.contr.Idx) :
    (dot_S256x512x128_S128x32_S256x512x32_2_0_01_1_n_n.lhsIdx i q 2).val = (q ⟨0, by decide⟩).val :=
  dot_S256x512x128_S128x32_S256x512x32_2_0_01_1_n_n.lhsIdx_val_of_single rfl i q
theorem rhs_proj_0 (i : S256x512x32.Idx) (q : dot_S256x512x128_S128x32_S256x512x32_2_0_01_1_n_n.contr.Idx) :
    (dot_S256x512x128_S128x32_S256x512x32_2_0_01_1_n_n.rhsIdx i q 0).val = (q ⟨0, by decide⟩).val :=
  dot_S256x512x128_S128x32_S256x512x32_2_0_01_1_n_n.rhsIdx_val_of_single rfl i q
theorem rhs_proj_1 (i : S256x512x32.Idx) (q : dot_S256x512x128_S128x32_S256x512x32_2_0_01_1_n_n.contr.Idx) :
    (dot_S256x512x128_S128x32_S256x512x32_2_0_01_1_n_n.rhsIdx i q 1).val = (i 2).val := by
  delta DotDims.rhsIdx
  rw [dif_neg (show ¬(1 : Fin S128x32.rank) ∈ dot_S256x512x128_S128x32_S256x512x32_2_0_01_1_n_n.rhsBatch by decide),
    dif_pos (show (1 : Fin S128x32.rank) ∈ dot_S256x512x128_S128x32_S256x512x32_2_0_01_1_n_n.rhsNonContracting by decide)]
  rfl

/-- A projection at `(b, n, m)` is the sum over the feature coordinate. -/
theorem dotProj_apply (x : FVec Ideal S256x512x128 .f32) (w : FVec Ideal S128x32 .f32) (b : Fin 256) (n : Fin 512) (m : Fin 32) :
    Host.dotGeneral (F := Ideal) dot_S256x512x128_S128x32_S256x512x32_2_0_01_1_n_n none x w (ix3 b n m)
      = ∑ d : Fin 128, x (ix3 b n d) * w (ix2 d m) := by
  show FloatOps.dotGeneral _ _ _ x w (ix3 b n m) = _
  rw [Ideal.dotGeneral_apply,
    ← Equiv.sum_comp (contrEquiv1 dot_S256x512x128_S128x32_S256x512x32_2_0_01_1_n_n 128 rfl rfl).symm]
  refine Finset.sum_congr rfl fun k _ => ?_
  have hk := contrEquiv1_symm_val dot_S256x512x128_S128x32_S256x512x32_2_0_01_1_n_n 128 rfl rfl k
  have el : dot_S256x512x128_S128x32_S256x512x32_2_0_01_1_n_n.lhsIdx (ix3 b n m)
      ((contrEquiv1 dot_S256x512x128_S128x32_S256x512x32_2_0_01_1_n_n 128 rfl rfl).symm k) = ix3 b n k :=
    funext fun a => Fin.ext (by
      match a with
      | ⟨0, _⟩ => exact lhs_proj_0 _ _
      | ⟨1, _⟩ => exact lhs_proj_1 _ _
      | ⟨2, _⟩ => exact (lhs_proj_2 _ _).trans hk)
  have er : dot_S256x512x128_S128x32_S256x512x32_2_0_01_1_n_n.rhsIdx (ix3 b n m)
      ((contrEquiv1 dot_S256x512x128_S128x32_S256x512x32_2_0_01_1_n_n 128 rfl rfl).symm k) = ix2 k m :=
    funext fun a => Fin.ext (by
      match a with
      | ⟨0, _⟩ => exact (rhs_proj_0 _ _).trans hk
      | ⟨1, _⟩ => exact rhs_proj_1 _ _)
  rw [el, er]

/-! ### Queries against keys inside a batch: `[256,512,32] · [256,512,32]`, batch axis 0, contracted axis 2 -/

theorem lhs_qk_0 (i : S256x512x512.Idx) (q : dot_S256x512x32_S256x512x32_S256x512x512_2_2_1_1_0_0.contr.Idx) :
    (dot_S256x512x32_S256x512x32_S256x512x512_2_2_1_1_0_0.lhsIdx i q 0).val = (i 0).val := by
  delta DotDims.lhsIdx
  rw [dif_pos (show (0 : Fin S256x512x32.rank) ∈ dot_S256x512x32_S256x512x32_S256x512x512_2_2_1_1_0_0.lhsBatch by decide)]
  rfl
theorem lhs_qk_1 (i : S256x512x512.Idx) (q : dot_S256x512x32_S256x512x32_S256x512x512_2_2_1_1_0_0.contr.Idx) :
    (dot_S256x512x32_S256x512x32_S256x512x512_2_2_1_1_0_0.lhsIdx i q 1).val = (i 1).val := by
  delta DotDims.lhsIdx
  rw [dif_neg (show ¬(1 : Fin S256x512x32.rank) ∈ dot_S256x512x32_S256x512x32_S256x512x512_2_2_1_1_0_0.lhsBatch by decide),
    dif_pos (show (1 : Fin S256x512x32.rank) ∈ dot_S256x512x32_S256x512x32_S256x512x512_2_2_1_1_0_0.lhsNonContracting by decide)]
  rfl
theorem lhs_qk_2 (i : S256x512x512.Idx) (q : dot_S256x512x32_S256x512x32_S256x512x512_2_2_1_1_0_0.contr.Idx) :
    (dot_S256x512x32_S256x512x32_S256x512x512_2_2_1_1_0_0.lhsIdx i q 2).val = (q ⟨0, by decide⟩).val :=
  dot_S256x512x32_S256x512x32_S256x512x512_2_2_1_1_0_0.lhsIdx_val_of_single rfl i q
theorem rhs_qk_0 (i : S256x512x512.Idx) (q : dot_S256x512x32_S256x512x32_S256x512x512_2_2_1_1_0_0.contr.Idx) :
    (dot_S256x512x32_S256x512x32_S256x512x512_2_2_1_1_0_0.rhsIdx i q 0).val = (i 0).val := by
  delta DotDims.rhsIdx
  rw [dif_pos (show (0 : Fin S256x512x32.rank) ∈ dot_S256x512x32_S256x512x32_S256x512x512_2_2_1_1_0_0.rhsBatch by decide)]
  rfl
theorem rhs_qk_1 (i : S256x512x512.Idx) (q : dot_S256x512x32_S256x512x32_S256x512x512_2_2_1_1_0_0.contr.Idx) :
    (dot_S256x512x32_S256x512x32_S256x512x512_2_2_1_1_0_0.rhsIdx i q 1).val = (i 2).val := by
  delta DotDims.rhsIdx
  rw [dif_neg (show ¬(1 : Fin S256x512x32.rank) ∈ dot_S256x512x32_S256x512x32_S256x512x512_2_2_1_1_0_0.rhsBatch by decide),
    dif_pos (show (1 : Fin S256x512x32.rank) ∈ dot_S256x512x32_S256x512x32_S256x512x512_2_2_1_1_0_0.rhsNonContracting by decide)]
  rfl
theorem rhs_qk_2 (i : S256x512x512.Idx) (q : dot_S256x512x32_S256x512x32_S256x512x512_2_2_1_1_0_0.contr.Idx) :
    (dot_S256x512x32_S256x512x32_S256x512x512_2_2_1_1_0_0.rhsIdx i q 2).val = (q ⟨0, by decide⟩).val :=
  dot_S256x512x32_S256x512x32_S256x512x512_2_2_1_1_0_0.rhsIdx_val_of_single rfl i q

/-- Query row `n` against key row `p` of batch `b`: the sum over the projected coordinate. -/
theorem dotQK_apply (x y : FVec Ideal S256x512x32 .f32) (b : Fin 256) (n p : Fin 512) :
    Host.dotGeneral (F := Ideal) dot_S256x512x32_S256x512x32_S256x512x512_2_2_1_1_0_0 none x y (ix3 b n p)
      = ∑ m : Fin 32, x (ix3 b n m) * y (ix3 b p m) := by
  show FloatOps.dotGeneral _ _ _ x y (ix3 b n p) = _
  rw [Ideal.dotGeneral_apply,
    ← Equiv.sum_comp (contrEquiv1 dot_S256x512x32_S256x512x32_S256x512x512_2_2_1_1_0_0 32 rfl rfl).symm]
  refine Finset.sum_congr rfl fun k _ => ?_
  have hk := contrEquiv1_symm_val dot_S256x512x32_S256x512x32_S256x512x512_2_2_1_1_0_0 32 rfl rfl k
  have el : dot_S256x512x32_S256x512x32_S256x512x512_2_2_1_1_0_0.lhsIdx (ix3 b n p)
      ((contrEquiv1 dot_S256x512x32_S256x512x32_S256x512x512_2_2_1_1_0_0 32 rfl rfl).symm k) = ix3 b n k :=
    funext fun a => Fin.ext (by
      match a with
      | ⟨0, _⟩ => exact lhs_qk_0 _ _
      | ⟨1, _⟩ => exact lhs_qk_1 _ _
      | ⟨2, _⟩ => exact (lhs_qk_2 _ _).trans hk)
  have er : dot_S256x512x32_S256x512x32_S256x512x512_2_2_1_1_0_0.rhsIdx (ix3 b n p)
      ((contrEquiv1 dot_S256x512x32_S256x512x32_S256x512x512_2_2_1_1_0_0 32 rfl rfl).symm k) = ix3 b p k :=
    funext fun a => Fin.ext (by
      match a with
      | ⟨0, _⟩ => exact rhs_qk_0 _ _
      | ⟨1, _⟩ => exact rhs_qk_1 _ _
      | ⟨2, _⟩ => exact (rhs_qk_2 _ _).trans hk)
  rw [el, er]

/-! ### Attention weights times node features inside a batch: `[256,512,512] · [256,512,128]`, batch axis 0 -/

theorem lhs_agg_0 (i : S256x512x128.Idx) (q : dot_S256x512x512_S256x512x128_S256x512x128_2_1_1_2_0_0.contr.Idx) :
    (dot_S256x512x512_S256x512x128_S256x512x128_2_1_1_2_0_0.lhsIdx i q 0).val = (i 0).val := by
  delta DotDims.lhsIdx
  rw [dif_pos (show (0 : Fin S256x512x512.rank) ∈ dot_S256x512x512_S256x512x128_S256x512x128_2_1_1_2_0_0.lhsBatch by decide)]
  rfl
theorem lhs_agg_1 (i : S256x512x128.Idx) (q : dot_S256x512x512_S256x512x128_S256x512x128_2_1_1_2_0_0.contr.Idx) :
    (dot_S256x512x512_S256x512x128_S256x512x128_2_1_1_2_0_0.lhsIdx i q 1).val = (i 1).val := by
  delta DotDims.lhsIdx
  rw [dif_neg (show ¬(1 : Fin S256x512x512.rank) ∈ dot_S256x512x512_S256x512x128_S256x512x128_2_1_1_2_0_0.lhsBatch by decide),
    dif_pos (show (1 : Fin S256x512x512.rank) ∈ dot_S256x512x512_S256x512x128_S256x512x128_2_1_1_2_0_0.lhsNonContracting by decide)]
  rfl
theorem lhs_agg_2 (i : S256x512x128.Idx) (q : dot_S256x512x512_S256x512x128_S256x512x128_2_1_1_2_0_0.contr.Idx) :
    (dot_S256x512x512_S256x512x128_S256x512x128_2_1_1_2_0_0.lhsIdx i q 2).val = (q ⟨0, by decide⟩).val :=
  dot_S256x512x512_S256x512x128_S256x512x128_2_1_1_2_0_0.lhsIdx_val_of_single rfl i q
theorem rhs_agg_0 (i : S256x512x128.Idx) (q : dot_S256x512x512_S256x512x128_S256x512x128_2_1_1_2_0_0.contr.Idx) :
    (dot_S256x512x512_S256x512x128_S256x512x128_2_1_1_2_0_0.rhsIdx i q 0).val = (i 0).val := by
  delta DotDims.rhsIdx
  rw [dif_pos (show (0 : Fin S256x512x128.rank) ∈ dot_S256x512x512_S256x512x128_S256x512x128_2_1_1_2_0_0.rhsBatch by decide)]
  rfl
theorem rhs_agg_1 (i : S256x512x128.Idx) (q : dot_S256x512x512_S256x512x128_S256x512x128_2_1_1_2_0_0.contr.Idx) :
    (dot_S256x512x512_S256x512x128_S256x512x128_2_1_1_2_0_0.rhsIdx i q 1).val = (q ⟨0, by decide⟩).val :=
  dot_S256x512x512_S256x512x128_S256x512x128_2_1_1_2_0_0.rhsIdx_val_of_single rfl i q
theorem rhs_agg_2 (i : S256x512x128.Idx) (q : dot_S256x512x512_S256x512x128_S256x512x128_2_1_1_2_0_0.contr.Idx) :
    (dot_S256x512x512_S256x512x128_S256x512x128_2_1_1_2_0_0.rhsIdx i q 2).val = (i 2).val := by
  delta DotDims.rhsIdx
  rw [dif_neg (show ¬(2 : Fin S256x512x128.rank) ∈ dot_S256x512x512_S256x512x128_S256x512x128_2_1_1_2_0_0.rhsBatch by decide),
    dif_pos (show (2 : Fin S256x512x128.rank) ∈ dot_S256x512x512_S256x512x128_S256x512x128_2_1_1_2_0_0.rhsNonContracting by decide)]
  rfl

/-- The aggregate at `(b, n, d)`: the sum over the neighbour `p` of its weight times its feature. -/
theorem dotAgg_apply (x : FVec Ideal S256x512x512 .f32) (y : FVec Ideal S256x512x128 .f32) (b : Fin 256) (n : Fin 512) (d : Fin 128) :
    Host.dotGeneral (F := Ideal) dot_S256x512x512_S256x512x128_S256x512x128_2_1_1_2_0_0 none x y (ix3 b n d)
      = ∑ p : Fin 512, x (ix3 b n p) * y (ix3 b p d) := by
  show FloatOps.dotGeneral _ _ _ x y (ix3 b n d) = _
  rw [Ideal.dotGeneral_apply,
    ← Equiv.sum_comp (contrEquiv1 dot_S256x512x512_S256x512x128_S256x512x128_2_1_1_2_0_0 512 rfl rfl).symm]
  refine Finset.sum_congr rfl fun k _ => ?_
  have hk := contrEquiv1_symm_val dot_S256x512x512_S256x512x128_S256x512x128_2_1_1_2_0_0 512 rfl rfl k
  have el : dot_S256x512x512_S256x512x128_S256x512x128_2_1_1_2_0_0.lhsIdx (ix3 b n d)
      ((contrEquiv1 dot_S256x512x512_S256x512x128_S256x512x128_2_1_1_2_0_0 512 rfl rfl).symm k) = ix3 b n k :=
    funext fun a => Fin.ext (by
      match a with
      | ⟨0, _⟩ => exact lhs_agg_0 _ _
      | ⟨1, _⟩ => exact lhs_agg_1 _ _
      | ⟨2, _⟩ => exact (lhs_agg_2 _ _).trans hk)
  have er : dot_S256x512x512_S256x512x128_S256x512x128_2_1_1_2_0_0.rhsIdx (ix3 b n d)
      ((contrEquiv1 dot_S256x512x512_S256x512x128_S256x512x128_2_1_1_2_0_0 512 rfl rfl).symm k) = ix3 b k d :=
    funext fun a => Fin.ext (by
      match a with
      | ⟨0, _⟩ => exact rhs_agg_0 _ _
      | ⟨1, _⟩ => exact (rhs_agg_1 _ _).trans hk
      | ⟨2, _⟩ => exact rhs_agg_2 _ _)
  rw [el, er]

/-! ### The three plain matrix products over flattened rows -/

theorem lhs_w1_0 (i : S131072x64.Idx) (q : dot_S131072x256_S256x64_S131072x64_1_0_0_1_n_n.contr.Idx) :
    (dot_S131072x256_S256x64_S131072x64_1_0_0_1_n_n.lhsIdx i q 0).val = (i 0).val := by
  delta DotDims.lhsIdx
  rw [dif_neg (show ¬(0 : Fin S131072x256.rank) ∈ dot_S131072x256_S256x64_S131072x64_1_0_0_1_n_n.lhsBatch by decide),
    dif_pos (show (0 : Fin S131072x256.rank) ∈ dot_S131072x256_S256x64_S131072x64_1_0_0_1_n_n.lhsNonContracting by decide)]
  rfl
theorem lhs_w1_1 (i : S131072x64.Idx) (q : dot_S131072x256_S256x64_S131072x64_1_0_0_1_n_n.contr.Idx) :
    (dot_S131072x256_S256x64_S131072x64_1_0_0_1_n_n.lhsIdx i q 1).val = (q ⟨0, by decide⟩).val :=
  dot_S131072x256_S256x64_S131072x64_1_0_0_1_n_n.lhsIdx_val_of_single rfl i q
theorem rhs_w1_0 (i : S131072x64.Idx) (q : dot_S131072x256_S256x64_S131072x64_1_0_0_1_n_n.contr.Idx) :
    (dot_S131072x256_S256x64_S131072x64_1_0_0_1_n_n.rhsIdx i q 0).val = (q ⟨0, by decide⟩).val :=
  dot_S131072x256_S256x64_S131072x64_1_0_0_1_n_n.rhsIdx_val_of_single rfl i q
theorem rhs_w1_1 (i : S131072x64.Idx) (q : dot_S131072x256_S256x64_S131072x64_1_0_0_1_n_n.contr.Idx) :
    (dot_S131072x256_S256x64_S131072x64_1_0_0_1_n_n.rhsIdx i q 1).val = (i 1).val := by
  delta DotDims.rhsIdx
  rw [dif_neg (show ¬(1 : Fin S256x64.rank) ∈ dot_S131072x256_S256x64_S131072x64_1_0_0_1_n_n.rhsBatch by decide),
    dif_pos (show (1 : Fin S256x64.rank) ∈ dot_S131072x256_S256x64_S131072x64_1_0_0_1_n_n.rhsNonContracting by decide)]
  rfl

/-- The first layer's product at `(r, j)`: the sum over the 256 concatenated features. -/
theorem dotW1_apply (x : FVec Ideal S131072x256 .f32) (w : FVec Ideal S256x64 .f32) (r : Fin 131072) (j : Fin 64) :
    Host.dotGeneral (F := Ideal) dot_S131072x256_S256x64_S131072x64_1_0_0_1_n_n none x w (ix2 r j)
      = ∑ e : Fin 256, x (ix2 r e) * w (ix2 e j) := by
  show FloatOps.dotGeneral _ _ _ x w (ix2 r j) = _
  rw [Ideal.dotGeneral_apply,
    ← Equiv.sum_comp (contrEquiv1 dot_S131072x256_S256x64_S131072x64_1_0_0_1_n_n 256 rfl rfl).symm]
  refine Finset.sum_congr rfl fun k _ => ?_
  have hk := contrEquiv1_symm_val dot_S131072x256_S256x64_S131072x64_1_0_0_1_n_n 256 rfl rfl k
  have el : dot_S131072x256_S256x64_S131072x64_1_0_0_1_n_n.lhsIdx (ix2 r j)
      ((contrEquiv1 dot_S131072x256_S256x64_S131072x64_1_0_0_1_n_n 256 rfl rfl).symm k) = ix2 r k :=
    funext fun a => Fin.ext (by
      match a with
      | ⟨0, _⟩ => exact lhs_w1_0 _ _
      | ⟨1, _⟩ => exact (lhs_w1_1 _ _).trans hk)
  have er : dot_S131072x256_S256x64_S131072x64_1_0_0_1_n_n.rhsIdx (ix2 r j)
      ((contrEquiv1 dot_S131072x256_S256x64_S131072x64_1_0_0_1_n_n 256 rfl rfl).symm k) = ix2 k j :=
    funext fun a => Fin.ext (by
      match a with
      | ⟨0, _⟩ => exact (rhs_w1_0 _ _).trans hk
      | ⟨1, _⟩ => exact rhs_w1_1 _ _)
  rw [el, er]

theorem lhs_w2_0 (i : S131072x64.Idx) (q : dot_S131072x64_S64x64_S131072x64_1_0_0_1_n_n.contr.Idx) :
    (dot_S131072x64_S64x64_S131072x64_1_0_0_1_n_n.lhsIdx i q 0).val = (i 0).val := by
  delta DotDims.lhsIdx
  rw [dif_neg (show ¬(0 : Fin S131072x64.rank) ∈ dot_S131072x64_S64x64_S131072x64_1_0_0_1_n_n.lhsBatch by decide),
    dif_pos (show (0 : Fin S131072x64.rank) ∈ dot_S131072x64_S64x64_S131072x64_1_0_0_1_n_n.lhsNonContracting by decide)]
  rfl
theorem lhs_w2_1 (i : S131072x64.Idx) (q : dot_S131072x64_S64x64_S131072x64_1_0_0_1_n_n.contr.Idx) :
    (dot_S131072x64_S64x64_S131072x64_1_0_0_1_n_n.lhsIdx i q 1).val = (q ⟨0, by decide⟩).val :=
  dot_S131072x64_S64x64_S131072x64_1_0_0_1_n_n.lhsIdx_val_of_single rfl i q
theorem rhs_w2_0 (i : S131072x64.Idx) (q : dot_S131072x64_S64x64_S131072x64_1_0_0_1_n_n.contr.Idx) :
    (dot_S131072x64_S64x64_S131072x64_1_0_0_1_n_n.rhsIdx i q 0).val = (q ⟨0, by decide⟩).val :=
  dot_S131072x64_S64x64_S131072x64_1_0_0_1_n_n.rhsIdx_val_of_single rfl i q
theorem rhs_w2_1 (i : S131072x64.Idx) (q : dot_S131072x64_S64x64_S131072x64_1_0_0_1_n_n.contr.Idx) :
    (dot_S131072x64_S64x64_S131072x64_1_0_0_1_n_n.rhsIdx i q 1).val = (i 1).val := by
  delta DotDims.rhsIdx
  rw [dif_neg (show ¬(1 : Fin S64x64.rank) ∈ dot_S131072x64_S64x64_S131072x64_1_0_0_1_n_n.rhsBatch by decide),
    dif_pos (show (1 : Fin S64x64.rank) ∈ dot_S131072x64_S64x64_S131072x64_1_0_0_1_n_n.rhsNonContracting by decide)]
  rfl

/-- The second layer's product at `(r, k)`. -/
theorem dotW2_apply (x : FVec Ideal S131072x64 .f32) (w : FVec Ideal S64x64 .f32) (r : Fin 131072) (k : Fin 64) :
    Host.dotGeneral (F := Ideal) dot_S131072x64_S64x64_S131072x64_1_0_0_1_n_n none x w (ix2 r k)
      = ∑ i : Fin 64, x (ix2 r i) * w (ix2 i k) := by
  show FloatOps.dotGeneral _ _ _ x w (ix2 r k) = _
  rw [Ideal.dotGeneral_apply,
    ← Equiv.sum_comp (contrEquiv1 dot_S131072x64_S64x64_S131072x64_1_0_0_1_n_n 64 rfl rfl).symm]
  refine Finset.sum_congr rfl fun c _ => ?_
  have hk := contrEquiv1_symm_val dot_S131072x64_S64x64_S131072x64_1_0_0_1_n_n 64 rfl rfl c
  have el : dot_S131072x64_S64x64_S131072x64_1_0_0_1_n_n.lhsIdx (ix2 r k)
      ((contrEquiv1 dot_S131072x64_S64x64_S131072x64_1_0_0_1_n_n 64 rfl rfl).symm c) = ix2 r c :=
    funext fun a => Fin.ext (by
      match a with
      | ⟨0, _⟩ => exact lhs_w2_0 _ _
      | ⟨1, _⟩ => exact (lhs_w2_1 _ _).trans hk)
  have er : dot_S131072x64_S64x64_S131072x64_1_0_0_1_n_n.rhsIdx (ix2 r k)
      ((contrEquiv1 dot_S131072x64_S64x64_S131072x64_1_0_0_1_n_n 64 rfl rfl).symm c) = ix2 c k :=
    funext fun a => Fin.ext (by
      match a with
      | ⟨0, _⟩ => exact (rhs_w2_0 _ _).trans hk
      | ⟨1, _⟩ => exact rhs_w2_1 _ _)
  rw [el, er]

theorem lhs_wo_0 (i : S131072x16.Idx) (q : dot_S131072x64_S64x16_S131072x16_1_0_0_1_n_n.contr.Idx) :
    (dot_S131072x64_S64x16_S131072x16_1_0_0_1_n_n.lhsIdx i q 0).val = (i 0).val := by
  delta DotDims.lhsIdx
  rw [dif_neg (show ¬(0 : Fin S131072x64.rank) ∈ dot_S131072x64_S64x16_S131072x16_1_0_0_1_n_n.lhsBatch by decide),
    dif_pos (show (0 : Fin S131072x64.rank) ∈ dot_S131072x64_S64x16_S131072x16_1_0_0_1_n_n.lhsNonContracting by decide)]
  rfl
theorem lhs_wo_1 (i : S131072x16.Idx) (q : dot_S131072x64_S64x16_S131072x16_1_0_0_1_n_n.contr.Idx) :
    (dot_S131072x64_S64x16_S131072x16_1_0_0_1_n_n.lhsIdx i q 1).val = (q ⟨0, by decide⟩).val :=
  dot_S131072x64_S64x16_S131072x16_1_0_0_1_n_n.lhsIdx_val_of_single rfl i q
theorem rhs_wo_0 (i : S131072x16.Idx) (q : dot_S131072x64_S64x16_S131072x16_1_0_0_1_n_n.contr.Idx) :
    (dot_S131072x64_S64x16_S131072x16_1_0_0_1_n_n.rhsIdx i q 0).val = (q ⟨0, by decide⟩).val :=
  dot_S131072x64_S64x16_S131072x16_1_0_0_1_n_n.rhsIdx_val_of_single rfl i q
theorem rhs_wo_1 (i : S131072x16.Idx) (q : dot_S131072x64_S64x16_S131072x16_1_0_0_1_n_n.contr.Idx) :
    (dot_S131072x64_S64x16_S131072x16_1_0_0_1_n_n.rhsIdx i q 1).val = (i 1).val := by
  delta DotDims.rhsIdx
  rw [dif_neg (show ¬(1 : Fin S64x16.rank) ∈ dot_S131072x64_S64x16_S131072x16_1_0_0_1_n_n.rhsBatch by decide),
    dif_pos (show (1 : Fin S64x16.rank) ∈ dot_S131072x64_S64x16_S131072x16_1_0_0_1_n_n.rhsNonContracting by decide)]
  rfl

/-- The output layer's product at `(r, a)`. -/
theorem dotWo_apply (x : FVec Ideal S131072x64 .f32) (w : FVec Ideal S64x16 .f32) (r : Fin 131072) (a : Fin 16) :
    Host.dotGeneral (F := Ideal) dot_S131072x64_S64x16_S131072x16_1_0_0_1_n_n none x w (ix2 r a)
      = ∑ i : Fin 64, x (ix2 r i) * w (ix2 i a) := by
  show FloatOps.dotGeneral _ _ _ x w (ix2 r a) = _
  rw [Ideal.dotGeneral_apply,
    ← Equiv.sum_comp (contrEquiv1 dot_S131072x64_S64x16_S131072x16_1_0_0_1_n_n 64 rfl rfl).symm]
  refine Finset.sum_congr rfl fun c _ => ?_
  have hk := contrEquiv1_symm_val dot_S131072x64_S64x16_S131072x16_1_0_0_1_n_n 64 rfl rfl c
  have el : dot_S131072x64_S64x16_S131072x16_1_0_0_1_n_n.lhsIdx (ix2 r a)
      ((contrEquiv1 dot_S131072x64_S64x16_S131072x16_1_0_0_1_n_n 64 rfl rfl).symm c) = ix2 r c :=
    funext fun ax => Fin.ext (by
      match ax with
      | ⟨0, _⟩ => exact lhs_wo_0 _ _
      | ⟨1, _⟩ => exact (lhs_wo_1 _ _).trans hk)
  have er : dot_S131072x64_S64x16_S131072x16_1_0_0_1_n_n.rhsIdx (ix2 r a)
      ((contrEquiv1 dot_S131072x64_S64x16_S131072x16_1_0_0_1_n_n 64 rfl rfl).symm c) = ix2 c a :=
    funext fun ax => Fin.ext (by
      match ax with
      | ⟨0, _⟩ => exact (rhs_wo_0 _ _).trans hk
      | ⟨1, _⟩ => exact rhs_wo_1 _ _)
  rw [el, er]

/-! ## The two reductions, from a zero initial value -/

/-- The attention row sum at `(b, n)`: the sum over the neighbour coordinate. -/
theorem rowSum_apply (x : FVec Ideal S256x512x512 .f32) (b : Fin 256) (n : Fin 512) :
    Host.reduceAdd (F := Ideal) x (constant (F := Ideal) S_ .f32 0x00000000#32) reducesTo_S256x512x512_S256x512_d2 h_S_ (ix2 b n)
      = ∑ p : Fin 512, x (ix3 b n p) := by
  rw [hostReduceAdd_apply, Ideal.hostReduceAdd_single reducesTo_S256x512x512_S256x512_d2 (by decide), constant_apply,
    Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- A column sum over all rows at `j`. -/
theorem colSum_apply (x : FVec Ideal S131072x64 .f32) (j : Fin 64) :
    Host.reduceAdd (F := Ideal) x (constant (F := Ideal) S_ .f32 0x00000000#32) reducesTo_S131072x64_S64_d0 h_S_ (ix1 j)
      = ∑ r : Fin 131072, x (ix2 r j) := by
  rw [hostReduceAdd_apply, Ideal.hostReduceAdd_single reducesTo_S131072x64_S64_d0 (by decide), constant_apply,
    Ideal.ofBits_zero_f32, zero_add]
  refine Finset.sum_congr rfl fun k _ => ?_
  exact congrArg x (funext fun a => Fin.ext (by match a with | ⟨0, _⟩ => rfl | ⟨1, _⟩ => rfl))

/-! ## Broadcasts read at an index -/

variable {α : Type}

/-- `[256,512] → [256,512,1]`: the kept coordinates. -/
theorem bcastKeep_apply (v : S256x512.Idx → α) (b : Fin 256) (n : Fin 512) (z : Fin 1) :
    broadcastInDim S256x512x1 ![0, 1] bcast_S256x512_S256x512x1_0_1 v (ix3 b n z) = v (ix2 b n) :=
  broadcastInDim_apply _ _ v (ix3 b n z) (ix2 b n) (fun a => by match a with | ⟨0, _⟩ => rfl | ⟨1, _⟩ => rfl)

/-- `[256,512,1] → [256,512,512]`: the unit axis read at zero. -/
theorem bcastLast_apply (v : S256x512x1.Idx → α) (b : Fin 256) (n p : Fin 512) :
    broadcastInDim S256x512x512 ![0, 1, 2] bcast_S256x512x1_S256x512x512_0_1_2 v (ix3 b n p) = v (ix3 b n (0 : Fin 1)) :=
  broadcastInDim_apply _ _ v (ix3 b n p) (ix3 b n (0 : Fin 1))
    (fun a => by match a with | ⟨0, _⟩ => rfl | ⟨1, _⟩ => rfl | ⟨2, _⟩ => rfl)

/-- `[64] → [1,64]`. -/
theorem bcastRow64_apply (v : S64.Idx → α) (z : Fin 1) (j : Fin 64) :
    broadcastInDim S1x64 ![1] bcast_S64_S1x64_1 v (ix2 z j) = v (ix1 j) :=
  broadcastInDim_apply _ _ v (ix2 z j) (ix1 j) (fun a => by match a with | ⟨0, _⟩ => rfl)

/-- `[1,64] → [131072,64]`: the one row, in every row. -/
theorem bcastRows64_apply (v : S1x64.Idx → α) (r : Fin 131072) (j : Fin 64) :
    broadcastInDim S131072x64 ![0, 1] bcast_S1x64_S131072x64_0_1 v (ix2 r j) = v (ix2 (0 : Fin 1) j) :=
  broadcastInDim_apply _ _ v (ix2 r j) (ix2 (0 : Fin 1) j) (fun a => by match a with | ⟨0, _⟩ => rfl | ⟨1, _⟩ => rfl)

/-- `[16] → [1,16]`. -/
theorem bcastRow16_apply (v : S16.Idx → α) (z : Fin 1) (a : Fin 16) :
    broadcastInDim S1x16 ![1] bcast_S16_S1x16_1 v (ix2 z a) = v (ix1 a) :=
  broadcastInDim_apply _ _ v (ix2 z a) (ix1 a) (fun ax => by match ax with | ⟨0, _⟩ => rfl)

/-- `[1,16] → [131072,16]`. -/
theorem bcastRows16_apply (v : S1x16.Idx → α) (r : Fin 131072) (a : Fin 16) :
    broadcastInDim S131072x16 ![0, 1] bcast_S1x16_S131072x16_0_1 v (ix2 r a) = v (ix2 (0 : Fin 1) a) :=
  broadcastInDim_apply _ _ v (ix2 r a) (ix2 (0 : Fin 1) a) (fun ax => by match ax with | ⟨0, _⟩ => rfl | ⟨1, _⟩ => rfl)

/-! ### The broadcasts as named functions

Each broadcast used by the reference is one fixed re-indexing of its operand; naming it lets a whole array be
rewritten at once, and read at an index afterwards. -/

/-- A scalar in every entry. -/
def splat (T : Shape) (x : S_.Idx → α) : T.Idx → α := fun _ => x ix0
theorem splat_apply (T : Shape) (x : S_.Idx → α) (i : T.Idx) : splat T x i = x ix0 := rfl
theorem bcastScalar_fn (T : Shape) (h : S_.BroadcastsInDim T ![]) (x : S_.Idx → α) :
    broadcastInDim T ![] h x = splat T x :=
  funext fun j => broadcastInDim_scalar_apply h x j

/-- `[256,512] → [256,512,1]`. -/
def keepDim (v : S256x512.Idx → α) : S256x512x1.Idx → α := fun i => v (ix2 (i 0) (i 1))
theorem keepDim_apply (v : S256x512.Idx → α) (b : Fin 256) (n : Fin 512) (z : Fin 1) :
    keepDim v (ix3 b n z) = v (ix2 b n) := rfl
theorem bcastKeep_fn (v : S256x512.Idx → α) :
    broadcastInDim S256x512x1 ![0, 1] bcast_S256x512_S256x512x1_0_1 v = keepDim v := by
  funext i
  obtain ⟨b, n, z, rfl⟩ : ∃ (b : Fin 256) (n : Fin 512) (z : Fin 1), i = ix3 b n z := ⟨i 0, i 1, i 2, eq_ix3 i⟩
  exact bcastKeep_apply v b n z

/-- `[256,512,1] → [256,512,512]`. -/
def alongLast (v : S256x512x1.Idx → α) : S256x512x512.Idx → α := fun i => v (ix3 (i 0) (i 1) (0 : Fin 1))
theorem alongLast_apply (v : S256x512x1.Idx → α) (b : Fin 256) (n p : Fin 512) :
    alongLast v (ix3 b n p) = v (ix3 b n (0 : Fin 1)) := rfl
theorem bcastLast_fn (v : S256x512x1.Idx → α) :
    broadcastInDim S256x512x512 ![0, 1, 2] bcast_S256x512x1_S256x512x512_0_1_2 v = alongLast v := by
  funext i
  obtain ⟨b, n, p, rfl⟩ : ∃ (b : Fin 256) (n p : Fin 512), i = ix3 b n p := ⟨i 0, i 1, i 2, eq_ix3 i⟩
  exact bcastLast_apply v b n p

/-- `[64] → [1,64] → [131072,64]`: a row vector in every row. -/
def everyRow64 (v : S64.Idx → α) : S131072x64.Idx → α := fun i => v (ix1 (i 1))
theorem everyRow64_apply (v : S64.Idx → α) (r : Fin 131072) (j : Fin 64) : everyRow64 v (ix2 r j) = v (ix1 j) := rfl
theorem bcastRows64_fn (v : S64.Idx → α) :
    broadcastInDim S131072x64 ![0, 1] bcast_S1x64_S131072x64_0_1 (broadcastInDim S1x64 ![1] bcast_S64_S1x64_1 v) = everyRow64 v := by
  funext i
  obtain ⟨r, j, rfl⟩ : ∃ (r : Fin 131072) (j : Fin 64), i = ix2 r j := ⟨i 0, i 1, eq_ix2 i⟩
  rw [bcastRows64_apply, bcastRow64_apply]
  rfl

/-- `[1,64] → [131072,64]`: the one row of a one-row matrix in every row. -/
def oneRow64 (v : S1x64.Idx → α) : S131072x64.Idx → α := fun i => v (ix2 (0 : Fin 1) (i 1))
theorem oneRow64_apply (v : S1x64.Idx → α) (r : Fin 131072) (j : Fin 64) : oneRow64 v (ix2 r j) = v (ix2 (0 : Fin 1) j) := rfl
theorem bcastOneRow64_fn (v : S1x64.Idx → α) :
    broadcastInDim S131072x64 ![0, 1] bcast_S1x64_S131072x64_0_1 v = oneRow64 v := by
  funext i
  obtain ⟨r, j, rfl⟩ : ∃ (r : Fin 131072) (j : Fin 64), i = ix2 r j := ⟨i 0, i 1, eq_ix2 i⟩
  exact bcastRows64_apply v r j

/-- `[64] → [1,64]`. -/
def asRow64 (v : S64.Idx → α) : S1x64.Idx → α := fun i => v (ix1 (i 1))
theorem asRow64_apply (v : S64.Idx → α) (z : Fin 1) (j : Fin 64) : asRow64 v (ix2 z j) = v (ix1 j) := rfl
theorem bcastRow64_fn (v : S64.Idx → α) : broadcastInDim S1x64 ![1] bcast_S64_S1x64_1 v = asRow64 v := by
  funext i
  obtain ⟨z, j, rfl⟩ : ∃ (z : Fin 1) (j : Fin 64), i = ix2 z j := ⟨i 0, i 1, eq_ix2 i⟩
  exact bcastRow64_apply v z j

/-- `[16] → [1,16] → [131072,16]`. -/
def everyRow16 (v : S16.Idx → α) : S131072x16.Idx → α := fun i => v (ix1 (i 1))
theorem everyRow16_apply (v : S16.Idx → α) (r : Fin 131072) (a : Fin 16) : everyRow16 v (ix2 r a) = v (ix1 a) := rfl
theorem bcastRows16_fn (v : S16.Idx → α) :
    broadcastInDim S131072x16 ![0, 1] bcast_S1x16_S131072x16_0_1 (broadcastInDim S1x16 ![1] bcast_S16_S1x16_1 v) = everyRow16 v := by
  funext i
  obtain ⟨r, a, rfl⟩ : ∃ (r : Fin 131072) (a : Fin 16), i = ix2 r a := ⟨i 0, i 1, eq_ix2 i⟩
  rw [bcastRows16_apply, bcastRow16_apply]
  rfl

/-! ## The concatenation along the feature axis, and the two reshapes -/

/-- `[s, agg]` at feature `e`: below 128 the first piece, from 128 on the second at `e − 128`. -/
theorem concat_apply (x₁ x₂ : S256x512x128.Idx → α) (b : Fin 256) (n : Fin 512) (e : Fin 256) :
    concatenate S256x512x256 2 [⟨S256x512x128, x₁⟩, ⟨S256x512x128, x₂⟩] concatenates_S256x512x128_S256x512x128_S256x512x256_d2 (ix3 b n e)
      = if h : e.val < 128 then x₁ (ix3 b n ⟨e.val, h⟩) else x₂ (ix3 b n ⟨e.val - 128, by omega⟩) := by
  by_cases h : e.val < 128
  · rw [dif_pos h]
    exact concatenate_pair_apply_left 2 x₁ x₂ _ (ix3 b n e) rfl (ix3 b n ⟨e.val, h⟩)
      (fun a => by match a with | ⟨0, _⟩ => rfl | ⟨1, _⟩ => rfl | ⟨2, _⟩ => rfl)
  · rw [dif_neg h]
    refine concatenate_pair_apply_right 2 x₁ x₂ _ (ix3 b n e) rfl rfl (ix3 b n ⟨e.val - 128, by omega⟩) (fun a ha => ?_) ?_
    · match a with
      | ⟨0, _⟩ => rfl
      | ⟨1, _⟩ => rfl
      | ⟨2, _⟩ => exact absurd rfl ha
    · show (e.val - 128) + 128 = e.val
      omega

/-- `[256,512,256] → [131072,256]`: row `r` is position `r % 512` of batch `r / 512`. -/
theorem flatten_apply (v : S256x512x256.Idx → α) (r : Fin 131072) (e : Fin 256) :
    shapeCast S131072x256 v shapeCasts_S256x512x256_S131072x256 (ix2 r e) = v (ix3 (Cert.Spec.rowB r) (Cert.Spec.rowN r) e) :=
  shapeCast_apply v _ (ix2 r e) (ix3 (Cert.Spec.rowB r) (Cert.Spec.rowN r) e) (by
    rw [Shape.rowMajor_val_three, Shape.rowMajor_val_two]
    show (r.val / 512 * 512 + r.val % 512) * 256 + e.val = r.val * 256 + e.val
    omega)

/-- `[131072,16] → [256,512,16]`: position `n` of batch `b` is row `b * 512 + n`. -/
theorem unflatten_apply (v : S131072x16.Idx → α) (b : Fin 256) (n : Fin 512) (a : Fin 16) :
    shapeCast S256x512x16 v shapeCasts_S131072x16_S256x512x16 (ix3 b n a) = v (ix2 (Cert.Spec.rowOf b n) a) :=
  shapeCast_apply v _ (ix3 b n a) (ix2 (Cert.Spec.rowOf b n) a) (by
    rw [Shape.rowMajor_val_three, Shape.rowMajor_val_two]
    show (b.val * 512 + n.val) * 16 + a.val = (b.val * 512 + n.val) * 16 + a.val
    rfl)

/-! ## Pointwise host operations read at an index -/

section Pointwise
variable {s : Shape} {φ : FTy}

/-- The host's inverse square root at an index. -/
theorem hostRsqrt_apply (a : FVec Ideal s φ) (i : s.Idx) : Host.rsqrt a i = Ideal.rsqrt (a i) := rfl
/-- The host's exponential at an index. -/
theorem hostExp_apply (a : FVec Ideal s φ) (i : s.Idx) : Host.exp a i = Ideal.exp (a i) := rfl
/-- The host's negation at an index. -/
theorem hostNegf_apply (a : FVec Ideal s φ) (i : s.Idx) : Host.negf a i = -(a i) := rfl

end Pointwise

/-! ## The stages -/

open Cert.ReferenceIdeal.Term

/-- The first layer at row `r`, column `j`: attention inside the row's batch, the concatenated features against the
    weight matrix, the bias. -/
theorem tH1_apply (a0 : FVec Ideal S256x512x128 .f32) (a1 : FVec Ideal S256x512x512 .f32) (a2 a3 : FVec Ideal S128x32 .f32)
    (a4 : FVec Ideal S256x64 .f32) (a5 : FVec Ideal S64 .f32) (r : Fin 131072) (j : Fin 64) :
    tH1 (F := Ideal) a0 a1 a2 a3 a4 a5 (ix2 r j)
      = Cert.Spec.h1 (fun b n d => a0 (ix3 b n d)) (fun b n p => a1 (ix3 b n p)) (fun d m => a2 (ix2 d m))
          (fun d m => a3 (ix2 d m)) (fun e j => a4 (ix2 e j)) (fun j => a5 (ix1 j)) (Cert.Spec.rowB r) (Cert.Spec.rowN r) j := by
  delta tH1
  dsimp only
  rw [bcastRows64_fn, bcastLast_fn, bcastKeep_fn, bcastScalar_fn]
  simp only [addf_apply, mulf_apply, hostDivf_apply, dotW1_apply, flatten_apply, concat_apply, dotAgg_apply,
    alongLast_apply, keepDim_apply, splat_apply, constant_apply, rowSum_apply, dotQK_apply, dotProj_apply, everyRow64_apply]
  rfl

/-- The column mean at `j`. -/
theorem tMean_apply (x : FVec Ideal S131072x64 .f32) (j : Fin 64) :
    tMean (F := Ideal) x (ix1 j) = Cert.Spec.mean (fun r j => x (ix2 r j)) j := by
  delta tMean
  dsimp only
  rw [hostDivf_apply, colSum_apply, broadcastInDim_scalar_apply, constant_apply]
  rfl

/-- The variance's divisor: the row count less the integer zero read as a float. -/
theorem cN_sub_zero :
    Ideal.ofBits .f32 0x48000000#32 - FloatOps.sitofp (F := Ideal) .f32 (0#32 : BitVec 32) = Cert.Spec.cN := by
  show Cert.Spec.cN - ((((0#32 : BitVec 32).toInt : ℝ)) : EReal) = Cert.Spec.cN
  rw [BitVec.toInt_zero, Int.cast_zero, EReal.coe_zero, sub_zero]

/-- The guard of the variance's quotient holds: the row count is positive. -/
theorem cmp_cN_pos : FloatOps.cmpf (F := Ideal) (φ := .f32) .ogt Cert.Spec.cN (0 : EReal) = 1#1 := by
  show BitVec.ofBool (decide ((0 : EReal) < Cert.Spec.cN)) = 1#1
  rw [decide_eq_true Cert.Spec.cN_pos]
  rfl

/-- The variance at `j`: the mean of squared deviations from the column mean; the guarded quotient is the quotient. -/
theorem tVar_apply (x : FVec Ideal S131072x64 .f32) (j : Fin 64) :
    tVar (F := Ideal) x (ix1 j) = Cert.Spec.varR (fun r j => x (ix2 r j)) j := by
  delta tVar
  dsimp only
  rw [bcastOneRow64_fn, bcastRow64_fn]
  repeat rw [bcastScalar_fn]
  simp only [select_apply, splat_apply, cmpf_apply, subf_apply, mulf_apply, constant_apply, sitofp_apply,
    constantI_apply, hostDivf_apply, colSum_apply, oneRow64_apply, asRow64_apply, cN_sub_zero, Ideal.ofBits_zero_f32,
    cmp_cN_pos, select_one]
  rfl

/-- Normalisation, scale, shift and the clamp at zero, at `(r, j)`. -/
theorem tBnRelu_apply (x : FVec Ideal S131072x64 .f32) (gam bet : FVec Ideal S64 .f32) (r : Fin 131072) (j : Fin 64) :
    tBnRelu (F := Ideal) x gam bet (ix2 r j)
      = Cert.Spec.bnRelu (Cert.Spec.mean (fun r j => x (ix2 r j))) (Cert.Spec.varR (fun r j => x (ix2 r j)))
          (fun j => gam (ix1 j)) (fun j => bet (ix1 j)) (fun r j => x (ix2 r j)) r j := by
  delta tBnRelu
  dsimp only
  repeat rw [bcastRows64_fn]
  repeat rw [bcastScalar_fn]
  simp only [maximumf_apply, addf_apply, mulf_apply, subf_apply, hostRsqrt_apply, everyRow64_apply, splat_apply,
    constant_apply, tMean_apply, tVar_apply, Ideal.ofBits_zero_f32]
  rfl

/-- The linear layer of width 64 at `(r, k)`. -/
theorem tLin64_apply (x : FVec Ideal S131072x64 .f32) (w : FVec Ideal S64x64 .f32) (b : FVec Ideal S64 .f32)
    (r : Fin 131072) (k : Fin 64) :
    tLin64 (F := Ideal) x w b (ix2 r k)
      = Cert.Spec.lin (fun r i => x (ix2 r i)) (fun i k => w (ix2 i k)) (fun k => b (ix1 k)) r k := by
  delta tLin64
  dsimp only
  rw [addf_apply, dotW2_apply, bcastRows64_apply, bcastRow64_apply]
  rfl

/-- The output at `(b, n, a)`: the logistic function of the output layer at row `b * 512 + n`. -/
theorem tOut_apply (x : FVec Ideal S131072x64 .f32) (wo : FVec Ideal S64x16 .f32) (bo : FVec Ideal S16 .f32)
    (b : Fin 256) (n : Fin 512) (a : Fin 16) :
    tOut (F := Ideal) x wo bo (ix3 b n a)
      = Ideal.logistic (Cert.Spec.lin (fun r i => x (ix2 r i)) (fun i a => wo (ix2 i a)) (fun a => bo (ix1 a))
          (Cert.Spec.rowOf b n) a) := by
  delta tOut
  dsimp only
  rw [bcastRows16_fn, bcastScalar_fn]
  simp only [unflatten_apply, hostDivf_apply, addf_apply, hostExp_apply, hostNegf_apply, splat_apply,
    constant_apply, dotWo_apply, everyRow16_apply, Ideal.ofBits_one_f32]
  rfl

/-! ## The whole reference -/

/-- The reference's result, index by index, is the formula with the variance as the mean of squared deviations. -/
theorem refOut_eq (a0 : FVec Ideal S256x512x128 .f32) (a1 : FVec Ideal S256x512x512 .f32) (a2 a3 : FVec Ideal S128x32 .f32)
    (a4 : FVec Ideal S256x64 .f32) (a5 a6 a7 : FVec Ideal S64 .f32) (a8 : FVec Ideal S64x64 .f32)
    (a9 a10 a11 : FVec Ideal S64 .f32) (a12 : FVec Ideal S64x16 .f32) (a13 : FVec Ideal S16 .f32) :
    Cert.ReferenceIdeal.Term.refOut (F := Ideal) a0 a1 a2 a3 a4 a5 a6 a7 a8 a9 a10 a11 a12 a13
      = fun i => Cert.Spec.outR (Cert.Spec.inputsOf a0 a1 a2 a3 a4 a5 a6 a7 a8 a9 a10 a11 a12 a13) (i 0) (i 1) (i 2) := by
  have hH1 : (fun r j => tH1 (F := Ideal) a0 a1 a2 a3 a4 a5 (ix2 r j))
      = Cert.Spec.H1 (Cert.Spec.inputsOf a0 a1 a2 a3 a4 a5 a6 a7 a8 a9 a10 a11 a12 a13) := by
    funext r j
    rw [tH1_apply]
    rfl
  have hA1 : (fun r j => tBnRelu (F := Ideal) (tH1 a0 a1 a2 a3 a4 a5) a6 a7 (ix2 r j))
      = Cert.Spec.A1R (Cert.Spec.inputsOf a0 a1 a2 a3 a4 a5 a6 a7 a8 a9 a10 a11 a12 a13) := by
    funext r j
    rw [tBnRelu_apply, hH1]
    rfl
  have hH2 : (fun r k => tLin64 (F := Ideal) (tBnRelu (tH1 a0 a1 a2 a3 a4 a5) a6 a7) a8 a9 (ix2 r k))
      = Cert.Spec.H2R (Cert.Spec.inputsOf a0 a1 a2 a3 a4 a5 a6 a7 a8 a9 a10 a11 a12 a13) := by
    funext r k
    rw [tLin64_apply, hA1]
    rfl
  have hA2 : (fun r j => tBnRelu (F := Ideal) (tLin64 (tBnRelu (tH1 a0 a1 a2 a3 a4 a5) a6 a7) a8 a9) a10 a11 (ix2 r j))
      = Cert.Spec.A2R (Cert.Spec.inputsOf a0 a1 a2 a3 a4 a5 a6 a7 a8 a9 a10 a11 a12 a13) := by
    funext r j
    rw [tBnRelu_apply, hH2]
    rfl
  funext i
  obtain ⟨b, n, a, rfl⟩ : ∃ (b : Fin 256) (n : Fin 512) (a : Fin 16), i = ix3 b n a := ⟨i 0, i 1, i 2, eq_ix3 i⟩
  delta refOut
  rw [tOut_apply, hA2]
  rfl

end Cert.ReferenceIdeal.Read

end
-- ==== Proof.lean ====
/-
  The certificate: a three-pass graph-attention network with two batch normalisations, as three pipelined kernels,
  against its plain array-program reference, over the extended reals.

  Both programs compute, per batch, the squared dot-product attention `att = score / (Σ_p score + 0.001)` with
  `score = (s·qw (s·kw)ᵀ)² ⊙ g`, aggregate `att·s`, and apply `[s, agg]·w1 + b1`; then twice: normalise every
  column of the 131072 × 64 matrix by its mean and variance over ALL rows, scale, shift, clamp at zero, multiply by
  the next weight matrix; last the logistic function. The kernels obtain a column's variance from running sums,
  `(Σ h²)/N − ((Σ h)/N)²`, carried across the grid; the reference from the centred squares, `(Σ (h − μ)²)/N`. On real
  numbers these are one value, and every entry IS a real number when the inputs are and no attention denominator is
  zero — which is the precondition (a zero denominator would put an infinity into a column, where the two
  spellings differ). Sums in another order, another tiling, matrix products against sums of products, and
  format changes are equalities on the extended reals outright.

  Modules: `Spec` (the mathematics, index by index), `Algebra` (real-valuedness and the two variances agree),
  `PreRead` (the precondition read), `KRun` / `KRegion0` / `KRegion1` / `KRegion2` / `KValue` (the kernel program's
  result array as `Spec.outK` of its arguments), `RTerm` / `RRun` / `RRead` (the reference's as `Spec.outR`).
-/
import proofs.«127264_j6760278524113_1_alg».proof.Defs
import proofs.«127264_j6760278524113_1_alg».proof.Proof.Gen.Kernel
import proofs.«127264_j6760278524113_1_alg».proof.Proof.Gen.Kernel.Skeleton
import proofs.«127264_j6760278524113_1_alg».proof.Proof.Gen.Kernel.Launch
import proofs.«127264_j6760278524113_1_alg».proof.Proof.Gen.Kernel.Points
import proofs.«127264_j6760278524113_1_alg».proof.Proof.Gen.Kernel.Frame
import proofs.«127264_j6760278524113_1_alg».proof.Proof.Gen.KernelIdeal
import proofs.«127264_j6760278524113_1_alg».proof.Proof.Gen.KernelIdeal.Skeleton
import proofs.«127264_j6760278524113_1_alg».proof.Proof.Gen.KernelIdeal.Launch
import proofs.«127264_j6760278524113_1_alg».proof.Proof.Gen.KernelIdeal.Points
import proofs.«127264_j6760278524113_1_alg».proof.Proof.Gen.KernelIdeal.Frame
import proofs.«127264_j6760278524113_1_alg».proof.Proof.Gen.ReferenceIdeal
import proofs.«127264_j6760278524113_1_alg».proof.Proof.Gen.Pre_finite_inputs
import proofs.«127264_j6760278524113_1_alg».proof.Proof.Spec
import proofs.«127264_j6760278524113_1_alg».proof.Proof.Algebra
import proofs.«127264_j6760278524113_1_alg».proof.Proof.PreRead
import proofs.«127264_j6760278524113_1_alg».proof.Proof.KRun
import proofs.«127264_j6760278524113_1_alg».proof.Proof.KValue
import proofs.«127264_j6760278524113_1_alg».proof.Proof.RTerm
import proofs.«127264_j6760278524113_1_alg».proof.Proof.RRun
import proofs.«127264_j6760278524113_1_alg».proof.Proof.RRead
import Idealize.ShloMosaic.Adequacy
import Idealize.ShloMosaic.Init

noncomputable section

namespace Cert.Proof

open Idealize.ShloMosaic Idealize.SL.Sem

/-- The kernel as printed runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The reference runs and leaves its arguments unchanged: its run read back, the result dropped. -/
theorem frame_ri : Cert.frame_ReferenceIdeal := fun m ρ _ =>
  (θ_run Cert.ReferenceIdeal.defs _ _).mono (fun _ h c => (h c).2) (Cert.ReferenceIdeal.Run.run (F := Ideal) m ρ)

/-- Under the precondition — every input entry a real number, no attention denominator zero — both programs end with the
    same array: the kernel's is the network with each batch-normalisation variance spelt as mean of squares minus
    squared mean, the reference's the same network with the variance spelt as mean of squared deviations, and the
    two spellings agree on real numbers. -/
theorem algebraic : Cert.algebraic_KernelIdeal_ReferenceIdeal := by
  intro m ρ m' ρ' hpre hagree
  refine ⟨fun c => fun i => Cert.Spec.outK (Cert.Spec.inputsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (i 0) (i 1) (i 2), ?_, ?_⟩
  · exact (θ_run Cert.KernelIdeal.defs _ _).mono
      (fun _ h c => ⟨(h c).1.trans (Cert.KernelIdeal.Value.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Run.run (F := Ideal) m' ρ')
    obtain ⟨e0, e1, e2, e3, e4, e5, e6, e7, e8, e9, e10, e11, e12, e13⟩ := hagree c
    rw [e0, e1, e2, e3, e4, e5, e6, e7, e8, e9, e10, e11, e12, e13, Cert.ReferenceIdeal.Read.refOut_eq]
    have hf := Cert.PreRead.finite_of_pre _ _ _ _ _ _ _ _ _ _ _ _ _ _ (hpre c)
    have hd := Cert.PreRead.denomNe_of_pre _ _ _ _ _ _ _ _ _ _ _ _ _ _ (hpre c)
    funext i
    exact (congrFun (congrFun (congrFun (Cert.Spec.outK_eq_outR _ hf hd) _) _) _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
